-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn {F : FTy → Type} [FloatOps F] (main_arg0 : FVec F S16x1x512x512 .f32) (main_arg1 : IVec S16x1x512x512 32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  main_v3
-- ==== Kernel.lean ====
abbrev S16x1x512x512 : Shape := ⟨4, ![16, 1, 512, 512]⟩
abbrev S16x1x8 : Shape := ⟨3, ![16, 1, 8]⟩
abbrev S1x1x512x512 : Shape := ⟨4, ![1, 1, 512, 512]⟩
abbrev S1x1x8 : Shape := ⟨3, ![1, 1, 8]⟩
abbrev S1x512x512 : Shape := ⟨3, ![1, 512, 512]⟩
abbrev S1x512 : Shape := ⟨2, ![1, 512]⟩
abbrev S1 : Shape := ⟨1, ![1]⟩
abbrev S1x1 : Shape := ⟨2, ![1, 1]⟩
abbrev S1x3 : Shape := ⟨2, ![1, 3]⟩
abbrev S1x8 : Shape := ⟨2, ![1, 8]⟩
abbrev S16x8 : Shape := ⟨2, ![16, 8]⟩
abbrev S16x1 : Shape := ⟨2, ![16, 1]⟩
abbrev S16 : Shape := ⟨1, ![16]⟩
abbrev S_ : Shape := ⟨0, ![]⟩

abbrev nBuf : Space → Nat
  | .hbm => 86
  | .vmem => 6
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .i32⟩
  | .hbm, ⟨2, _⟩ => ⟨S16x1x8, .f32⟩
  | .hbm, ⟨3, _⟩ => ⟨S16x8, .f32⟩
  | .hbm, ⟨4, _⟩ => ⟨S16x1, .f32⟩
  | .hbm, ⟨5, _⟩ => ⟨S16, .f32⟩
  | .hbm, ⟨6, _⟩ => ⟨S16x1, .f32⟩
  | .hbm, ⟨7, _⟩ => ⟨S16, .f32⟩
  | .hbm, ⟨8, _⟩ => ⟨S16x1, .f32⟩
  | .hbm, ⟨9, _⟩ => ⟨S16, .f32⟩
  | .hbm, ⟨10, _⟩ => ⟨S16x1, .f32⟩
  | .hbm, ⟨11, _⟩ => ⟨S16, .f32⟩
  | .hbm, ⟨12, _⟩ => ⟨S16x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .i32⟩
  | .local _ .vmem, ⟨3, _⟩ => ⟨S1x1x512x512, .i32⟩
  | .local _ .vmem, ⟨4, _⟩ => ⟨S1x1x8, .f32⟩
  | .local _ .vmem, ⟨5, _⟩ => ⟨S1x1x8, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_cst_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_cst_12 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_13 : Ref sig .tc := ⟨.hbm, 59, rfl⟩
abbrev main_v43 : Ref sig .tc := ⟨.hbm, 60, rfl⟩
abbrev main_v44 : Ref sig .tc := ⟨.hbm, 61, rfl⟩
abbrev main_cst_14 : Ref sig .tc := ⟨.hbm, 62, rfl⟩
abbrev main_v45 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_cst_16 : Ref sig .tc := ⟨.hbm, 67, rfl⟩
abbrev main_v48 : Ref sig .tc := ⟨.hbm, 68, rfl⟩
abbrev main_cst_17 : Ref sig .tc := ⟨.hbm, 69, rfl⟩
abbrev main_v49 : Ref sig .tc := ⟨.hbm, 70, rfl⟩
abbrev main_cst_18 : Ref sig .tc := ⟨.hbm, 71, rfl⟩
abbrev main_v50 : Ref sig .tc := ⟨.hbm, 72, rfl⟩
abbrev main_cst_19 : Ref sig .tc := ⟨.hbm, 73, rfl⟩
abbrev main_v51 : Ref sig .tc := ⟨.hbm, 74, rfl⟩
abbrev main_cst_20 : Ref sig .tc := ⟨.hbm, 75, rfl⟩
abbrev main_v52 : Ref sig .tc := ⟨.hbm, 76, rfl⟩
abbrev main_cst_21 : Ref sig .tc := ⟨.hbm, 77, rfl⟩
abbrev main_v53 : Ref sig .tc := ⟨.hbm, 78, rfl⟩
abbrev main_v54 : Ref sig .tc := ⟨.hbm, 79, rfl⟩
abbrev main_cst_22 : Ref sig .tc := ⟨.hbm, 80, rfl⟩
abbrev main_v55 : Ref sig .tc := ⟨.hbm, 81, rfl⟩
abbrev main_v56 : Ref sig .tc := ⟨.hbm, 82, rfl⟩
abbrev main_cst_23 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x512x512 : S1x1x512x512.ShapeCasts S1x512x512
  iota_S1x512x512_d1_w32 : S1x512x512.Iotas .tc 32 [1]
  iota_S1x512x512_d2_w32 : S1x512x512.Iotas .tc 32 [2]
  reduces_S1x512x512_S1x512 : S1x512x512.Reduces [1] S1x512
  reduces_S1x512_S1 : S1x512.Reduces [1] S1
  rotates_S1x512x512_d1 : S1x512x512.Rotates 1 none
  rotates_S1x512x512_d2 : S1x512x512.Rotates 2 none
  shapeCasts_S1_S1x1 : S1.ShapeCasts S1x1
  concatenates_S1x1_S1x1_S1x1_S1x1_S1x1_S1x3_S1x8_d1 : Shape.Concatenates [S1x1, S1x1, S1x1, S1x1, S1x1, S1x3] S1x8 1
  shapeCasts_S1x8_S1x1x8 : S1x8.ShapeCasts S1x1x8
  inb_S1x1x8_S1x1x8_0_0_0 : ∀ a, (![0, 0, 0] : Fin 3 → Nat) a + S1x1x8.size a ≤ S1x1x8.size a
  h_S1x1x8 : 0 < S1x1x8.numel
  shapeCasts_S16x1x8_S16x8 : S16x1x8.ShapeCasts S16x8
  slices_S16x8_S16x1_0_0 : S16x8.Slices ![0, 0] S16x1
  shapeCasts_S16x1_S16 : S16x1.ShapeCasts S16
  slices_S16x8_S16x1_0_1 : S16x8.Slices ![0, 1] S16x1
  slices_S16x8_S16x1_0_2 : S16x8.Slices ![0, 2] S16x1
  slices_S16x8_S16x1_0_3 : S16x8.Slices ![0, 3] S16x1
  slices_S16x8_S16x1_0_4 : S16x8.Slices ![0, 4] S16x1
  reducesTo_S16_S_d0 : S16.ReducesTo [0] S_
  h_S_ : 0 < S_.numel
  bcast_S_S16 : S_.BroadcastsInDim S16 (![] : Fin 0 → Fin S16.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x1x512x512.size a
  hwx0_0 : ∀ i : grid0.Coords, EltTy.bits .f32 = 32 ∨ (Rect.block (s := S16x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .i32 = 32 ∨ (Rect.block (s := S16x1x512x512) S1x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8.size a ≤ S16x1x8.size a
  hwx0_2 : ∀ i : grid0.Coords, EltTy.bits .f32 = 32 ∨ (Rect.block (s := S16x1x8) S1x1x8.size (cc0_transform_2 i) (hinb0_2 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1x512x512 : Shape := ⟨4, ![16, 1, 512, 512]⟩
abbrev S_ : Shape := ⟨0, ![]⟩
abbrev S16x262144 : Shape := ⟨2, ![16, 262144]⟩
abbrev S16 : Shape := ⟨1, ![16]⟩

abbrev nBuf : Space → Nat
  | .hbm => 354
  | .vmem => 0
  | .smem => 0
  | _ => 0

abbrev hbmTy0_0 (i : Nat) : BufTy := match i % 128 with
  | 0 => ⟨S16x1x512x512, .f32⟩
  | 1 => ⟨S16x1x512x512, .i32⟩
  | 2 => ⟨S16x1x512x512, .f32⟩
  | 3 => ⟨S_, .f32⟩
  | 4 => ⟨S16x1x512x512, .f32⟩
  | 5 => ⟨S16x1x512x512, .f32⟩
  | 6 => ⟨S16x1x512x512, .f32⟩
  | 7 => ⟨S16x1x512x512, .f32⟩
  | 8 => ⟨S16x1x512x512, .f32⟩
  | 9 => ⟨S16x1x512x512, .f32⟩
  | 10 => ⟨S16x1x512x512, .f32⟩
  | 11 => ⟨S16x1x512x512, .f32⟩
  | 12 => ⟨S16x1x512x512, .f32⟩
  | 13 => ⟨S_, .f32⟩
  | 14 => ⟨S_, .f32⟩
  | 15 => ⟨S_, .f32⟩
  | 16 => ⟨S_, .f32⟩
  | 17 => ⟨S16x1x512x512, .f32⟩
  | 18 => ⟨S16x1x512x512, .f32⟩
  | 19 => ⟨S_, .f32⟩
  | 20 => ⟨S16x1x512x512, .f32⟩
  | 21 => ⟨S16x1x512x512, .f32⟩
  | 22 => ⟨S_, .f32⟩
  | 23 => ⟨S16x1x512x512, .f32⟩
  | 24 => ⟨S16x1x512x512, .f32⟩
  | 25 => ⟨S16x262144, .f32⟩
  | 26 => ⟨S16x262144, .f32⟩
  | 27 => ⟨S16x262144, .f32⟩
  | 28 => ⟨S_, .f32⟩
  | 29 => ⟨S16, .f32⟩
  | 30 => ⟨S_, .f32⟩
  | 31 => ⟨S16, .f32⟩
  | 32 => ⟨S_, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S_, .f32⟩
  | 53 => ⟨S_, .f32⟩
  | 54 => ⟨S_, .f32⟩
  | 55 => ⟨S16x262144, .f32⟩
  | 56 => ⟨S16x262144, .f32⟩
  | 57 => ⟨S16x262144, .f32⟩
  | 58 => ⟨S_, .f32⟩
  | 59 => ⟨S16, .f32⟩
  | 60 => ⟨S_, .f32⟩
  | 61 => ⟨S16x262144, .f32⟩
  | 62 => ⟨S16x262144, .f32⟩
  | 63 => ⟨S16x262144, .f32⟩
  | 64 => ⟨S_, .f32⟩
  | 65 => ⟨S16, .f32⟩
  | 66 => ⟨S_, .f32⟩
  | 67 => ⟨S16x262144, .f32⟩
  | 68 => ⟨S16x262144, .f32⟩
  | 69 => ⟨S16x262144, .f32⟩
  | 70 => ⟨S_, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S16, .f32⟩
  | 79 => ⟨S_, .f32⟩
  | 80 => ⟨S16, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S16x1x512x512, .f32⟩
  | 103 => ⟨S_, .f32⟩
  | 104 => ⟨S_, .f32⟩
  | 105 => ⟨S16x1x512x512, .f32⟩
  | 106 => ⟨S16x1x512x512, .f32⟩
  | 107 => ⟨S_, .f32⟩
  | 108 => ⟨S16x1x512x512, .f32⟩
  | 109 => ⟨S16x1x512x512, .f32⟩
  | 110 => ⟨S_, .f32⟩
  | 111 => ⟨S_, .f32⟩
  | 112 => ⟨S16x1x512x512, .f32⟩
  | 113 => ⟨S_, .f32⟩
  | 114 => ⟨S_, .f32⟩
  | 115 => ⟨S16x1x512x512, .f32⟩
  | 116 => ⟨S16x1x512x512, .f32⟩
  | 117 => ⟨S_, .f32⟩
  | 118 => ⟨S16x1x512x512, .f32⟩
  | 119 => ⟨S16x1x512x512, .f32⟩
  | 120 => ⟨S_, .f32⟩
  | 121 => ⟨S_, .f32⟩
  | 122 => ⟨S16x1x512x512, .f32⟩
  | 123 => ⟨S_, .f32⟩
  | 124 => ⟨S_, .f32⟩
  | 125 => ⟨S16x1x512x512, .f32⟩
  | 126 => ⟨S16x1x512x512, .f32⟩
  | 127 => ⟨S16x1x512x512, .f32⟩
  | _ => ⟨S16x1x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16x1x512x512, .f32⟩
  | 5 => ⟨S16x1x512x512, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S16x1x512x512, .f32⟩
  | 18 => ⟨S_, .f32⟩
  | 19 => ⟨S_, .f32⟩
  | 20 => ⟨S16x1x512x512, .f32⟩
  | 21 => ⟨S16x1x512x512, .f32⟩
  | 22 => ⟨S16x1x512x512, .f32⟩
  | 23 => ⟨S_, .f32⟩
  | 24 => ⟨S_, .f32⟩
  | 25 => ⟨S_, .f32⟩
  | 26 => ⟨S_, .f32⟩
  | 27 => ⟨S16x1x512x512, .f32⟩
  | 28 => ⟨S16x1x512x512, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S16x1x512x512, .f32⟩
  | 40 => ⟨S_, .f32⟩
  | 41 => ⟨S_, .f32⟩
  | 42 => ⟨S16x1x512x512, .f32⟩
  | 43 => ⟨S16x1x512x512, .f32⟩
  | 44 => ⟨S16x1x512x512, .f32⟩
  | 45 => ⟨S_, .f32⟩
  | 46 => ⟨S_, .f32⟩
  | 47 => ⟨S_, .f32⟩
  | 48 => ⟨S_, .f32⟩
  | 49 => ⟨S16x1x512x512, .f32⟩
  | 50 => ⟨S16x1x512x512, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S16x1x512x512, .f32⟩
  | 62 => ⟨S_, .f32⟩
  | 63 => ⟨S_, .f32⟩
  | 64 => ⟨S16x1x512x512, .f32⟩
  | 65 => ⟨S16x1x512x512, .f32⟩
  | 66 => ⟨S16x1x512x512, .f32⟩
  | 67 => ⟨S_, .f32⟩
  | 68 => ⟨S_, .f32⟩
  | 69 => ⟨S_, .f32⟩
  | 70 => ⟨S_, .f32⟩
  | 71 => ⟨S16x1x512x512, .f32⟩
  | 72 => ⟨S16x1x512x512, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S16x1x512x512, .f32⟩
  | 84 => ⟨S_, .f32⟩
  | 85 => ⟨S_, .f32⟩
  | 86 => ⟨S16x1x512x512, .f32⟩
  | 87 => ⟨S16x1x512x512, .f32⟩
  | 88 => ⟨S16x1x512x512, .f32⟩
  | 89 => ⟨S_, .f32⟩
  | 90 => ⟨S_, .f32⟩
  | 91 => ⟨S_, .f32⟩
  | 92 => ⟨S_, .f32⟩
  | 93 => ⟨S16x1x512x512, .f32⟩
  | 94 => ⟨S16x1x512x512, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S16x1x512x512, .f32⟩
  | 106 => ⟨S_, .f32⟩
  | 107 => ⟨S_, .f32⟩
  | 108 => ⟨S16x1x512x512, .f32⟩
  | 109 => ⟨S16x1x512x512, .f32⟩
  | 110 => ⟨S16x1x512x512, .f32⟩
  | 111 => ⟨S_, .f32⟩
  | 112 => ⟨S_, .f32⟩
  | 113 => ⟨S_, .f32⟩
  | 114 => ⟨S_, .f32⟩
  | 115 => ⟨S16x1x512x512, .f32⟩
  | 116 => ⟨S16x1x512x512, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S16x1x512x512, .f32⟩
  | _ => ⟨S16x1x512x512, .f32⟩

abbrev hbmTy0_2 (i : Nat) : BufTy := match i % 128 with
  | 0 => ⟨S_, .f32⟩
  | 1 => ⟨S_, .f32⟩
  | 2 => ⟨S16x1x512x512, .f32⟩
  | 3 => ⟨S16x1x512x512, .f32⟩
  | 4 => ⟨S16x1x512x512, .f32⟩
  | 5 => ⟨S_, .f32⟩
  | 6 => ⟨S_, .f32⟩
  | 7 => ⟨S_, .f32⟩
  | 8 => ⟨S_, .f32⟩
  | 9 => ⟨S16x1x512x512, .f32⟩
  | 10 => ⟨S16x1x512x512, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S16x1x512x512, .f32⟩
  | 22 => ⟨S_, .f32⟩
  | 23 => ⟨S_, .f32⟩
  | 24 => ⟨S16x1x512x512, .f32⟩
  | 25 => ⟨S16x1x512x512, .f32⟩
  | 26 => ⟨S16x1x512x512, .f32⟩
  | 27 => ⟨S_, .f32⟩
  | 28 => ⟨S_, .f32⟩
  | 29 => ⟨S_, .f32⟩
  | 30 => ⟨S_, .f32⟩
  | 31 => ⟨S16x1x512x512, .f32⟩
  | 32 => ⟨S16x1x512x512, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S16x1x512x512, .f32⟩
  | 44 => ⟨S_, .f32⟩
  | 45 => ⟨S_, .f32⟩
  | 46 => ⟨S16x1x512x512, .f32⟩
  | 47 => ⟨S16x1x512x512, .f32⟩
  | 48 => ⟨S16x1x512x512, .f32⟩
  | 49 => ⟨S_, .f32⟩
  | 50 => ⟨S_, .f32⟩
  | 51 => ⟨S_, .f32⟩
  | 52 => ⟨S_, .f32⟩
  | 53 => ⟨S16x1x512x512, .f32⟩
  | 54 => ⟨S16x1x512x512, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S16x1x512x512, .f32⟩
  | 66 => ⟨S_, .f32⟩
  | 67 => ⟨S_, .f32⟩
  | 68 => ⟨S16x1x512x512, .f32⟩
  | 69 => ⟨S16x1x512x512, .f32⟩
  | 70 => ⟨S16x1x512x512, .f32⟩
  | 71 => ⟨S_, .f32⟩
  | 72 => ⟨S_, .f32⟩
  | 73 => ⟨S_, .f32⟩
  | 74 => ⟨S_, .f32⟩
  | 75 => ⟨S16x1x512x512, .f32⟩
  | 76 => ⟨S16x1x512x512, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | _ => ⟨S16x1x512x512, .f32⟩

abbrev hbmTy (i : Nat) : BufTy := match i / 128 with
  | 0 => hbmTy0_0 i
  | 1 => hbmTy0_1 i
  | 2 => hbmTy0_2 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_v35 : Ref sig .tc := ⟨.hbm, 50, rfl⟩
abbrev main_cst_12 : Ref sig .tc := ⟨.hbm, 51, rfl⟩
abbrev main_v36 : Ref sig .tc := ⟨.hbm, 52, rfl⟩
abbrev main_cst_13 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_14 : Ref sig .tc := ⟨.hbm, 58, rfl⟩
abbrev main_v41 : Ref sig .tc := ⟨.hbm, 59, rfl⟩
abbrev main_cst_15 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_16 : Ref sig .tc := ⟨.hbm, 64, rfl⟩
abbrev main_v45 : Ref sig .tc := ⟨.hbm, 65, rfl⟩
abbrev main_cst_17 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_18 : Ref sig .tc := ⟨.hbm, 70, rfl⟩
abbrev main_v49 : Ref sig .tc := ⟨.hbm, 71, rfl⟩
abbrev main_cst_19 : Ref sig .tc := ⟨.hbm, 72, rfl⟩
abbrev main_v50 : Ref sig .tc := ⟨.hbm, 73, rfl⟩
abbrev main_v51 : Ref sig .tc := ⟨.hbm, 74, rfl⟩
abbrev main_cst_20 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_21 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_22 : Ref sig .tc := ⟨.hbm, 83, rfl⟩
abbrev main_v58 : Ref sig .tc := ⟨.hbm, 84, rfl⟩
abbrev main_v59 : Ref sig .tc := ⟨.hbm, 85, rfl⟩
abbrev main_cst_23 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_24 : Ref sig .tc := ⟨.hbm, 90, rfl⟩
abbrev main_v63 : Ref sig .tc := ⟨.hbm, 91, rfl⟩
abbrev main_v64 : Ref sig .tc := ⟨.hbm, 92, rfl⟩
abbrev main_cst_25 : Ref sig .tc := ⟨.hbm, 93, rfl⟩
abbrev main_v65 : Ref sig .tc := ⟨.hbm, 94, rfl⟩
abbrev main_v66 : Ref sig .tc := ⟨.hbm, 95, rfl⟩
abbrev main_cst_26 : Ref sig .tc := ⟨.hbm, 96, rfl⟩
abbrev main_v67 : Ref sig .tc := ⟨.hbm, 97, rfl⟩
abbrev main_cst_27 : Ref sig .tc := ⟨.hbm, 98, rfl⟩
abbrev main_v68 : Ref sig .tc := ⟨.hbm, 99, rfl⟩
abbrev main_cst_28 : Ref sig .tc := ⟨.hbm, 100, rfl⟩
abbrev main_v69 : Ref sig .tc := ⟨.hbm, 101, rfl⟩
abbrev main_v70 : Ref sig .tc := ⟨.hbm, 102, rfl⟩
abbrev main_cst_29 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_30 : Ref sig .tc := ⟨.hbm, 107, rfl⟩
abbrev main_v74 : Ref sig .tc := ⟨.hbm, 108, rfl⟩
abbrev main_v75 : Ref sig .tc := ⟨.hbm, 109, rfl⟩
abbrev main_cst_31 : Ref sig .tc := ⟨.hbm, 110, rfl⟩
abbrev main_v76 : Ref sig .tc := ⟨.hbm, 111, rfl⟩
abbrev main_v77 : Ref sig .tc := ⟨.hbm, 112, rfl⟩
abbrev main_cst_32 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_33 : Ref sig .tc := ⟨.hbm, 117, rfl⟩
abbrev main_v81 : Ref sig .tc := ⟨.hbm, 118, rfl⟩
abbrev main_v82 : Ref sig .tc := ⟨.hbm, 119, rfl⟩
abbrev main_cst_34 : Ref sig .tc := ⟨.hbm, 120, rfl⟩
abbrev main_v83 : Ref sig .tc := ⟨.hbm, 121, rfl⟩
abbrev main_v84 : Ref sig .tc := ⟨.hbm, 122, rfl⟩
abbrev main_cst_35 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_36 : Ref sig .tc := ⟨.hbm, 128, rfl⟩
abbrev main_v89 : Ref sig .tc := ⟨.hbm, 129, rfl⟩
abbrev main_cst_37 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_38 : Ref sig .tc := ⟨.hbm, 134, rfl⟩
abbrev main_v93 : Ref sig .tc := ⟨.hbm, 135, rfl⟩
abbrev main_cst_39 : Ref sig .tc := ⟨.hbm, 136, rfl⟩
abbrev main_v94 : Ref sig .tc := ⟨.hbm, 137, rfl⟩
abbrev main_v95 : Ref sig .tc := ⟨.hbm, 138, rfl⟩
abbrev main_cst_40 : Ref sig .tc := ⟨.hbm, 139, rfl⟩
abbrev main_v96 : Ref sig .tc := ⟨.hbm, 140, rfl⟩
abbrev main_cst_41 : Ref sig .tc := ⟨.hbm, 141, rfl⟩
abbrev main_v97 : Ref sig .tc := ⟨.hbm, 142, rfl⟩
abbrev main_cst_42 : Ref sig .tc := ⟨.hbm, 143, rfl⟩
abbrev main_v98 : Ref sig .tc := ⟨.hbm, 144, rfl⟩
abbrev main_v99 : Ref sig .tc := ⟨.hbm, 145, rfl⟩
abbrev main_cst_43 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_44 : Ref sig .tc := ⟨.hbm, 151, rfl⟩
abbrev main_v104 : Ref sig .tc := ⟨.hbm, 152, rfl⟩
abbrev main_cst_45 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_46 : Ref sig .tc := ⟨.hbm, 157, rfl⟩
abbrev main_v108 : Ref sig .tc := ⟨.hbm, 158, rfl⟩
abbrev main_cst_47 : Ref sig .tc := ⟨.hbm, 159, rfl⟩
abbrev main_v109 : Ref sig .tc := ⟨.hbm, 160, rfl⟩
abbrev main_v110 : Ref sig .tc := ⟨.hbm, 161, rfl⟩
abbrev main_cst_48 : Ref sig .tc := ⟨.hbm, 162, rfl⟩
abbrev main_v111 : Ref sig .tc := ⟨.hbm, 163, rfl⟩
abbrev main_v112 : Ref sig .tc := ⟨.hbm, 164, rfl⟩
abbrev main_cst_49 : Ref sig .tc := ⟨.hbm, 165, rfl⟩
abbrev main_v113 : Ref sig .tc := ⟨.hbm, 166, rfl⟩
abbrev main_v114 : Ref sig .tc := ⟨.hbm, 167, rfl⟩
abbrev main_cst_50 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_51 : Ref sig .tc := ⟨.hbm, 173, rfl⟩
abbrev main_v119 : Ref sig .tc := ⟨.hbm, 174, rfl⟩
abbrev main_cst_52 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_53 : Ref sig .tc := ⟨.hbm, 179, rfl⟩
abbrev main_v123 : Ref sig .tc := ⟨.hbm, 180, rfl⟩
abbrev main_cst_54 : Ref sig .tc := ⟨.hbm, 181, rfl⟩
abbrev main_v124 : Ref sig .tc := ⟨.hbm, 182, rfl⟩
abbrev main_v125 : Ref sig .tc := ⟨.hbm, 183, rfl⟩
abbrev main_cst_55 : Ref sig .tc := ⟨.hbm, 184, rfl⟩
abbrev main_v126 : Ref sig .tc := ⟨.hbm, 185, rfl⟩
abbrev main_v127 : Ref sig .tc := ⟨.hbm, 186, rfl⟩
abbrev main_cst_56 : Ref sig .tc := ⟨.hbm, 187, rfl⟩
abbrev main_v128 : Ref sig .tc := ⟨.hbm, 188, rfl⟩
abbrev main_v129 : Ref sig .tc := ⟨.hbm, 189, rfl⟩
abbrev main_cst_57 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_cst_58 : Ref sig .tc := ⟨.hbm, 195, rfl⟩
abbrev main_v134 : Ref sig .tc := ⟨.hbm, 196, rfl⟩
abbrev main_cst_59 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_60 : Ref sig .tc := ⟨.hbm, 201, rfl⟩
abbrev main_v138 : Ref sig .tc := ⟨.hbm, 202, rfl⟩
abbrev main_cst_61 : Ref sig .tc := ⟨.hbm, 203, rfl⟩
abbrev main_v139 : Ref sig .tc := ⟨.hbm, 204, rfl⟩
abbrev main_v140 : Ref sig .tc := ⟨.hbm, 205, rfl⟩
abbrev main_cst_62 : Ref sig .tc := ⟨.hbm, 206, rfl⟩
abbrev main_v141 : Ref sig .tc := ⟨.hbm, 207, rfl⟩
abbrev main_v142 : Ref sig .tc := ⟨.hbm, 208, rfl⟩
abbrev main_cst_63 : Ref sig .tc := ⟨.hbm, 209, rfl⟩
abbrev main_v143 : Ref sig .tc := ⟨.hbm, 210, rfl⟩
abbrev main_v144 : Ref sig .tc := ⟨.hbm, 211, rfl⟩
abbrev main_cst_64 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_65 : Ref sig .tc := ⟨.hbm, 217, rfl⟩
abbrev main_v149 : Ref sig .tc := ⟨.hbm, 218, rfl⟩
abbrev main_cst_66 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_67 : Ref sig .tc := ⟨.hbm, 223, rfl⟩
abbrev main_v153 : Ref sig .tc := ⟨.hbm, 224, rfl⟩
abbrev main_cst_68 : Ref sig .tc := ⟨.hbm, 225, rfl⟩
abbrev main_v154 : Ref sig .tc := ⟨.hbm, 226, rfl⟩
abbrev main_v155 : Ref sig .tc := ⟨.hbm, 227, rfl⟩
abbrev main_cst_69 : Ref sig .tc := ⟨.hbm, 228, rfl⟩
abbrev main_v156 : Ref sig .tc := ⟨.hbm, 229, rfl⟩
abbrev main_v157 : Ref sig .tc := ⟨.hbm, 230, rfl⟩
abbrev main_cst_70 : Ref sig .tc := ⟨.hbm, 231, rfl⟩
abbrev main_v158 : Ref sig .tc := ⟨.hbm, 232, rfl⟩
abbrev main_v159 : Ref sig .tc := ⟨.hbm, 233, rfl⟩
abbrev main_cst_71 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_72 : Ref sig .tc := ⟨.hbm, 239, rfl⟩
abbrev main_v164 : Ref sig .tc := ⟨.hbm, 240, rfl⟩
abbrev main_cst_73 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_cst_74 : Ref sig .tc := ⟨.hbm, 245, rfl⟩
abbrev main_v168 : Ref sig .tc := ⟨.hbm, 246, rfl⟩
abbrev main_cst_75 : Ref sig .tc := ⟨.hbm, 247, rfl⟩
abbrev main_v169 : Ref sig .tc := ⟨.hbm, 248, rfl⟩
abbrev main_v170 : Ref sig .tc := ⟨.hbm, 249, rfl⟩
abbrev main_cst_76 : Ref sig .tc := ⟨.hbm, 250, rfl⟩
abbrev main_v171 : Ref sig .tc := ⟨.hbm, 251, rfl⟩
abbrev main_v172 : Ref sig .tc := ⟨.hbm, 252, rfl⟩
abbrev main_cst_77 : Ref sig .tc := ⟨.hbm, 253, rfl⟩
abbrev main_v173 : Ref sig .tc := ⟨.hbm, 254, rfl⟩
abbrev main_v174 : Ref sig .tc := ⟨.hbm, 255, rfl⟩
abbrev main_cst_78 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_cst_79 : Ref sig .tc := ⟨.hbm, 261, rfl⟩
abbrev main_v179 : Ref sig .tc := ⟨.hbm, 262, rfl⟩
abbrev main_cst_80 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_cst_81 : Ref sig .tc := ⟨.hbm, 267, rfl⟩
abbrev main_v183 : Ref sig .tc := ⟨.hbm, 268, rfl⟩
abbrev main_cst_82 : Ref sig .tc := ⟨.hbm, 269, rfl⟩
abbrev main_v184 : Ref sig .tc := ⟨.hbm, 270, rfl⟩
abbrev main_v185 : Ref sig .tc := ⟨.hbm, 271, rfl⟩
abbrev main_cst_83 : Ref sig .tc := ⟨.hbm, 272, rfl⟩
abbrev main_v186 : Ref sig .tc := ⟨.hbm, 273, rfl⟩
abbrev main_v187 : Ref sig .tc := ⟨.hbm, 274, rfl⟩
abbrev main_cst_84 : Ref sig .tc := ⟨.hbm, 275, rfl⟩
abbrev main_v188 : Ref sig .tc := ⟨.hbm, 276, rfl⟩
abbrev main_v189 : Ref sig .tc := ⟨.hbm, 277, rfl⟩
abbrev main_cst_85 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_cst_86 : Ref sig .tc := ⟨.hbm, 283, rfl⟩
abbrev main_v194 : Ref sig .tc := ⟨.hbm, 284, rfl⟩
abbrev main_cst_87 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_cst_88 : Ref sig .tc := ⟨.hbm, 289, rfl⟩
abbrev main_v198 : Ref sig .tc := ⟨.hbm, 290, rfl⟩
abbrev main_cst_89 : Ref sig .tc := ⟨.hbm, 291, rfl⟩
abbrev main_v199 : Ref sig .tc := ⟨.hbm, 292, rfl⟩
abbrev main_v200 : Ref sig .tc := ⟨.hbm, 293, rfl⟩
abbrev main_cst_90 : Ref sig .tc := ⟨.hbm, 294, rfl⟩
abbrev main_v201 : Ref sig .tc := ⟨.hbm, 295, rfl⟩
abbrev main_v202 : Ref sig .tc := ⟨.hbm, 296, rfl⟩
abbrev main_cst_91 : Ref sig .tc := ⟨.hbm, 297, rfl⟩
abbrev main_v203 : Ref sig .tc := ⟨.hbm, 298, rfl⟩
abbrev main_v204 : Ref sig .tc := ⟨.hbm, 299, rfl⟩
abbrev main_cst_92 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_cst_93 : Ref sig .tc := ⟨.hbm, 305, rfl⟩
abbrev main_v209 : Ref sig .tc := ⟨.hbm, 306, rfl⟩
abbrev main_cst_94 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_cst_95 : Ref sig .tc := ⟨.hbm, 311, rfl⟩
abbrev main_v213 : Ref sig .tc := ⟨.hbm, 312, rfl⟩
abbrev main_cst_96 : Ref sig .tc := ⟨.hbm, 313, rfl⟩
abbrev main_v214 : Ref sig .tc := ⟨.hbm, 314, rfl⟩
abbrev main_v215 : Ref sig .tc := ⟨.hbm, 315, rfl⟩
abbrev main_cst_97 : Ref sig .tc := ⟨.hbm, 316, rfl⟩
abbrev main_v216 : Ref sig .tc := ⟨.hbm, 317, rfl⟩
abbrev main_v217 : Ref sig .tc := ⟨.hbm, 318, rfl⟩
abbrev main_cst_98 : Ref sig .tc := ⟨.hbm, 319, rfl⟩
abbrev main_v218 : Ref sig .tc := ⟨.hbm, 320, rfl⟩
abbrev main_v219 : Ref sig .tc := ⟨.hbm, 321, rfl⟩
abbrev main_cst_99 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_cst_100 : Ref sig .tc := ⟨.hbm, 327, rfl⟩
abbrev main_v224 : Ref sig .tc := ⟨.hbm, 328, rfl⟩
abbrev main_cst_101 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_cst_102 : Ref sig .tc := ⟨.hbm, 333, rfl⟩
abbrev main_v228 : Ref sig .tc := ⟨.hbm, 334, rfl⟩
abbrev main_cst_103 : Ref sig .tc := ⟨.hbm, 335, rfl⟩
abbrev main_v229 : Ref sig .tc := ⟨.hbm, 336, rfl⟩
abbrev main_v230 : Ref sig .tc := ⟨.hbm, 337, rfl⟩
abbrev main_cst_104 : Ref sig .tc := ⟨.hbm, 338, rfl⟩
abbrev main_v231 : Ref sig .tc := ⟨.hbm, 339, rfl⟩
abbrev main_v232 : Ref sig .tc := ⟨.hbm, 340, rfl⟩
abbrev main_cst_105 : Ref sig .tc := ⟨.hbm, 341, rfl⟩
abbrev main_v233 : Ref sig .tc := ⟨.hbm, 342, rfl⟩
abbrev main_cst_106 : Ref sig .tc := ⟨.hbm, 343, rfl⟩
abbrev main_v234 : Ref sig .tc := ⟨.hbm, 344, rfl⟩
abbrev main_cst_107 : Ref sig .tc := ⟨.hbm, 345, rfl⟩
abbrev main_v235 : Ref sig .tc := ⟨.hbm, 346, rfl⟩
abbrev main_v236 : Ref sig .tc := ⟨.hbm, 347, rfl⟩
abbrev main_cst_108 : Ref sig .tc := ⟨.hbm, 348, rfl⟩
abbrev main_v237 : Ref sig .tc := ⟨.hbm, 349, rfl⟩
abbrev main_v238 : Ref sig .tc := ⟨.hbm, 350, rfl⟩
abbrev main_cst_109 : Ref sig .tc := ⟨.hbm, 351, rfl⟩
abbrev main_v239 : Ref sig .tc := ⟨.hbm, 352, rfl⟩
abbrev main_v240 : Ref sig .tc := ⟨.hbm, 353, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  shapeCasts_S16x1x512x512_S16x262144 : S16x1x512x512.ShapeCasts S16x262144
  reducesTo_S16x262144_S16_d1 : S16x262144.ReducesTo [1] S16
  bcast_S_S16 : S_.BroadcastsInDim S16 (![] : Fin 0 → Fin S16.rank)
  reducesTo_S16_S_d0 : S16.ReducesTo [0] S_
  bcast_S_S16x262144 : S_.BroadcastsInDim S16x262144 (![] : Fin 0 → Fin S16x262144.rank)
  bcast_S_S_ : S_.BroadcastsInDim S_ (![] : Fin 0 → Fin S_.rank)
  reduceWindows_S16x1x512x512_S16x1x512x512_w1s1p0_0_w1s1p0_0_w3s1p1_1_w3s1p1_1 : S16x1x512x512.ReduceWindows (![1, 1, 3, 3] : Fin 4 → Nat) ![1, 1, 1, 1] ![0, 0, 1, 1] ![0, 0, 1, 1] S16x1x512x512
  reduceWindows_S16x1x512x512_S16x1x512x512_w1s1p0_0_w1s1p0_0_w5s1p2_2_w5s1p2_2 : S16x1x512x512.ReduceWindows (![1, 1, 5, 5] : Fin 4 → Nat) ![1, 1, 1, 1] ![0, 0, 2, 2] ![0, 0, 2, 2] S16x1x512x512
  reduceWindows_S16x1x512x512_S16x1x512x512_w1s1p0_0_w1s1p0_0_w7s1p3_3_w7s1p3_3 : S16x1x512x512.ReduceWindows (![1, 1, 7, 7] : Fin 4 → Nat) ![1, 1, 1, 1] ![0, 0, 3, 3] ![0, 0, 3, 3] S16x1x512x512
  reduceWindows_S16x1x512x512_S16x1x512x512_w1s1p0_0_w1s1p0_0_w9s1p4_4_w9s1p4_4 : S16x1x512x512.ReduceWindows (![1, 1, 9, 9] : Fin 4 → Nat) ![1, 1, 1, 1] ![0, 0, 4, 4] ![0, 0, 4, 4] S16x1x512x512
  reduceWindows_S16x1x512x512_S16x1x512x512_w1s1p0_0_w1s1p0_0_w11s1p5_5_w11s1p5_5 : S16x1x512x512.ReduceWindows (![1, 1, 11, 11] : Fin 4 → Nat) ![1, 1, 1, 1] ![0, 0, 5, 5] ![0, 0, 5, 5] S16x1x512x512
  reduceWindows_S16x1x512x512_S16x1x512x512_w1s1p0_0_w1s1p0_0_w13s1p6_6_w13s1p6_6 : S16x1x512x512.ReduceWindows (![1, 1, 13, 13] : Fin 4 → Nat) ![1, 1, 1, 1] ![0, 0, 6, 6] ![0, 0, 6, 6] S16x1x512x512
  reduceWindows_S16x1x512x512_S16x1x512x512_w1s1p0_0_w1s1p0_0_w15s1p7_7_w15s1p7_7 : S16x1x512x512.ReduceWindows (![1, 1, 15, 15] : Fin 4 → Nat) ![1, 1, 1, 1] ![0, 0, 7, 7] ![0, 0, 7, 7] S16x1x512x512
  reduceWindows_S16x1x512x512_S16x1x512x512_w1s1p0_0_w1s1p0_0_w17s1p8_8_w17s1p8_8 : S16x1x512x512.ReduceWindows (![1, 1, 17, 17] : Fin 4 → Nat) ![1, 1, 1, 1] ![0, 0, 8, 8] ![0, 0, 8, 8] S16x1x512x512
  reduceWindows_S16x1x512x512_S16x1x512x512_w1s1p0_0_w1s1p0_0_w19s1p9_9_w19s1p9_9 : S16x1x512x512.ReduceWindows (![1, 1, 19, 19] : Fin 4 → Nat) ![1, 1, 1, 1] ![0, 0, 9, 9] ![0, 0, 9, 9] S16x1x512x512
  reduceWindows_S16x1x512x512_S16x1x512x512_w1s1p0_0_w1s1p0_0_w21s1p10_10_w21s1p10_10 : S16x1x512x512.ReduceWindows (![1, 1, 21, 21] : Fin 4 → Nat) ![1, 1, 1, 1] ![0, 0, 10, 10] ![0, 0, 10, 10] S16x1x512x512

variable [Facts₀]

class Facts : Prop extends Facts₀ where

variable [Facts]
-- ==== Proof.KPayBits.lean ====
import proofs.«431201_j73778948211150_3_alg».proof.Proof.Gen.Kernel.Skeleton

/-!
  What the kernel stores, as one function of the two blocks it loads. The body loads the logits block and the target
  block once, computes, and stores one [1, 1, 8] vector. The value stored is written here as the chain of the body's
  intermediate planes in the order the body computes them: the integer plane as floats, the four border masks, the four
  lane sums and the sigmoid, the two soft boundaries, then ten rounds each of which dilates both boundaries once more and
  adds the round's weighted absolute differences to two running planes, and last the five statistics laid side by side
  with three zeros.
-/

noncomputable section

namespace Cert.Kernel.Gen

open Idealize.ShloMosaic Idealize.ShloMosaic.TcCoe

variable {F : FTy → Type} [FloatOps F]

/-- The stored vector from the loaded logits block `x0` and target block `x1`. -/
def PAY (x0 : Vec F S1x1x512x512 .f32) (x1 : Vec F S1x1x512x512 .i32) : FVec F S1x1x8 .f32 :=
  let v4 := k0_pay3 x1
  let v8 := k0_pay4
  let v10 := k0_pay5
  let v12 := k0_pay6
  let v14 := k0_pay7
  let v26 := k0_pay8 x0 x1
  let v27 := k0_pay9 x0
  let v29 := k0_pay10 x0
  let v31 := k0_pay11 x1
  let v34 := k0_pay12 x0 x1
  let v35 := k0_pay13 x0
  let v69 := k0_pay14 v8 v10 v12 v14 v27 v35
  let v72 := k0_pay15 v4 v8
  let v75 := k0_pay16 v4 v10
  let v104 := k0_pay17 v4 v8 v10 v12 v14 v72 v75
  let v105 := k0_pay18 (F := F)
  let v106 := k0_pay19 (F := F)
  let v114 := k0_pay20 v8 v10 v69
  let v115 := k0_pay21 v8 v10 v69
  let v138 := k0_pay23 v8 v10 v12 v14 v104
  let v145 := k0_pay24 v12 v14 v104 v105 v114 v115
  let v148 := k0_pay25 v8 v10 v12 v14 v69 v104 v106
  let v156 := k0_pay26 v8 v10 v12 v14 v114 v115
  let v157 := k0_pay27 v8 v10 v12 v14 v114 v115
  let v180 := k0_pay29 v8 v10 v12 v14 v138
  let v187 := k0_pay30 v12 v14 v104 v145 v156 v157
  let v190 := k0_pay31 v8 v10 v12 v14 v69 v138 v148
  let v198 := k0_pay32 v8 v10 v12 v14 v156 v157
  let v199 := k0_pay33 v8 v10 v12 v14 v156 v157
  let v222 := k0_pay35 v8 v10 v12 v14 v180
  let v229 := k0_pay36 v12 v14 v104 v187 v198 v199
  let v232 := k0_pay37 v8 v10 v12 v14 v69 v180 v190
  let v240 := k0_pay38 v8 v10 v12 v14 v198 v199
  let v241 := k0_pay39 v8 v10 v12 v14 v198 v199
  let v264 := k0_pay41 v8 v10 v12 v14 v222
  let v271 := k0_pay42 v12 v14 v104 v229 v240 v241
  let v274 := k0_pay43 v8 v10 v12 v14 v69 v222 v232
  let v282 := k0_pay44 v8 v10 v12 v14 v240 v241
  let v283 := k0_pay45 v8 v10 v12 v14 v240 v241
  let v306 := k0_pay47 v8 v10 v12 v14 v264
  let v313 := k0_pay48 v12 v14 v104 v271 v282 v283
  let v316 := k0_pay49 v8 v10 v12 v14 v69 v264 v274
  let v324 := k0_pay50 v8 v10 v12 v14 v282 v283
  let v325 := k0_pay51 v8 v10 v12 v14 v282 v283
  let v348 := k0_pay53 v8 v10 v12 v14 v306
  let v355 := k0_pay54 v12 v14 v104 v313 v324 v325
  let v358 := k0_pay55 v8 v10 v12 v14 v69 v306 v316
  let v366 := k0_pay56 v8 v10 v12 v14 v324 v325
  let v367 := k0_pay57 v8 v10 v12 v14 v324 v325
  let v390 := k0_pay59 v8 v10 v12 v14 v348
  let v397 := k0_pay60 v12 v14 v104 v355 v366 v367
  let v400 := k0_pay61 v8 v10 v12 v14 v69 v348 v358
  let v408 := k0_pay62 v8 v10 v12 v14 v366 v367
  let v409 := k0_pay63 v8 v10 v12 v14 v366 v367
  let v432 := k0_pay65 v8 v10 v12 v14 v390
  let v439 := k0_pay66 v12 v14 v104 v397 v408 v409
  let v442 := k0_pay67 v8 v10 v12 v14 v69 v390 v400
  let v450 := k0_pay68 v8 v10 v12 v14 v408 v409
  let v451 := k0_pay69 v8 v10 v12 v14 v408 v409
  let v474 := k0_pay71 v8 v10 v12 v14 v432
  let v481 := k0_pay72 v12 v14 v104 v439 v450 v451
  let v484 := k0_pay73 v8 v10 v12 v14 v69 v432 v442
  let v492 := k0_pay74 v8 v10 v12 v14 v450 v451
  let v493 := k0_pay75 v8 v10 v12 v14 v450 v451
  let v532 := k0_pay76 v26
  let v533 := k0_pay77 v29
  let v534 := k0_pay78 v31
  let v535 := k0_pay79 v34
  let v536 := k0_pay80 v8 v10 v12 v14 v69 v104 v474 v481 v484 v492 v493
  k0_pay1 v532 v533 v534 v535 v536

end Cert.Kernel.Gen

end
-- ==== Proof.KFrameBits.lean ====
import proofs.«431201_j73778948211150_3_alg».proof.Proof.KPayBits
import proofs.«431201_j73778948211150_3_alg».proof.Proof.Gen.Kernel.Launch
import proofs.«431201_j73778948211150_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
  The kernel program runs to the end, faults nowhere and leaves its two argument arrays as they were.

  @main is one pipelined region over the 16 images followed by host arithmetic on the region's [16, 1, 8] result. At each
  grid point the pipeline hands the body the point's logits block and target block in staging buffers; the body reads both
  whole, computes, and overwrites the whole [1, 1, 8] output buffer with one vector, a function of the two blocks alone.
  So the proof data is: every input buffer holds its block, the output buffer holds that function of the two blocks; the
  body meets it at every point; the pipeline's frame theorem then runs the region and the host lines after it, none of
  which writes an array of the pipeline.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line precedes it, so they are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

set_option maxHeartbeats 8000000 in
/-- None of them writes an array of the pipeline: each writes its own result buffer only. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    Finset.mem_singleton]
  repeat' apply And.intro
  all_goals intro w; fin_cases w <;> exact StableHlo.devRef_ne_of_ne (by decide)

set_option maxHeartbeats 8000000 in
/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run whose post has every array of the pipeline at what the proof data computes leaves both argument arrays as
    launched: an input window's array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's accesses -/

abbrev rIn : Rect S1x1x512x512 := Rect.unit (s := S1x1x512x512) ![0, 0, 0, 0] S1x1x512x512.size inb_S1x1x512x512_S1x1x512x512_0_0_0_0
abbrev rOut : Rect S1x1x8 := Rect.unit (s := S1x1x8) ![0, 0, 0] S1x1x8.size inb_S1x1x8_S1x1x8_0_0_0

/-- The output buffer after the body, from the two input buffers: its one store, of the stored vector `PAY` of the
    two loads. -/
def out0_2 (x0 : Vec F S1x1x512x512 .f32) (x1 : Vec F S1x1x512x512 .i32) : Vec F S1x1x8 .f32 :=
  View.canon [⟨rOut, PAY (View.ld x0 rIn) (View.ld x1 rIn)⟩]

/-- The store covers the buffer. -/
theorem cover0_2 (p0 : Vec F S1x1x8 .f32) (y : S1x1x8.Idx) :
    ∃ pc ∈ ([⟨rOut, p0⟩] : List (View.Piece (Elt F) S1x1x8 .f32)), y ∈ pc.1.set :=
  View.cover_of_tiled [⟨rOut, p0⟩] S1x1x8.size (by rfl) y

/-! ## The body's triple -/

set_option maxHeartbeats 4000000 in
/-- On whole staging memrefs, the inputs' at contents `x0`, `x1` and the output's at anything, the body runs to the
    continuation holding the inputs' as they were and the output's at `out0_2 x0 x1`. -/
theorem sound_kernel (c : Dev nD) (E : Set ℕ) (i : grid0.Coords) (arg1 : Memref sig .tc .vmem S1x1x512x512 .f32) (harg1 : arg1.IsWhole)
    (arg2 : Memref sig .tc .vmem S1x1x512x512 .i32) (harg2 : arg2.IsWhole) (arg3 : Memref sig .tc .vmem S1x1x8 .f32) (harg3 : arg3.IsWhole)
    (x0 : Vec F S1x1x512x512 .f32) (x1 : Vec F S1x1x512x512 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__loss_kernel i arg1 harg1 arg2 harg2 arg3 harg3) K := by
  simp only [cc0__loss_kernel_eq_skeleton]; unfold cc0__loss_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the output's
    at `out0_2` of the two blocks; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates, every array of the pipeline at what the proof data computes and every
    other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.KPayIdeal.lean ====
import proofs.«431201_j73778948211150_3_alg».proof.Proof.Gen.KernelIdeal.Skeleton

/-!
  What the kernel stores, as one function of the two blocks it loads. The body loads the logits block and the target
  block once, computes, and stores one [1, 1, 8] vector. The value stored is written here as the chain of the body's
  intermediate planes in the order the body computes them: the integer plane as floats, the four border masks, the four
  lane sums and the sigmoid, the two soft boundaries, then ten rounds each of which dilates both boundaries once more and
  adds the round's weighted absolute differences to two running planes, and last the five statistics laid side by side
  with three zeros.
-/

noncomputable section

namespace Cert.KernelIdeal.Gen

open Idealize.ShloMosaic Idealize.ShloMosaic.TcCoe

variable {F : FTy → Type} [FloatOps F]

/-- The stored vector from the loaded logits block `x0` and target block `x1`. -/
def PAY (x0 : Vec F S1x1x512x512 .f32) (x1 : Vec F S1x1x512x512 .i32) : FVec F S1x1x8 .f32 :=
  let v4 := k0_pay3 x1
  let v8 := k0_pay4
  let v10 := k0_pay5
  let v12 := k0_pay6
  let v14 := k0_pay7
  let v26 := k0_pay8 x0 x1
  let v27 := k0_pay9 x0
  let v29 := k0_pay10 x0
  let v31 := k0_pay11 x1
  let v34 := k0_pay12 x0 x1
  let v35 := k0_pay13 x0
  let v69 := k0_pay14 v8 v10 v12 v14 v27 v35
  let v72 := k0_pay15 v4 v8
  let v75 := k0_pay16 v4 v10
  let v104 := k0_pay17 v4 v8 v10 v12 v14 v72 v75
  let v105 := k0_pay18 (F := F)
  let v106 := k0_pay19 (F := F)
  let v114 := k0_pay20 v8 v10 v69
  let v115 := k0_pay21 v8 v10 v69
  let v138 := k0_pay23 v8 v10 v12 v14 v104
  let v145 := k0_pay24 v12 v14 v104 v105 v114 v115
  let v148 := k0_pay25 v8 v10 v12 v14 v69 v104 v106
  let v156 := k0_pay26 v8 v10 v12 v14 v114 v115
  let v157 := k0_pay27 v8 v10 v12 v14 v114 v115
  let v180 := k0_pay29 v8 v10 v12 v14 v138
  let v187 := k0_pay30 v12 v14 v104 v145 v156 v157
  let v190 := k0_pay31 v8 v10 v12 v14 v69 v138 v148
  let v198 := k0_pay32 v8 v10 v12 v14 v156 v157
  let v199 := k0_pay33 v8 v10 v12 v14 v156 v157
  let v222 := k0_pay35 v8 v10 v12 v14 v180
  let v229 := k0_pay36 v12 v14 v104 v187 v198 v199
  let v232 := k0_pay37 v8 v10 v12 v14 v69 v180 v190
  let v240 := k0_pay38 v8 v10 v12 v14 v198 v199
  let v241 := k0_pay39 v8 v10 v12 v14 v198 v199
  let v264 := k0_pay41 v8 v10 v12 v14 v222
  let v271 := k0_pay42 v12 v14 v104 v229 v240 v241
  let v274 := k0_pay43 v8 v10 v12 v14 v69 v222 v232
  let v282 := k0_pay44 v8 v10 v12 v14 v240 v241
  let v283 := k0_pay45 v8 v10 v12 v14 v240 v241
  let v306 := k0_pay47 v8 v10 v12 v14 v264
  let v313 := k0_pay48 v12 v14 v104 v271 v282 v283
  let v316 := k0_pay49 v8 v10 v12 v14 v69 v264 v274
  let v324 := k0_pay50 v8 v10 v12 v14 v282 v283
  let v325 := k0_pay51 v8 v10 v12 v14 v282 v283
  let v348 := k0_pay53 v8 v10 v12 v14 v306
  let v355 := k0_pay54 v12 v14 v104 v313 v324 v325
  let v358 := k0_pay55 v8 v10 v12 v14 v69 v306 v316
  let v366 := k0_pay56 v8 v10 v12 v14 v324 v325
  let v367 := k0_pay57 v8 v10 v12 v14 v324 v325
  let v390 := k0_pay59 v8 v10 v12 v14 v348
  let v397 := k0_pay60 v12 v14 v104 v355 v366 v367
  let v400 := k0_pay61 v8 v10 v12 v14 v69 v348 v358
  let v408 := k0_pay62 v8 v10 v12 v14 v366 v367
  let v409 := k0_pay63 v8 v10 v12 v14 v366 v367
  let v432 := k0_pay65 v8 v10 v12 v14 v390
  let v439 := k0_pay66 v12 v14 v104 v397 v408 v409
  let v442 := k0_pay67 v8 v10 v12 v14 v69 v390 v400
  let v450 := k0_pay68 v8 v10 v12 v14 v408 v409
  let v451 := k0_pay69 v8 v10 v12 v14 v408 v409
  let v474 := k0_pay71 v8 v10 v12 v14 v432
  let v481 := k0_pay72 v12 v14 v104 v439 v450 v451
  let v484 := k0_pay73 v8 v10 v12 v14 v69 v432 v442
  let v492 := k0_pay74 v8 v10 v12 v14 v450 v451
  let v493 := k0_pay75 v8 v10 v12 v14 v450 v451
  let v532 := k0_pay76 v26
  let v533 := k0_pay77 v29
  let v534 := k0_pay78 v31
  let v535 := k0_pay79 v34
  let v536 := k0_pay80 v8 v10 v12 v14 v69 v104 v474 v481 v484 v492 v493
  k0_pay1 v532 v533 v534 v535 v536

end Cert.KernelIdeal.Gen

end
-- ==== Proof.KFrameIdeal.lean ====
import proofs.«431201_j73778948211150_3_alg».proof.Proof.KPayIdeal
import proofs.«431201_j73778948211150_3_alg».proof.Proof.Gen.KernelIdeal.Launch
import proofs.«431201_j73778948211150_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
  The kernel program runs to the end, faults nowhere and leaves its two argument arrays as they were.

  @main is one pipelined region over the 16 images followed by host arithmetic on the region's [16, 1, 8] result. At each
  grid point the pipeline hands the body the point's logits block and target block in staging buffers; the body reads both
  whole, computes, and overwrites the whole [1, 1, 8] output buffer with one vector, a function of the two blocks alone.
  So the proof data is: every input buffer holds its block, the output buffer holds that function of the two blocks; the
  body meets it at every point; the pipeline's frame theorem then runs the region and the host lines after it, none of
  which writes an array of the pipeline.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line precedes it, so they are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

set_option maxHeartbeats 8000000 in
/-- None of them writes an array of the pipeline: each writes its own result buffer only. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes,
    Finset.mem_singleton]
  repeat' apply And.intro
  all_goals intro w; fin_cases w <;> exact StableHlo.devRef_ne_of_ne (by decide)

set_option maxHeartbeats 8000000 in
/-- @main is the region continued by the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The later lines touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run whose post has every array of the pipeline at what the proof data computes leaves both argument arrays as
    launched: an input window's array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's accesses -/

abbrev rIn : Rect S1x1x512x512 := Rect.unit (s := S1x1x512x512) ![0, 0, 0, 0] S1x1x512x512.size inb_S1x1x512x512_S1x1x512x512_0_0_0_0
abbrev rOut : Rect S1x1x8 := Rect.unit (s := S1x1x8) ![0, 0, 0] S1x1x8.size inb_S1x1x8_S1x1x8_0_0_0

/-- The output buffer after the body, from the two input buffers: its one store, of the stored vector `PAY` of the
    two loads. -/
def out0_2 (x0 : Vec F S1x1x512x512 .f32) (x1 : Vec F S1x1x512x512 .i32) : Vec F S1x1x8 .f32 :=
  View.canon [⟨rOut, PAY (View.ld x0 rIn) (View.ld x1 rIn)⟩]

/-- The store covers the buffer. -/
theorem cover0_2 (p0 : Vec F S1x1x8 .f32) (y : S1x1x8.Idx) :
    ∃ pc ∈ ([⟨rOut, p0⟩] : List (View.Piece (Elt F) S1x1x8 .f32)), y ∈ pc.1.set :=
  View.cover_of_tiled [⟨rOut, p0⟩] S1x1x8.size (by rfl) y

/-! ## The body's triple -/

set_option maxHeartbeats 4000000 in
/-- On whole staging memrefs, the inputs' at contents `x0`, `x1` and the output's at anything, the body runs to the
    continuation holding the inputs' as they were and the output's at `out0_2 x0 x1`. -/
theorem sound_kernel (c : Dev nD) (E : Set ℕ) (i : grid0.Coords) (arg1 : Memref sig .tc .vmem S1x1x512x512 .f32) (harg1 : arg1.IsWhole)
    (arg2 : Memref sig .tc .vmem S1x1x512x512 .i32) (harg2 : arg2.IsWhole) (arg3 : Memref sig .tc .vmem S1x1x8 .f32) (harg3 : arg3.IsWhole)
    (x0 : Vec F S1x1x512x512 .f32) (x1 : Vec F S1x1x512x512 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__loss_kernel i arg1 harg1 arg2 harg2 arg3 harg3) K := by
  simp only [cc0__loss_kernel_eq_skeleton]; unfold cc0__loss_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The arrays as the region finds them; after the body at point `t` each input's buffer at its block and the output's
    at `out0_2` of the two blocks; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of @main terminates, every array of the pipeline at what the proof data computes and every
    other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.LossSpec.lean ====
import Idealize.ShloMosaic.PureOps.Ideal
import Mathlib.Data.EReal.Basic
import Mathlib.Algebra.BigOperators.Group.Finset.Basic
import Mathlib.Data.Fintype.BigOperators

/-!
  The mathematics of the combined segmentation loss, over the extended reals, free of any program text.

  A PLANE is one image, 512 × 512. The loss is a fixed combination of four numbers: the mean binary cross-entropy,
  the mean Dice loss, the mean focal Tversky loss and a Hausdorff surrogate built from grey-scale dilations
  (square window maxima) of the two soft boundaries.

  Two readings of the same quantities are defined side by side. The one the kernel computes: per image five statistics
  (kS0 … kS4), summed lane-first, the window maximum of half-width d as d successive 3 × 3 maxima, each a maximum
  along rows then along columns with a finite FILL standing for what lies outside the image, the Hausdorff weights applied
  entry by entry before summing; then KT, the combination of the 16 images' statistics. And the one the reference computes
  (RT): whole-array sums, the window maximum of half-width d taken at once over the part of the window inside the image,
  false positives and negatives summed as p·(1 − t) and (1 − p)·t, the weights applied to the means.
  That they agree on finite inputs whose integer plane lies within the 32-bit range is proved in the modules over this one.
-/

noncomputable section

namespace Loss

open Idealize.ShloMosaic

/-- One image: rows by columns. -/
abbrev Pl := Fin 512 → Fin 512 → EReal

/-- The constants the two programs share, each read off the programs' literals. -/
structure Consts where
  one : EReal
  two : EReal
  smooth : EReal
  eps : EReal
  c07 : EReal
  c03 : EReal
  c075 : EReal
  nAll : EReal
  c16 : EReal
  c55 : EReal
  c01 : EReal
  negFill : EReal
  posFill : EReal
  wt : ℕ → EReal

/-- What the algebra needs of them: one is 1, the element count is a nonzero real, the weights are reals, and the two
    fills lie beyond every 32-bit integer. -/
structure Consts.Good (C : Consts) : Prop where
  one_eq : C.one = 1
  nAll_real : ∃ n : ℝ, n ≠ 0 ∧ C.nAll = (n : EReal)
  wt_real : ∀ d, ∃ r : ℝ, C.wt d = (r : EReal)
  negFill_le : C.negFill ≤ ((-(2:ℝ)^31 : ℝ) : EReal)
  le_posFill : (((2:ℝ)^31 : ℝ) : EReal) ≤ C.posFill

/-! ## Window maxima and minima -/

/-- The positions within distance d of (h, w) in both coordinates, inside the image. -/
def win (d : ℕ) (h w : Fin 512) : Finset (Fin 512 × Fin 512) :=
  Finset.univ.filter fun p => (h.val ≤ p.1.val + d ∧ p.1.val ≤ h.val + d) ∧ (w.val ≤ p.2.val + d ∧ p.2.val ≤ w.val + d)

/-- The maximum of x over that window. -/
def wmax (d : ℕ) (x : Pl) : Pl := fun h w => (win d h w).sup fun p => x p.1 p.2
/-- The minimum of x over that window. -/
def wmin (d : ℕ) (x : Pl) : Pl := fun h w => (win d h w).inf fun p => x p.1 p.2

/-! ## The kernel's 3 × 3 pools: a neighbour outside the image reads as the fill -/

/-- The entry one row up, the fill on the first row. -/
def upF (fill : EReal) (x : Pl) : Pl := fun h w => if hh : 0 < h.val then x ⟨h.val - 1, by omega⟩ w else fill
/-- The entry one row down, the fill on the last row. -/
def downF (fill : EReal) (x : Pl) : Pl := fun h w => if hh : h.val + 1 < 512 then x ⟨h.val + 1, hh⟩ w else fill
/-- The entry one column left, the fill on the first column. -/
def leftF (fill : EReal) (x : Pl) : Pl := fun h w => if hw : 0 < w.val then x h ⟨w.val - 1, by omega⟩ else fill
/-- The entry one column right, the fill on the last column. -/
def rightF (fill : EReal) (x : Pl) : Pl := fun h w => if hw : w.val + 1 < 512 then x h ⟨w.val + 1, hw⟩ else fill

def rowMax (fill : EReal) (x : Pl) : Pl := fun h w => max (x h w) (max (upF fill x h w) (downF fill x h w))
def colMax (fill : EReal) (r : Pl) : Pl := fun h w => max (r h w) (max (leftF fill r h w) (rightF fill r h w))
/-- Rows first, then columns. -/
def pool3max (fill : EReal) (x : Pl) : Pl := colMax fill (rowMax fill x)

def rowMin (fill : EReal) (x : Pl) : Pl := fun h w => min (x h w) (min (upF fill x h w) (downF fill x h w))
def colMin (fill : EReal) (r : Pl) : Pl := fun h w => min (r h w) (min (leftF fill r h w) (rightF fill r h w))
def pool3min (fill : EReal) (x : Pl) : Pl := colMin fill (rowMin fill x)

/-! ## Elementwise pieces -/

def absE (a : EReal) : EReal := max a (-a)
/-- The sigmoid as the kernel has it. -/
def sigP (x : Pl) : Pl := fun h w => Ideal.logistic (x h w)
/-- The stable cross-entropy entry as the kernel spells it (0 − |x|). -/
def bceK (x t : EReal) : EReal := (max x 0 - x * t) + Ideal.log1p (Ideal.exp (0 - max x (-x)))
/-- … and as the reference spells it (−|x|). -/
def bceR (x t : EReal) : EReal := (max x 0 - x * t) + Ideal.log1p (Ideal.exp (-(max x (-x))))

/-! ## The kernel's per-image statistics -/

/-- The kernel's sum of a plane: down each column, then across. -/
def sumPl (f : Pl) : EReal := ∑ w : Fin 512, ∑ h : Fin 512, f h w

/-- The soft boundary from the filled pools. -/
def bdryK (C : Consts) (x : Pl) : Pl := fun h w => max (pool3max C.negFill x h w - pool3min C.posFill x h w) 0

/-- d successive filled 3 × 3 maxima. -/
def iterK (C : Consts) : ℕ → Pl → Pl
  | 0, x => x
  | d + 1, x => pool3max C.negFill (iterK C d x)

/-- The running weighted plane after d steps: a is dilated step by step and compared with b. -/
def accK (C : Consts) (a b : Pl) : ℕ → Pl
  | 0 => fun _ _ => 0
  | d + 1 => fun h w => accK C a b d h w + C.wt d * absE (iterK C (d + 1) a h w - b h w)

def kS0 (x t : Pl) : EReal := sumPl fun h w => bceK (x h w) (t h w)
def kS1 (x : Pl) : EReal := sumPl (sigP x)
def kS2 (t : Pl) : EReal := sumPl t
def kS3 (x t : Pl) : EReal := sumPl fun h w => sigP x h w * t h w
def kS4 (C : Consts) (x t : Pl) : EReal :=
  sumPl (accK C (bdryK C (sigP x)) (bdryK C t) 10) + sumPl (accK C (bdryK C t) (bdryK C (sigP x)) 10)

/-- What the kernel stores for one image, slot by slot: the five statistics, then zeros. -/
def statVec (C : Consts) (x t : Pl) (k : Fin 8) : EReal :=
  if k.val = 0 then kS0 x t else if k.val = 1 then kS1 x else if k.val = 2 then kS2 t
  else if k.val = 3 then kS3 x t else if k.val = 4 then kS4 C x t else 0

/-! ## The combination -/

/-- A host sum over the 16 images, from the initial value 0. -/
def sum16 (f : Fin 16 → EReal) : EReal := 0 + ∑ b : Fin 16, f b

def dice (C : Consts) (s1 s2 s3 : EReal) : EReal :=
  C.one - Ideal.div (C.two * s3 + C.smooth) (((s1 + s2) + C.smooth) + C.eps)

def ftv (C : Consts) (tp fp fn : EReal) : EReal :=
  Ideal.pow (C.one - Ideal.div (tp + C.smooth) ((((tp + C.c07 * fp) + C.c03 * fn) + C.smooth) + C.eps)) C.c075

def combo (C : Consts) (a d f h : EReal) : EReal := ((C.one * a + C.one * d) + C.one * f) + C.c01 * h

/-- The kernel program's result from the 16 images' statistics. -/
def KT (C : Consts) (S0 S1 S2 S3 S4 : Fin 16 → EReal) : EReal :=
  combo C (Ideal.div (sum16 S0) C.nAll)
    (Ideal.div (sum16 fun b => dice C (S1 b) (S2 b) (S3 b)) C.c16)
    (Ideal.div (sum16 fun b => ftv C (S3 b) (S1 b - S3 b) (S2 b - S3 b)) C.c16)
    (Ideal.div (Ideal.div (sum16 S4) C.nAll) C.c55)

/-! ## The reference's reading -/

/-- A host sum over everything, from 0: images, rows, columns. -/
def sumAll (f : Fin 16 → Pl) : EReal := 0 + ∑ b : Fin 16, ∑ h : Fin 512, ∑ w : Fin 512, f b h w
/-- A host sum over one image, from 0. -/
def sumImg (f : Pl) : EReal := 0 + ∑ h : Fin 512, ∑ w : Fin 512, f h w

/-- The sigmoid as jax expands it on the host. -/
def sigR (C : Consts) (x : Pl) : Pl := fun h w => Ideal.div C.one (C.one + Ideal.exp (-(x h w)))
/-- The soft boundary from true window extrema. -/
def bdryR (x : Pl) : Pl := fun h w => max (wmax 1 x h w - wmin 1 x h w) 0

/-- The reference's running Hausdorff total after d distances. -/
def hdR (C : Consts) (PB GB : Fin 16 → Pl) : ℕ → EReal
  | 0 => 0
  | d + 1 => hdR C PB GB d + C.wt d *
      (Ideal.div (sumAll fun b h w => absE (wmax (d + 1) (PB b) h w - GB b h w)) C.nAll
        + Ideal.div (sumAll fun b h w => absE (wmax (d + 1) (GB b) h w - PB b h w)) C.nAll)

/-- The reference program's result. -/
def RT (C : Consts) (X T : Fin 16 → Pl) : EReal :=
  combo C (Ideal.div (sumAll fun b h w => bceR (X b h w) (T b h w)) C.nAll)
    (Ideal.div (sum16 fun b => dice C (sumImg (sigR C (X b))) (sumImg (T b)) (sumImg fun h w => sigR C (X b) h w * T b h w)) C.c16)
    (Ideal.div (sum16 fun b => ftv C (sumImg fun h w => sigR C (X b) h w * T b h w)
        (sumImg fun h w => sigR C (X b) h w * (C.one - T b h w))
        (sumImg fun h w => (C.one - sigR C (X b) h w) * T b h w)) C.c16)
    (Ideal.div (hdR C (fun b => bdryR (sigR C (X b))) (fun b => bdryR (T b)) 10) C.c55)

end Loss

end
-- ==== Proof.LossConsts.lean ====
import proofs.«431201_j73778948211150_3_alg».proof.Proof.LossSpec
import Mathlib.Tactic.NormNum
import Mathlib.Data.Real.Basic

/-!
  The programs' float literals as the constants of the loss: each is the exact binary value of its 32-bit pattern. All are
  real; one is 1; the element count 2^22 is not zero; the two fills, ∓(about 10^30), lie beyond every 32-bit integer.
-/

noncomputable section

namespace Loss

open Idealize.ShloMosaic

/-- The Hausdorff weights d/10, d = 1 … 10, as the programs' literals (anything past the tenth is never read). -/
def wtBits : ℕ → BitVec 32
  | 0 => 0x3DCCCCCD#32
  | 1 => 0x3E4CCCCD#32
  | 2 => 0x3E99999A#32
  | 3 => 0x3ECCCCCD#32
  | 4 => 0x3F000000#32
  | 5 => 0x3F19999A#32
  | 6 => 0x3F333333#32
  | 7 => 0x3F4CCCCD#32
  | 8 => 0x3F666666#32
  | 9 => 0x3F800000#32
  | _ => 0x00000000#32

/-- The constants both programs use. -/
def CC : Consts where
  one := Ideal.ofBits .f32 0x3F800000#32
  two := Ideal.ofBits .f32 0x40000000#32
  smooth := Ideal.ofBits .f32 0x358637BD#32
  eps := Ideal.ofBits .f32 0x33D6BF95#32
  c07 := Ideal.ofBits .f32 0x3F333333#32
  c03 := Ideal.ofBits .f32 0x3E99999A#32
  c075 := Ideal.ofBits .f32 0x3F400000#32
  nAll := Ideal.ofBits .f32 0x4A800000#32
  c16 := Ideal.ofBits .f32 0x41800000#32
  c55 := Ideal.ofBits .f32 0x40B00000#32
  c01 := Ideal.ofBits .f32 0x3DCCCCCD#32
  negFill := Ideal.ofBits .f32 0xF149F2CA#32
  posFill := Ideal.ofBits .f32 0x7149F2CA#32
  wt := fun d => Ideal.ofBits .f32 (wtBits d)

/-- A 32-bit pattern whose exponent field is not all ones denotes a real: by definition its value is the coercion of
    (sign) · (significand) · 2^(exponent), in both the subnormal and the normal branch. -/
theorem ofBits_f32_real (b : BitVec 32) (h : (b.extractLsb' 23 8).toNat ≠ 255) :
    ∃ r : ℝ, Ideal.ofBits .f32 b = (r : EReal) := by
  unfold Ideal.ofBits Ideal.ieee
  simp only []
  have h' : ¬ ((b.extractLsb' 23 8).toNat = 2 ^ 8 - 1) := by simpa using h
  rw [if_neg h']
  split_ifs <;> exact ⟨_, rfl⟩

/-- Sign 1, exponent field 226, trailing significand 0x49F2CA: the value is -(2^23 + 4846282) · 2^(226 - 127 - 23),
    that is -13234890 · 2^76. -/
theorem ofBits_negFill : Ideal.ofBits .f32 0xF149F2CA#32 = ((-(13234890 * 2 ^ 76) : ℝ) : EReal) := by
  simp [Ideal.ofBits, Ideal.ieee, -EReal.coe_mul, -EReal.coe_pow, -EReal.coe_neg]

/-- The same pattern with sign 0: 13234890 · 2^76. -/
theorem ofBits_posFill : Ideal.ofBits .f32 0x7149F2CA#32 = ((13234890 * 2 ^ 76 : ℝ) : EReal) := by
  simp [Ideal.ofBits, Ideal.ieee, -EReal.coe_mul, -EReal.coe_pow]

theorem CC_good : CC.Good where
  -- exponent field 127, significand 2^23: 2^23 · 2^(127 - 127 - 23) = 1
  one_eq := by
    show Ideal.ofBits .f32 0x3F800000#32 = 1
    simp [Ideal.ofBits, Ideal.ieee, -EReal.coe_mul]; norm_num
  -- exponent field 149, significand 2^23: 2^23 · 2^(149 - 127 - 23) = 2^22 = 4194304
  nAll_real := by
    refine ⟨4194304, by norm_num, ?_⟩
    show Ideal.ofBits .f32 0x4A800000#32 = ((4194304 : ℝ) : EReal)
    simp [Ideal.ofBits, Ideal.ieee, -EReal.coe_mul]; norm_num
  -- every weight pattern, and the zero pattern past the tenth, has an exponent field other than 255
  wt_real := fun d => by
    show ∃ r : ℝ, Ideal.ofBits .f32 (wtBits d) = (r : EReal)
    apply ofBits_f32_real
    match d with
    | 0 => decide
    | 1 => decide
    | 2 => decide
    | 3 => decide
    | 4 => decide
    | 5 => decide
    | 6 => decide
    | 7 => decide
    | 8 => decide
    | 9 => decide
    | n + 10 => show (BitVec.extractLsb' 23 8 (0x00000000#32)).toNat ≠ 255; decide
  -- -13234890 · 2^76 ≤ -2^31, since 2^31 ≤ 13234890 · 2^76
  negFill_le := by
    show Ideal.ofBits .f32 0xF149F2CA#32 ≤ _
    rw [ofBits_negFill, EReal.coe_le_coe_iff]; norm_num
  le_posFill := by
    show _ ≤ Ideal.ofBits .f32 0x7149F2CA#32
    rw [ofBits_posFill, EReal.coe_le_coe_iff]; norm_num

end Loss

end
-- ==== Proof.KOps.lean ====
import proofs.«431201_j73778948211150_3_alg».proof.Proof.KPayIdeal
import proofs.«431201_j73778948211150_3_alg».proof.Proof.LossConsts
import Idealize.ShloMosaic.Lib.ValueIdx
import Idealize.ShloMosaic.Lib.KernelVsHost
import Idealize.ShloMosaic.Lib.Pipeline.Value
import Idealize.ShloMosaic.PureOps.Ideal.Laws

/-!
  The kernel's vector operations on a [1, 512, 512] plane, read entry by entry at the extended reals.

  The four border masks are "first row", "last row", "first column", "last column". A rotation by 1 along the row axis
  puts at row h the entry of row h − 1 (around the end); selecting a constant where the first-row mask is set turns that
  into "the entry one row up, the constant on the first row"; rotation by 511 = −1 and the last-row mask give the entry one
  row down; likewise along columns. A sublane sum followed by a lane sum is the sum of the plane, columns outermost.
-/

noncomputable section

namespace Cert.KernelIdeal.Gen

open Idealize.ShloMosaic Idealize.ShloMosaic.TcCoe Idealize.ShloMosaic.ValueIdx

/-- A [1, 512, 512] vector as a plane. -/
def toPl (v : FVec Ideal S1x512x512 .f32) : Loss.Pl := fun h w => v (ix3 0 h w)

/-- Two such vectors with equal planes are equal. -/
theorem ext_toPl {a b : FVec Ideal S1x512x512 .f32} (h : toPl a = toPl b) : a = b := by
  funext j
  obtain ⟨r, i, k, rfl⟩ : ∃ (r : Fin 1) (i k : Fin 512), j = ix3 r i k := ⟨j 0, j 1, j 2, eq_ix3 j⟩
  have hr : r = 0 := Subsingleton.elim _ _
  subst hr
  exact congrFun (congrFun h i) k

/-! ## The border masks -/

/-- A one-bit word made from a Boolean is 1 exactly when the Boolean is true. -/
private theorem ofBool_eq_one_iff (b : Bool) : BitVec.ofBool b = 1#1 ↔ b = true := by
  cases b <;> decide

/-- Two naturals below 512, written as 32-bit words, are equal as words exactly when they are equal: neither wraps. -/
private theorem ofNat32_beq_iff (n c : Nat) (hn : n < 512) (hc : c < 512) :
    (BitVec.ofNat 32 n == BitVec.ofNat 32 c) = true ↔ n = c := by
  rw [beq_iff_eq]
  constructor
  · intro e
    have e' := congrArg BitVec.toNat e
    simp only [BitVec.toNat_ofNat] at e'
    omega
  · rintro rfl; rfl

theorem mask_rowFirst (h w : Fin 512) : (k0_pay4 (ix3 0 h w) = 1#1) ↔ h.val = 0 := by
  have e : k0_pay4 (ix3 0 h w) = BitVec.ofBool (BitVec.ofNat 32 (0 * 512 + h.val) == BitVec.ofNat 32 0) := rfl
  have := h.isLt
  rw [e, ofBool_eq_one_iff, ofNat32_beq_iff _ _ (by omega) (by omega)]
  omega
theorem mask_rowLast (h w : Fin 512) : (k0_pay5 (ix3 0 h w) = 1#1) ↔ h.val = 511 := by
  have e : k0_pay5 (ix3 0 h w) = BitVec.ofBool (BitVec.ofNat 32 (0 * 512 + h.val) == BitVec.ofNat 32 511) := rfl
  have := h.isLt
  rw [e, ofBool_eq_one_iff, ofNat32_beq_iff _ _ (by omega) (by omega)]
  omega
theorem mask_colFirst (h w : Fin 512) : (k0_pay6 (ix3 0 h w) = 1#1) ↔ w.val = 0 := by
  have e : k0_pay6 (ix3 0 h w) = BitVec.ofBool (BitVec.ofNat 32 (0 * 512 + w.val) == BitVec.ofNat 32 0) := rfl
  have := w.isLt
  rw [e, ofBool_eq_one_iff, ofNat32_beq_iff _ _ (by omega) (by omega)]
  omega
theorem mask_colLast (h w : Fin 512) : (k0_pay7 (ix3 0 h w) = 1#1) ↔ w.val = 511 := by
  have e : k0_pay7 (ix3 0 h w) = BitVec.ofBool (BitVec.ofNat 32 (0 * 512 + w.val) == BitVec.ofNat 32 511) := rfl
  have := w.isLt
  rw [e, ofBool_eq_one_iff, ofNat32_beq_iff _ _ (by omega) (by omega)]
  omega

/-! ## A neighbour, or a constant at the border -/

/-- A rotation along the row axis read at (0, h, w) is the operand at (0, h', w), h' being h moved back by the amount
    around the end; the other two coordinates are untouched. -/
private theorem rotRow_apply (sb : BitVec 32) (x : FVec Ideal S1x512x512 .f32) (h w h' : Fin 512)
    (hk : h'.val = (h.val + 512 - sb.toNat % 512) % 512) :
    dynamicRotate 1 sb none x rotates_S1x512x512_d1 (ix3 0 h w) = x (ix3 0 h' w) := by
  refine dynamicRotate_apply 1 sb x rotates_S1x512x512_d1 (ix3 0 h w) (ix3 0 h' w) (fun (b : Fin 3) => ?_)
  match b with
  | ⟨0, _⟩ => exact (if_neg (Fin.ne_of_val_ne (show (0 : Nat) ≠ 1 by decide))).symm
  | ⟨1, _⟩ => exact hk.trans (if_pos rfl).symm
  | ⟨2, _⟩ => exact (if_neg (Fin.ne_of_val_ne (show (2 : Nat) ≠ 1 by decide))).symm

/-- The same along the column axis. -/
private theorem rotCol_apply (sb : BitVec 32) (x : FVec Ideal S1x512x512 .f32) (h w w' : Fin 512)
    (hk : w'.val = (w.val + 512 - sb.toNat % 512) % 512) :
    dynamicRotate 2 sb none x rotates_S1x512x512_d2 (ix3 0 h w) = x (ix3 0 h w') := by
  refine dynamicRotate_apply 2 sb x rotates_S1x512x512_d2 (ix3 0 h w) (ix3 0 h w') (fun (b : Fin 3) => ?_)
  match b with
  | ⟨0, _⟩ => exact (if_neg (Fin.ne_of_val_ne (show (0 : Nat) ≠ 2 by decide))).symm
  | ⟨1, _⟩ => exact (if_neg (Fin.ne_of_val_ne (show (1 : Nat) ≠ 2 by decide))).symm
  | ⟨2, _⟩ => exact hk.trans (if_pos rfl).symm

theorem toPl_up (c : Ideal .f32) (x : FVec Ideal S1x512x512 .f32) :
    toPl (select k0_pay4 (broadcast S1x512x512 c) (dynamicRotate 1 1#32 none x rotates_S1x512x512_d1)) = Loss.upF c (toPl x) := by
  funext h w
  show Scalar.select (k0_pay4 (ix3 0 h w)) c (dynamicRotate 1 1#32 none x rotates_S1x512x512_d1 (ix3 0 h w))
    = Loss.upF c (toPl x) h w
  have := h.isLt
  unfold Loss.upF Scalar.select
  by_cases hh : 0 < h.val
  · have hm : ¬ k0_pay4 (ix3 0 h w) = (1 : BitVec 1) := fun e => by have := (mask_rowFirst h w).1 e; omega
    rw [dif_pos hh, if_neg hm]
    exact rotRow_apply 1#32 x h w ⟨h.val - 1, by omega⟩ (by
      show h.val - 1 = (h.val + 512 - 1 % 512) % 512
      omega)
  · rw [dif_neg hh, if_pos (show k0_pay4 (ix3 0 h w) = (1 : BitVec 1) from (mask_rowFirst h w).2 (by omega))]
theorem toPl_down (c : Ideal .f32) (x : FVec Ideal S1x512x512 .f32) :
    toPl (select k0_pay5 (broadcast S1x512x512 c) (dynamicRotate 1 511#32 none x rotates_S1x512x512_d1)) = Loss.downF c (toPl x) := by
  funext h w
  show Scalar.select (k0_pay5 (ix3 0 h w)) c (dynamicRotate 1 511#32 none x rotates_S1x512x512_d1 (ix3 0 h w))
    = Loss.downF c (toPl x) h w
  have := h.isLt
  unfold Loss.downF Scalar.select
  by_cases hh : h.val + 1 < 512
  · have hm : ¬ k0_pay5 (ix3 0 h w) = (1 : BitVec 1) := fun e => by have := (mask_rowLast h w).1 e; omega
    rw [dif_pos hh, if_neg hm]
    exact rotRow_apply 511#32 x h w ⟨h.val + 1, hh⟩ (by
      show h.val + 1 = (h.val + 512 - 511 % 512) % 512
      omega)
  · rw [dif_neg hh, if_pos (show k0_pay5 (ix3 0 h w) = (1 : BitVec 1) from (mask_rowLast h w).2 (by omega))]
theorem toPl_left (c : Ideal .f32) (x : FVec Ideal S1x512x512 .f32) :
    toPl (select k0_pay6 (broadcast S1x512x512 c) (dynamicRotate 2 1#32 none x rotates_S1x512x512_d2)) = Loss.leftF c (toPl x) := by
  funext h w
  show Scalar.select (k0_pay6 (ix3 0 h w)) c (dynamicRotate 2 1#32 none x rotates_S1x512x512_d2 (ix3 0 h w))
    = Loss.leftF c (toPl x) h w
  have := w.isLt
  unfold Loss.leftF Scalar.select
  by_cases hw : 0 < w.val
  · have hm : ¬ k0_pay6 (ix3 0 h w) = (1 : BitVec 1) := fun e => by have := (mask_colFirst h w).1 e; omega
    rw [dif_pos hw, if_neg hm]
    exact rotCol_apply 1#32 x h w ⟨w.val - 1, by omega⟩ (by
      show w.val - 1 = (w.val + 512 - 1 % 512) % 512
      omega)
  · rw [dif_neg hw, if_pos (show k0_pay6 (ix3 0 h w) = (1 : BitVec 1) from (mask_colFirst h w).2 (by omega))]
theorem toPl_right (c : Ideal .f32) (x : FVec Ideal S1x512x512 .f32) :
    toPl (select k0_pay7 (broadcast S1x512x512 c) (dynamicRotate 2 511#32 none x rotates_S1x512x512_d2)) = Loss.rightF c (toPl x) := by
  funext h w
  show Scalar.select (k0_pay7 (ix3 0 h w)) c (dynamicRotate 2 511#32 none x rotates_S1x512x512_d2 (ix3 0 h w))
    = Loss.rightF c (toPl x) h w
  have := w.isLt
  unfold Loss.rightF Scalar.select
  by_cases hw : w.val + 1 < 512
  · have hm : ¬ k0_pay7 (ix3 0 h w) = (1 : BitVec 1) := fun e => by have := (mask_colLast h w).1 e; omega
    rw [dif_pos hw, if_neg hm]
    exact rotCol_apply 511#32 x h w ⟨w.val + 1, hw⟩ (by
      show w.val + 1 = (w.val + 512 - 511 % 512) % 512
      omega)
  · rw [dif_neg hw, if_pos (show k0_pay7 (ix3 0 h w) = (1 : BitVec 1) from (mask_colLast h w).2 (by omega))]

/-! ## Entrywise operations (each by unfolding) -/

theorem toPl_maximumf (a b : FVec Ideal S1x512x512 .f32) : toPl (maximumf a b) = fun h w => max (toPl a h w) (toPl b h w) := rfl
theorem toPl_minimumf (a b : FVec Ideal S1x512x512 .f32) : toPl (minimumf a b) = fun h w => min (toPl a h w) (toPl b h w) := rfl
theorem toPl_subf (a b : FVec Ideal S1x512x512 .f32) : toPl (subf a b) = fun h w => toPl a h w - toPl b h w := rfl
theorem toPl_addf (a b : FVec Ideal S1x512x512 .f32) : toPl (addf a b) = fun h w => toPl a h w + toPl b h w := rfl
theorem toPl_mulf (a b : FVec Ideal S1x512x512 .f32) : toPl (mulf a b) = fun h w => toPl a h w * toPl b h w := rfl
theorem toPl_absf (a : FVec Ideal S1x512x512 .f32) : toPl (absf a) = fun h w => Loss.absE (toPl a h w) := rfl
theorem toPl_broadcast (c : Ideal .f32) : toPl (broadcast S1x512x512 c) = fun _ _ => c := rfl

/-! ## The plane's sum -/

/-- The sublane sum then the lane sum of a plane, from zero accumulators. -/
theorem sum_plane (v : FVec Ideal S1x512x512 .f32) :
    multiReduction .add [1] S1 (multiReduction .add [1] S1x512 v 0x00000000#32 reduces_S1x512x512_S1x512 (.inl rfl) rfl)
      0x00000000#32 reduces_S1x512_S1 (.inl rfl) rfl (ix1 0) = Loss.sumPl (toPl v) := by
  refine (Ideal.multiReduction_add_single _ _ reduces_S1x512_S1 (.inl rfl) rfl (ix1 0)).trans ?_
  show ∑ w : Fin 512, _ = ∑ w : Fin 512, ∑ h : Fin 512, toPl v h w
  refine Finset.sum_congr rfl fun w _ => ?_
  refine (Ideal.multiReduction_add_single v _ reduces_S1x512x512_S1x512 (.inl rfl) rfl _).trans ?_
  show ∑ h : Fin 512, _ = ∑ h : Fin 512, toPl v h w
  refine Finset.sum_congr rfl fun h _ => ?_
  show v _ = v (ix3 0 h w)
  refine congrArg v (funext fun (b : Fin 3) => ?_)
  match b with
  | ⟨0, _⟩ => exact Fin.ext rfl
  | ⟨1, _⟩ => exact Fin.ext rfl
  | ⟨2, _⟩ => exact Fin.ext rfl

end Cert.KernelIdeal.Gen

end
-- ==== Proof.KBlock.lean ====
import proofs.«431201_j73778948211150_3_alg».proof.Proof.KOps
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

/-!
  What the kernel stores for one image, read at the extended reals: slot k of the stored [1, 1, 8] vector is statistic k of
  the image's logits plane and integer plane (`Loss.statVec`). A rotation by one along an axis followed by the select on
  that axis's border mask is "the neighbour, or the fill at the border"; the maximum of a plane with its two such neighbours
  along rows and then along columns is the filled 3 × 3 pool; each of the ten rounds applies it once more to both
  boundaries and adds the round's weighted absolute differences to the running planes; a lane sum after a sublane sum is the
  sum over the plane, columns outermost.
-/

noncomputable section

namespace Cert.KernelIdeal.Gen

open Idealize.ShloMosaic Idealize.ShloMosaic.TcCoe Idealize.ShloMosaic.ValueIdx

/-- The loaded logits block as a plane. -/
def planeOfBlock (x0 : Vec Ideal S1x1x512x512 .f32) : Loss.Pl := fun h w => x0 (ix4 0 0 h w)
/-- The loaded target block as a plane of extended reals. -/
def tplaneOfBlock (x1 : Vec Ideal S1x1x512x512 .i32) : Loss.Pl := fun h w => (((x1 (ix4 0 0 h w)).toInt : ℝ) : EReal)

namespace Blk

/-! ## The stages of the body, as functions of planes -/

/-- A [1, 512, 512] vector of extended reals. -/
abbrev V := FVec Ideal S1x512x512 .f32

/-- The fill of the maximum pools. -/
def negC : Ideal .f32 := Scalar.ofBits .f32 0xF149F2CA#32
/-- The fill of the minimum pools. -/
def posC : Ideal .f32 := Scalar.ofBits .f32 0x7149F2CA#32
/-- The zero splat's entry. -/
def zeroC : Ideal .f32 := Scalar.ofBits .f32 0x00000000#32

theorem zeroC_eq : zeroC = 0 := Ideal.ofBits_zero_f32

/-- The rotation by one column. -/
def rotL (x : V) : V := dynamicRotate 2 1#32 none x rotates_S1x512x512_d2

/-- The row stage of a maximum pool: an entry with its two row neighbours. -/
def rowSt (x : V) : V :=
  maximumf x (maximumf (select k0_pay4 (broadcast S1x512x512 negC) (dynamicRotate 1 1#32 none x rotates_S1x512x512_d1))
    (select k0_pay5 (broadcast S1x512x512 negC) (dynamicRotate 1 511#32 none x rotates_S1x512x512_d1)))

/-- The column stage of a maximum pool, from the row stage and its rotation by one column. -/
def colSt (R RR : V) : V :=
  maximumf R (maximumf (select k0_pay6 (broadcast S1x512x512 negC) RR)
    (select k0_pay7 (broadcast S1x512x512 negC) (dynamicRotate 2 511#32 none R rotates_S1x512x512_d2)))

/-- One 3 × 3 maximum pool. -/
def poolSt (x : V) : V := colSt (rowSt x) (rotL (rowSt x))

/-- The row stage of a minimum pool. -/
def rowMinSt (x : V) : V :=
  minimumf x (minimumf (select k0_pay4 (broadcast S1x512x512 posC) (dynamicRotate 1 1#32 none x rotates_S1x512x512_d1))
    (select k0_pay5 (broadcast S1x512x512 posC) (dynamicRotate 1 511#32 none x rotates_S1x512x512_d1)))

/-- The column stage of a minimum pool. -/
def colMinSt (R : V) : V :=
  minimumf R (minimumf (select k0_pay6 (broadcast S1x512x512 posC) (dynamicRotate 2 1#32 none R rotates_S1x512x512_d2))
    (select k0_pay7 (broadcast S1x512x512 posC) (dynamicRotate 2 511#32 none R rotates_S1x512x512_d2)))

/-- The soft boundary: maximum pool minus minimum pool, cut at zero. -/
def bdryV (x : V) : V :=
  maximumf (subf (poolSt x) (colMinSt (rowMinSt x))) (broadcast S1x512x512 zeroC)

/-- One round's update of a running plane: add the weighted absolute difference. -/
def accSt (w : BitVec 32) (A P T : V) : V :=
  addf A (mulf (broadcast S1x512x512 (Scalar.ofBits (F := Ideal) .f32 w)) (absf (subf P T)))

/-- The cross-entropy plane. -/
def bceV (X T : V) : V :=
  addf (subf (maximumf X (broadcast S1x512x512 zeroC)) (mulf X T))
    (log1p (exp (subf (broadcast S1x512x512 zeroC) (absf X))))

/-- The sublane sum then the lane sum. -/
def sumV (v : V) : FVec Ideal S1 .f32 :=
  multiReduction .add [1] S1 (multiReduction .add [1] S1x512 v 0x00000000#32 reduces_S1x512x512_S1x512 (.inl rfl) rfl)
      0x00000000#32 reduces_S1x512_S1 (.inl rfl) rfl

theorem sumV_apply (v : V) : sumV v (ix1 0) = Loss.sumPl (toPl v) := sum_plane v

theorem toPl_rowSt (x : V) : toPl (rowSt x) = Loss.rowMax Loss.CC.negFill (toPl x) := by
  unfold rowSt
  rw [toPl_maximumf, toPl_maximumf, toPl_up, toPl_down]
  rfl

theorem toPl_colSt (R : V) : toPl (colSt R (rotL R)) = Loss.colMax Loss.CC.negFill (toPl R) := by
  unfold colSt rotL
  rw [toPl_maximumf, toPl_maximumf, toPl_left, toPl_right]
  rfl

theorem toPl_poolSt (x : V) : toPl (poolSt x) = Loss.pool3max Loss.CC.negFill (toPl x) := by
  unfold poolSt
  rw [toPl_colSt, toPl_rowSt]
  rfl

theorem toPl_rowMinSt (x : V) : toPl (rowMinSt x) = Loss.rowMin Loss.CC.posFill (toPl x) := by
  unfold rowMinSt
  rw [toPl_minimumf, toPl_minimumf, toPl_up, toPl_down]
  rfl

theorem toPl_colMinSt (R : V) : toPl (colMinSt R) = Loss.colMin Loss.CC.posFill (toPl R) := by
  unfold colMinSt
  rw [toPl_minimumf, toPl_minimumf, toPl_left, toPl_right]
  rfl

theorem toPl_bdryV (x : V) : toPl (bdryV x) = Loss.bdryK Loss.CC (toPl x) := by
  unfold bdryV
  rw [toPl_maximumf, toPl_subf, toPl_poolSt, toPl_colMinSt, toPl_rowMinSt, toPl_broadcast, zeroC_eq]
  rfl

theorem toPl_accSt (w : BitVec 32) (A P T : V) :
    toPl (accSt w A P T) = fun h c => toPl A h c + Ideal.ofBits .f32 w * Loss.absE (toPl P h c - toPl T h c) := rfl

theorem toPl_bceV (X T : V) : toPl (bceV X T) = fun h c => Loss.bceK (toPl X h c) (toPl T h c) := by
  funext h c
  show (max (toPl X h c) zeroC - toPl X h c * toPl T h c) + Ideal.log1p (Ideal.exp (zeroC - max (toPl X h c) (-(toPl X h c)))) = _
  rw [zeroC_eq]
  rfl

/-! ## The first part: the two planes, the sigmoid, the four sums -/

theorem toPl_pay2 (x0 : Vec Ideal S1x1x512x512 .f32) : toPl (k0_pay2 x0) = planeOfBlock x0 := by
  funext h c
  exact shapeCast_1abc_abc_apply x0 _ 0 h c

theorem toPl_pay3 (x1 : Vec Ideal S1x1x512x512 .i32) : toPl (k0_pay3 x1) = tplaneOfBlock x1 := by
  funext h c
  show (((shapeCast S1x512x512 x1 shapeCasts_S1x1x512x512_S1x512x512 (ix3 0 h c)).toInt : ℝ) : EReal) = _
  rw [shapeCast_1abc_abc_apply]
  rfl

theorem toPl_pay9 (x0 : Vec Ideal S1x1x512x512 .f32) : toPl (k0_pay9 x0) = Loss.sigP (planeOfBlock x0) := by
  rw [← toPl_pay2]
  rfl

theorem pay8_apply (x0 : Vec Ideal S1x1x512x512 .f32) (x1 : Vec Ideal S1x1x512x512 .i32) :
    k0_pay8 x0 x1 (ix1 0) = Loss.kS0 (planeOfBlock x0) (tplaneOfBlock x1) := by
  show sumV (bceV (k0_pay2 x0) (k0_pay3 x1)) (ix1 0) = _
  rw [sumV_apply, toPl_bceV, toPl_pay2, toPl_pay3]
  rfl

theorem pay10_apply (x0 : Vec Ideal S1x1x512x512 .f32) : k0_pay10 x0 (ix1 0) = Loss.kS1 (planeOfBlock x0) := by
  show sumV (k0_pay9 x0) (ix1 0) = _
  rw [sumV_apply, toPl_pay9]
  rfl

theorem pay11_apply (x1 : Vec Ideal S1x1x512x512 .i32) : k0_pay11 x1 (ix1 0) = Loss.kS2 (tplaneOfBlock x1) := by
  show sumV (k0_pay3 x1) (ix1 0) = _
  rw [sumV_apply, toPl_pay3]
  rfl

theorem pay12_apply (x0 : Vec Ideal S1x1x512x512 .f32) (x1 : Vec Ideal S1x1x512x512 .i32) :
    k0_pay12 x0 x1 (ix1 0) = Loss.kS3 (planeOfBlock x0) (tplaneOfBlock x1) := by
  show sumV (mulf (k0_pay9 x0) (k0_pay3 x1)) (ix1 0) = _
  rw [sumV_apply, toPl_mulf, toPl_pay9, toPl_pay3]
  rfl

/-! ## The rounds -/

/-- What holds after `d` rounds of: the dilated target boundary `G`, the two running planes `A1` and `A2`, the row
    stage `R` of the next pool of the dilated prediction boundary, and `R` rotated by one column. -/
structure Inv (P T : Loss.Pl) (d : ℕ) (G A1 A2 R RR : V) : Prop where
  g : toPl G = Loss.iterK Loss.CC d T
  a1 : toPl A1 = Loss.accK Loss.CC P T d
  a2 : toPl A2 = Loss.accK Loss.CC T P d
  r : toPl R = Loss.rowMax Loss.CC.negFill (Loss.iterK Loss.CC d P)
  rr : RR = rotL R

/-- Finishing the pool whose row stage crossed the cut gives the prediction boundary dilated once more. -/
theorem Inv.colSt_eq {P T : Loss.Pl} {d : ℕ} {G A1 A2 R RR : V} (h : Inv P T d G A1 A2 R RR) :
    toPl (colSt R RR) = Loss.iterK Loss.CC (d + 1) P := by
  rw [h.rr, toPl_colSt, h.r]
  rfl

/-- One more pool of the target boundary is the boundary dilated once more. -/
theorem Inv.poolSt_eq {P T : Loss.Pl} {d : ℕ} {G A1 A2 R RR : V} (h : Inv P T d G A1 A2 R RR) :
    toPl (poolSt G) = Loss.iterK Loss.CC (d + 1) T := by
  rw [toPl_poolSt, h.g]
  rfl

/-- One round: both boundaries are dilated once more and the two running planes take the round's weighted terms. -/
theorem Inv.step {P T : Loss.Pl} {d : ℕ} {G A1 A2 R RR vP vT : V} (w : BitVec 32)
    (hw : Ideal.ofBits .f32 w = Loss.CC.wt d) (hP : toPl vP = P) (hT : toPl vT = T) (h : Inv P T d G A1 A2 R RR) :
    Inv P T (d + 1) (poolSt G) (accSt w A1 (colSt R RR) vT) (accSt w A2 (poolSt G) vP)
      (rowSt (colSt R RR)) (rotL (rowSt (colSt R RR))) where
  g := h.poolSt_eq
  a1 := by
    rw [toPl_accSt, h.a1, h.colSt_eq, hT, hw]
    rfl
  a2 := by
    rw [toPl_accSt, h.a2, h.poolSt_eq, hP, hw]
    rfl
  r := by rw [toPl_rowSt, h.colSt_eq]
  rr := rfl

/-! ## The stored vector: five pieces and three zeros -/

theorem pay1_apply (a b c d e : FVec Ideal S1x1 .f32) (k : Fin 8) :
    k0_pay1 a b c d e (ix3 0 0 k) =
      if k.val = 0 then a (ix2 0 0) else if k.val = 1 then b (ix2 0 0) else if k.val = 2 then c (ix2 0 0)
      else if k.val = 3 then d (ix2 0 0) else if k.val = 4 then e (ix2 0 0) else 0 := by
  show shapeCast S1x1x8 (concatenate S1x8 1 [⟨S1x1, a⟩, ⟨S1x1, b⟩, ⟨S1x1, c⟩, ⟨S1x1, d⟩, ⟨S1x1, e⟩,
    ⟨S1x3, broadcast S1x3 zeroC⟩] concatenates_S1x1_S1x1_S1x1_S1x1_S1x1_S1x3_S1x8_d1) shapeCasts_S1x8_S1x1x8 (ix3 0 0 k) = _
  rw [shapeCast_ab_1ab_apply]
  have hi : ∀ (i : S1x1.Idx) (j : S1x8.Idx), (i 0).val = (j 0).val →
      ∀ b : Fin S1x1.rank, b.cast (rfl : S1x1.rank = S1x8.rank) ≠ (1 : Fin S1x8.rank) → (i b).val = (j (b.cast rfl)).val := by
    intro i j h0 b hb
    match b with
    | ⟨0, _⟩ => exact h0
    | ⟨1, _⟩ => exact absurd rfl hb
  have hz : ∀ (i : S1x3.Idx) (j : S1x8.Idx), (i 0).val = (j 0).val →
      ∀ b : Fin S1x3.rank, b.cast (rfl : S1x3.rank = S1x8.rank) ≠ (1 : Fin S1x8.rank) → (i b).val = (j (b.cast rfl)).val := by
    intro i j h0 b hb
    match b with
    | ⟨0, _⟩ => exact h0
    | ⟨1, _⟩ => exact absurd rfl hb
  rcases k with ⟨k, hk⟩
  interval_cases k
  · refine (concatenate_apply_piece (1 : Fin S1x8.rank) _ _ (ix2 0 ⟨0, hk⟩) 0 ?_ S1x1 a ?_ rfl 0 ?_ (ix2 0 0) (hi _ _ rfl) ?_).trans rfl
    · simp
    · rfl
    · rfl
    · rfl
  · refine (concatenate_apply_piece (1 : Fin S1x8.rank) _ _ (ix2 0 ⟨1, hk⟩) 1 ?_ S1x1 b ?_ rfl 1 ?_ (ix2 0 0) (hi _ _ rfl) ?_).trans rfl
    · simp
    · rfl
    · rfl
    · rfl
  · refine (concatenate_apply_piece (1 : Fin S1x8.rank) _ _ (ix2 0 ⟨2, hk⟩) 2 ?_ S1x1 c ?_ rfl 2 ?_ (ix2 0 0) (hi _ _ rfl) ?_).trans rfl
    · simp
    · rfl
    · rfl
    · rfl
  · refine (concatenate_apply_piece (1 : Fin S1x8.rank) _ _ (ix2 0 ⟨3, hk⟩) 3 ?_ S1x1 d ?_ rfl 3 ?_ (ix2 0 0) (hi _ _ rfl) ?_).trans rfl
    · simp
    · rfl
    · rfl
    · rfl
  · refine (concatenate_apply_piece (1 : Fin S1x8.rank) _ _ (ix2 0 ⟨4, hk⟩) 4 ?_ S1x1 e ?_ rfl 4 ?_ (ix2 0 0) (hi _ _ rfl) ?_).trans rfl
    · simp
    · rfl
    · rfl
    · rfl
  · refine (concatenate_apply_piece (1 : Fin S1x8.rank) _ _ (ix2 0 ⟨5, hk⟩) 5 ?_ S1x3 (broadcast S1x3 zeroC) ?_ rfl 5 ?_ (ix2 0 0) (hz _ _ rfl) ?_).trans zeroC_eq
    · simp
    · rfl
    · rfl
    · rfl
  · refine (concatenate_apply_piece (1 : Fin S1x8.rank) _ _ (ix2 0 ⟨6, hk⟩) 5 ?_ S1x3 (broadcast S1x3 zeroC) ?_ rfl 5 ?_ (ix2 0 1) (hz _ _ rfl) ?_).trans zeroC_eq
    · simp
    · rfl
    · rfl
    · rfl
  · refine (concatenate_apply_piece (1 : Fin S1x8.rank) _ _ (ix2 0 ⟨7, hk⟩) 5 ?_ S1x3 (broadcast S1x3 zeroC) ?_ rfl 5 ?_ (ix2 0 2) (hz _ _ rfl) ?_).trans zeroC_eq
    · simp
    · rfl
    · rfl
    · rfl

end Blk

/-! ## The whole chain -/

open Blk in
/-- Slot `k` of the stored vector is statistic `k` of the two planes. -/
theorem PAY_apply (x0 : Vec Ideal S1x1x512x512 .f32) (x1 : Vec Ideal S1x1x512x512 .i32) (k : Fin 8) :
    PAY (F := Ideal) x0 x1 (ix3 0 0 k) = Loss.statVec Loss.CC (planeOfBlock x0) (tplaneOfBlock x1) k := by
  -- the body's values, in its order
  let v4 := k0_pay3 (F := Ideal) x1
  let v8 := k0_pay4
  let v10 := k0_pay5
  let v12 := k0_pay6
  let v14 := k0_pay7
  let v26 := k0_pay8 x0 x1
  let v27 := k0_pay9 x0
  let v29 := k0_pay10 x0
  let v31 := k0_pay11 x1
  let v34 := k0_pay12 x0 x1
  let v35 := k0_pay13 x0
  let v69 := k0_pay14 v8 v10 v12 v14 v27 v35
  let v72 := k0_pay15 v4 v8
  let v75 := k0_pay16 v4 v10
  let v104 := k0_pay17 v4 v8 v10 v12 v14 v72 v75
  let v105 := k0_pay18 (F := Ideal)
  let v106 := k0_pay19 (F := Ideal)
  let v114 := k0_pay20 v8 v10 v69
  let v115 := k0_pay21 v8 v10 v69
  let v138 := k0_pay23 v8 v10 v12 v14 v104
  let v145 := k0_pay24 v12 v14 v104 v105 v114 v115
  let v148 := k0_pay25 v8 v10 v12 v14 v69 v104 v106
  let v156 := k0_pay26 v8 v10 v12 v14 v114 v115
  let v157 := k0_pay27 v8 v10 v12 v14 v114 v115
  let v180 := k0_pay29 v8 v10 v12 v14 v138
  let v187 := k0_pay30 v12 v14 v104 v145 v156 v157
  let v190 := k0_pay31 v8 v10 v12 v14 v69 v138 v148
  let v198 := k0_pay32 v8 v10 v12 v14 v156 v157
  let v199 := k0_pay33 v8 v10 v12 v14 v156 v157
  let v222 := k0_pay35 v8 v10 v12 v14 v180
  let v229 := k0_pay36 v12 v14 v104 v187 v198 v199
  let v232 := k0_pay37 v8 v10 v12 v14 v69 v180 v190
  let v240 := k0_pay38 v8 v10 v12 v14 v198 v199
  let v241 := k0_pay39 v8 v10 v12 v14 v198 v199
  let v264 := k0_pay41 v8 v10 v12 v14 v222
  let v271 := k0_pay42 v12 v14 v104 v229 v240 v241
  let v274 := k0_pay43 v8 v10 v12 v14 v69 v222 v232
  let v282 := k0_pay44 v8 v10 v12 v14 v240 v241
  let v283 := k0_pay45 v8 v10 v12 v14 v240 v241
  let v306 := k0_pay47 v8 v10 v12 v14 v264
  let v313 := k0_pay48 v12 v14 v104 v271 v282 v283
  let v316 := k0_pay49 v8 v10 v12 v14 v69 v264 v274
  let v324 := k0_pay50 v8 v10 v12 v14 v282 v283
  let v325 := k0_pay51 v8 v10 v12 v14 v282 v283
  let v348 := k0_pay53 v8 v10 v12 v14 v306
  let v355 := k0_pay54 v12 v14 v104 v313 v324 v325
  let v358 := k0_pay55 v8 v10 v12 v14 v69 v306 v316
  let v366 := k0_pay56 v8 v10 v12 v14 v324 v325
  let v367 := k0_pay57 v8 v10 v12 v14 v324 v325
  let v390 := k0_pay59 v8 v10 v12 v14 v348
  let v397 := k0_pay60 v12 v14 v104 v355 v366 v367
  let v400 := k0_pay61 v8 v10 v12 v14 v69 v348 v358
  let v408 := k0_pay62 v8 v10 v12 v14 v366 v367
  let v409 := k0_pay63 v8 v10 v12 v14 v366 v367
  let v432 := k0_pay65 v8 v10 v12 v14 v390
  let v439 := k0_pay66 v12 v14 v104 v397 v408 v409
  let v442 := k0_pay67 v8 v10 v12 v14 v69 v390 v400
  let v450 := k0_pay68 v8 v10 v12 v14 v408 v409
  let v451 := k0_pay69 v8 v10 v12 v14 v408 v409
  let v474 := k0_pay71 v8 v10 v12 v14 v432
  let v481 := k0_pay72 v12 v14 v104 v439 v450 v451
  let v484 := k0_pay73 v8 v10 v12 v14 v69 v432 v442
  let v492 := k0_pay74 v8 v10 v12 v14 v450 v451
  let v493 := k0_pay75 v8 v10 v12 v14 v450 v451
  let v532 := k0_pay76 v26
  let v533 := k0_pay77 v29
  let v534 := k0_pay78 v31
  let v535 := k0_pay79 v34
  let v536 := k0_pay80 v8 v10 v12 v14 v69 v104 v474 v481 v484 v492 v493
  show k0_pay1 v532 v533 v534 v535 v536 (ix3 0 0 k) = _
  -- the two soft boundaries
  have hP : toPl v69 = Loss.bdryK Loss.CC (Loss.sigP (planeOfBlock x0)) := by
    show toPl (bdryV (k0_pay9 x0)) = _
    rw [toPl_bdryV, toPl_pay9]
  have hT : toPl v104 = Loss.bdryK Loss.CC (tplaneOfBlock x1) := by
    show toPl (bdryV (k0_pay3 x1)) = _
    rw [toPl_bdryV, toPl_pay3]
  obtain ⟨P, hPd⟩ : ∃ P, P = Loss.bdryK Loss.CC (Loss.sigP (planeOfBlock x0)) := ⟨_, rfl⟩
  obtain ⟨T, hTd⟩ : ∃ T, T = Loss.bdryK Loss.CC (tplaneOfBlock x1) := ⟨_, rfl⟩
  rw [← hPd] at hP
  rw [← hTd] at hT
  -- before the first round: nothing dilated, both running planes zero, the first pool's row stage taken
  have h0 : Inv P T 0 v104 v105 v106 v114 v115 :=
    { g := hT
      a1 := by
        show toPl (broadcast S1x512x512 zeroC) = _
        rw [toPl_broadcast, zeroC_eq]
        rfl
      a2 := by
        show toPl (broadcast S1x512x512 zeroC) = _
        rw [toPl_broadcast, zeroC_eq]
        rfl
      r := by
        show toPl (rowSt v69) = _
        rw [toPl_rowSt, hP]
        rfl
      rr := rfl }
  have h1 : Inv P T 1 v138 v145 v148 v156 v157 := Inv.step 0x3DCCCCCD#32 rfl hP hT h0
  have h2 : Inv P T 2 v180 v187 v190 v198 v199 := Inv.step 0x3E4CCCCD#32 rfl hP hT h1
  have h3 : Inv P T 3 v222 v229 v232 v240 v241 := Inv.step 0x3E99999A#32 rfl hP hT h2
  have h4 : Inv P T 4 v264 v271 v274 v282 v283 := Inv.step 0x3ECCCCCD#32 rfl hP hT h3
  have h5 : Inv P T 5 v306 v313 v316 v324 v325 := Inv.step 0x3F000000#32 rfl hP hT h4
  have h6 : Inv P T 6 v348 v355 v358 v366 v367 := Inv.step 0x3F19999A#32 rfl hP hT h5
  have h7 : Inv P T 7 v390 v397 v400 v408 v409 := Inv.step 0x3F333333#32 rfl hP hT h6
  have h8 : Inv P T 8 v432 v439 v442 v450 v451 := Inv.step 0x3F4CCCCD#32 rfl hP hT h7
  have h9 : Inv P T 9 v474 v481 v484 v492 v493 := Inv.step 0x3F666666#32 rfl hP hT h8
  have h10 := Inv.step 0x3F800000#32 rfl hP hT h9
  -- the five pieces: four plane sums and the sum of the two running planes after the tenth round
  have e0 : v532 (ix2 0 0) = Loss.kS0 (planeOfBlock x0) (tplaneOfBlock x1) :=
    (shapeCast_a_1a_apply v26 shapeCasts_S1_S1x1 0 0).trans (pay8_apply x0 x1)
  have e1 : v533 (ix2 0 0) = Loss.kS1 (planeOfBlock x0) :=
    (shapeCast_a_1a_apply v29 shapeCasts_S1_S1x1 0 0).trans (pay10_apply x0)
  have e2 : v534 (ix2 0 0) = Loss.kS2 (tplaneOfBlock x1) :=
    (shapeCast_a_1a_apply v31 shapeCasts_S1_S1x1 0 0).trans (pay11_apply x1)
  have e3 : v535 (ix2 0 0) = Loss.kS3 (planeOfBlock x0) (tplaneOfBlock x1) :=
    (shapeCast_a_1a_apply v34 shapeCasts_S1_S1x1 0 0).trans (pay12_apply x0 x1)
  have e4 : v536 (ix2 0 0) = Loss.kS4 Loss.CC (planeOfBlock x0) (tplaneOfBlock x1) := by
    show shapeCast S1x1 (addf (sumV (accSt 0x3F800000#32 v481 (colSt v492 v493) v104))
      (sumV (accSt 0x3F800000#32 v484 (poolSt v474) v69))) shapeCasts_S1_S1x1 (ix2 0 0) = _
    rw [shapeCast_a_1a_apply, addf_apply, sumV_apply, sumV_apply, h10.a1, h10.a2, hPd, hTd]
    rfl
  rw [pay1_apply, e0, e1, e2, e3, e4]
  rfl

end Cert.KernelIdeal.Gen

end
-- ==== Proof.LossWindow.lean ====
import proofs.«431201_j73778948211150_3_alg».proof.Proof.LossSpec
import Idealize.ShloMosaic.PureOps.Contract
import Idealize.ShloMosaic.Lib.ValueIdx

/-!
  The host's window reduction read at an index. A reduce_window over the two image axes with window 2d+1, stride 1 and
  padding d on both sides, folding max from −∞ (min from +∞), is at (b, 0, i, j) the extremum of image b over the part of
  the window inside the image: a padded position contributes the initial value, which is the fold's identity.
-/

noncomputable section

namespace Loss

open Idealize.ShloMosaic Idealize.ShloMosaic.ValueIdx

/-- Image b of a [16, 1, 512, 512] array as a plane. -/
def plane4 (x : (⟨4, ![16, 1, 512, 512]⟩ : Shape).Idx → EReal) (b : Fin 16) : Pl := fun i j => x (ix4 b 0 i j)

namespace Window

/-- A left fold of max from a over a list is at most c exactly when a and every term are: max r t ≤ c splits into
    r ≤ c and t ≤ c, one term at a time. -/
theorem foldl_max_le_iff {ι : Type} (g : ι → EReal) (c : EReal) (l : List ι) (a : EReal) :
    l.foldl (fun r n => max r (g n)) a ≤ c ↔ a ≤ c ∧ ∀ n ∈ l, g n ≤ c := by
  induction l generalizing a with
  | nil => simp
  | cons n l ih =>
    rw [List.foldl_cons, ih, max_le_iff]
    simp only [List.mem_cons, forall_eq_or_imp]
    tauto

/-- Dually, c is at most a left fold of min from a exactly when it is at most a and at most every term. -/
theorem le_foldl_min_iff {ι : Type} (g : ι → EReal) (c : EReal) (l : List ι) (a : EReal) :
    c ≤ l.foldl (fun r n => min r (g n)) a ↔ c ≤ a ∧ ∀ n ∈ l, c ≤ g n := by
  induction l generalizing a with
  | nil => simp
  | cons n l ih =>
    rw [List.foldl_cons, ih, le_min_iff]
    simp only [List.mem_cons, forall_eq_or_imp]
    tauto

/-- The shape whose indices are the positions within one window: 1 × 1 × (2d+1) × (2d+1). -/
private abbrev WS (d : ℕ) : Shape := ⟨4, ![1, 1, 2 * d + 1, 2 * d + 1]⟩
/-- The operand's shape. -/
private abbrev S4 : Shape := ⟨4, ![16, 1, 512, 512]⟩

/-- The fold's term at window position q for the result index (b, 0, i, j): the padded operand at (b, 0, i, j) + q, that
    is x at (b, 0, i, j) + q − (0, 0, d, d) when that lies inside the operand, and the value v on the padding. -/
private def wterm (d : ℕ) (x : S4.Idx → EReal) (v : EReal) (b : Fin 16) (i j : Fin 512) (q : (WS d).Idx) : EReal :=
  if hin : ∀ a : Fin 4, (![0, 0, d, d] : Fin 4 → ℕ) a ≤ (ix4 b (0 : Fin 1) i j a).val * (![1, 1, 1, 1] : Fin 4 → ℕ) a + (q a).val ∧
      (ix4 b (0 : Fin 1) i j a).val * (![1, 1, 1, 1] : Fin 4 → ℕ) a + (q a).val - (![0, 0, d, d] : Fin 4 → ℕ) a < (![16, 1, 512, 512] : Fin 4 → ℕ) a
  then x (fun a => ⟨(ix4 b (0 : Fin 1) i j a).val * (![1, 1, 1, 1] : Fin 4 → ℕ) a + (q a).val - (![0, 0, d, d] : Fin 4 → ℕ) a, (hin a).2⟩) else v

/-- Every term of the fold is the padding value or image b at a point of the window around (i, j): the window position
    q = (0, 0, q₂, q₃) with q₂, q₃ ≤ 2d reads the point (i + q₂ − d, j + q₃ − d), which is within d of (i, j) on both axes. -/
private theorem wterm_cases (d : ℕ) (x : S4.Idx → EReal) (v : EReal) (b : Fin 16) (i j : Fin 512) (q : (WS d).Idx) :
    wterm d x v b i j q = v ∨ ∃ p ∈ win d i j, wterm d x v b i j q = plane4 x b p.1 p.2 := by
  unfold wterm
  split_ifs with hin
  · right
    have h0 : (q 0).val < 1 := (q 0).isLt
    have h1 : (q 1).val < 1 := (q 1).isLt
    have h2 : (q 2).val < 2 * d + 1 := (q 2).isLt
    have h3 : (q 3).val < 2 * d + 1 := (q 3).isLt
    have e2 : d ≤ i.val * 1 + (q 2).val ∧ i.val * 1 + (q 2).val - d < 512 := hin 2
    have e3 : d ≤ j.val * 1 + (q 3).val ∧ j.val * 1 + (q 3).val - d < 512 := hin 3
    refine ⟨(⟨i.val + (q 2).val - d, by omega⟩, ⟨j.val + (q 3).val - d, by omega⟩), ?_, ?_⟩
    · simp only [win, Finset.mem_filter, Finset.mem_univ, true_and]; omega
    · show x _ = x _
      congr 1
      funext a
      match a with
      | ⟨0, _⟩ => exact Fin.ext (show b.val * 1 + (q 0).val - 0 = b.val by omega)
      | ⟨1, _⟩ => exact Fin.ext (show 0 * 1 + (q 1).val - 0 = 0 by omega)
      | ⟨2, _⟩ => exact Fin.ext (show i.val * 1 + (q 2).val - d = i.val + (q 2).val - d by omega)
      | ⟨3, _⟩ => exact Fin.ext (show j.val * 1 + (q 3).val - d = j.val + (q 3).val - d by omega)
  · left; rfl

/-- Every point (i', j') of the window around (i, j) is read by some term of the fold: by the one at window position
    (0, 0, i' + d − i, j' + d − j), both coordinates of which are at most 2d. -/
private theorem wterm_surj (d : ℕ) (x : S4.Idx → EReal) (v : EReal) (b : Fin 16) (i j : Fin 512) (p : Fin 512 × Fin 512)
    (hp : p ∈ win d i j) : ∃ q : (WS d).Idx, wterm d x v b i j q = plane4 x b p.1 p.2 := by
  obtain ⟨i', j'⟩ := p
  simp only [win, Finset.mem_filter, Finset.mem_univ, true_and] at hp
  have hi := i.isLt; have hj := j.isLt; have hi' := i'.isLt; have hj' := j'.isLt; have hb := b.isLt
  refine ⟨ix4 (0 : Fin 1) (0 : Fin 1) ⟨i'.val + d - i.val, by omega⟩ ⟨j'.val + d - j.val, by omega⟩, ?_⟩
  unfold wterm
  split_ifs with hin
  · show x _ = x _
    congr 1
    funext a
    match a with
    | ⟨0, _⟩ => exact Fin.ext (show b.val * 1 + 0 - 0 = b.val by omega)
    | ⟨1, _⟩ => exact Fin.ext (show 0 * 1 + 0 - 0 = 0 by omega)
    | ⟨2, _⟩ => exact Fin.ext (show i.val * 1 + (i'.val + d - i.val) - d = i'.val by omega)
    | ⟨3, _⟩ => exact Fin.ext (show j.val * 1 + (j'.val + d - j.val) - d = j'.val by omega)
  · refine absurd (fun a => ?_) hin
    match a with
    | ⟨0, _⟩ => show 0 ≤ b.val * 1 + 0 ∧ b.val * 1 + 0 - 0 < 16; omega
    | ⟨1, _⟩ => show 0 ≤ 0 * 1 + 0 ∧ 0 * 1 + 0 - 0 < 1; omega
    | ⟨2, _⟩ => show d ≤ i.val * 1 + (i'.val + d - i.val) ∧ i.val * 1 + (i'.val + d - i.val) - d < 512; omega
    | ⟨3, _⟩ => show d ≤ j.val * 1 + (j'.val + d - j.val) ∧ j.val * 1 + (j'.val + d - j.val) - d < 512; omega

end Window

open Window in
/-- The max-window at (b, 0, i, j) is the maximum of image b over the window around (i, j). Both bounds go through the
    fold's universal property: each term is −∞ or a value at a point of the window, so the fold is at most the window's
    supremum; and each point of the window is read by the term at some window position, every one of which the fold runs
    through (the positions are numbered by a bijection), so each value is at most the fold. -/
theorem reduceWindow_max_apply (d k : ℕ) (hk : k = 2 * d + 1)
    (x : FVec Ideal ⟨4, ![16, 1, 512, 512]⟩ .f32) (init : FVec Ideal ⟨0, ![]⟩ .f32) (hinit : ∀ i, init i = ⊥)
    (h : (⟨4, ![16, 1, 512, 512]⟩ : Shape).ReduceWindows (![1, 1, k, k] : Fin 4 → Nat) ![1, 1, 1, 1] ![0, 0, d, d] ![0, 0, d, d] ⟨4, ![16, 1, 512, 512]⟩)
    (hu : 0 < (⟨0, ![]⟩ : Shape).numel) (b : Fin 16) (i j : Fin 512) :
    Host.reduceWindow (FloatOps.maximumf (F := Ideal) (φ := .f32)) (![1, 1, k, k] : Fin 4 → Nat) ![1, 1, 1, 1] ![0, 0, d, d] ![0, 0, d, d] x init h hu (ix4 b 0 i j)
      = wmax d (plane4 x b) i j := by
  subst hk
  have hv : init (Shape.Idx.first hu) = ⊥ := hinit _
  show List.foldl (fun r n => max r (wterm d x (init (Shape.Idx.first hu)) b i j ((WS d).rowMajor.symm n)))
    (init (Shape.Idx.first hu)) (List.finRange (WS d).numel) = _
  rw [hv]
  apply le_antisymm
  · rw [foldl_max_le_iff]
    refine ⟨bot_le, fun n _ => ?_⟩
    rcases wterm_cases d x ⊥ b i j ((WS d).rowMajor.symm n) with e | ⟨p, hp, e⟩
    · rw [e]; exact bot_le
    · rw [e]; exact Finset.le_sup (f := fun p => plane4 x b p.1 p.2) hp
  · unfold wmax
    rw [Finset.sup_le_iff]
    intro p hp
    obtain ⟨q, hq⟩ := wterm_surj d x ⊥ b i j p hp
    rw [← hq]
    have := ((foldl_max_le_iff (fun n => wterm d x ⊥ b i j ((WS d).rowMajor.symm n)) _
      (List.finRange (WS d).numel) ⊥).1 le_rfl).2 ((WS d).rowMajor q) (List.mem_finRange _)
    simpa only [Equiv.symm_apply_apply] using this

open Window in
/-- The min-window at (b, 0, i, j) is the minimum of image b over the window around (i, j): the same argument with the
    order reversed, the padding now reading +∞. -/
theorem reduceWindow_min_apply (d k : ℕ) (hk : k = 2 * d + 1)
    (x : FVec Ideal ⟨4, ![16, 1, 512, 512]⟩ .f32) (init : FVec Ideal ⟨0, ![]⟩ .f32) (hinit : ∀ i, init i = ⊤)
    (h : (⟨4, ![16, 1, 512, 512]⟩ : Shape).ReduceWindows (![1, 1, k, k] : Fin 4 → Nat) ![1, 1, 1, 1] ![0, 0, d, d] ![0, 0, d, d] ⟨4, ![16, 1, 512, 512]⟩)
    (hu : 0 < (⟨0, ![]⟩ : Shape).numel) (b : Fin 16) (i j : Fin 512) :
    Host.reduceWindow (FloatOps.minimumf (F := Ideal) (φ := .f32)) (![1, 1, k, k] : Fin 4 → Nat) ![1, 1, 1, 1] ![0, 0, d, d] ![0, 0, d, d] x init h hu (ix4 b 0 i j)
      = wmin d (plane4 x b) i j := by
  subst hk
  have hv : init (Shape.Idx.first hu) = ⊤ := hinit _
  show List.foldl (fun r n => min r (wterm d x (init (Shape.Idx.first hu)) b i j ((WS d).rowMajor.symm n)))
    (init (Shape.Idx.first hu)) (List.finRange (WS d).numel) = _
  rw [hv]
  apply le_antisymm
  · unfold wmin
    rw [Finset.le_inf_iff]
    intro p hp
    obtain ⟨q, hq⟩ := wterm_surj d x ⊤ b i j p hp
    rw [← hq]
    have := ((le_foldl_min_iff (fun n => wterm d x ⊤ b i j ((WS d).rowMajor.symm n)) _
      (List.finRange (WS d).numel) ⊤).1 le_rfl).2 ((WS d).rowMajor q) (List.mem_finRange _)
    simpa only [Equiv.symm_apply_apply] using this
  · rw [le_foldl_min_iff]
    refine ⟨le_top, fun n _ => ?_⟩
    rcases wterm_cases d x ⊤ b i j ((WS d).rowMajor.symm n) with e | ⟨p, hp, e⟩
    · rw [e]; exact le_top
    · rw [e]; exact Finset.inf_le (f := fun p => plane4 x b p.1 p.2) hp

end Loss

end
-- ==== Proof.LossSums.lean ====
import proofs.«431201_j73778948211150_3_alg».proof.Proof.LossWindow
import Idealize.ShloMosaic.PureOps.Ideal.Laws
import Idealize.ShloMosaic.Lib.ValueIdx
import Idealize.ShloMosaic.Lib.ValueIdxRank1
import Idealize.ShloMosaic.Lib.Pipeline.Value

/-!
  The host's add-reductions read at the extended reals, as sums over images, rows and columns: the reduction of a
  [16, 1, 512, 512] array over every axis; the reduction over the flattened image axis of a [16, 262144] array, whose
  flat position i·512 + j is row i, column j; the reduction of a 16-vector. Each starts from the initial value 0.
-/

noncomputable section

namespace Loss

open Idealize.ShloMosaic Idealize.ShloMosaic.ValueIdx

/-- Row i, column j of an image in the flattened image axis. -/
def flat (i j : Fin 512) : Fin 262144 := ⟨i.val * 512 + j.val, by have := i.isLt; have := j.isLt; omega⟩

/-- The index set of a [16, 1, 512, 512] array is the product of its three non-unit coordinate ranges: the coordinate on
    the unit axis can only be 0. -/
private def idxEquiv4 : (⟨4, ![16, 1, 512, 512]⟩ : Shape).Idx ≃ Fin 16 × Fin 512 × Fin 512 where
  toFun i := (i 0, i 2, i 3)
  invFun p := ix4 p.1 0 p.2.1 p.2.2
  left_inv i := by
    have h1 : i 1 = (0 : Fin 1) := Fin.ext (by have h : (i 1).val < 1 := (i 1).isLt; show (i 1).val = 0; omega)
    have e := eq_ix4 i
    rw [h1] at e
    exact e.symm
  right_inv _ := rfl

/-- So a sum over that index set is the triple sum over batch, row and column. -/
private theorem sum_idx4 {M : Type*} [AddCommMonoid M] (f : (⟨4, ![16, 1, 512, 512]⟩ : Shape).Idx → M) :
    ∑ i, f i = ∑ b : Fin 16, ∑ h : Fin 512, ∑ w : Fin 512, f (ix4 b 0 h w) := by
  rw [← Equiv.sum_comp idxEquiv4.symm f, Fintype.sum_prod_type]
  refine Finset.sum_congr rfl fun b _ => ?_
  rw [Fintype.sum_prod_type]
  rfl

/-- Row and column of a flat image position: k = (k / 512) · 512 + k % 512, and division with remainder by 512 is unique. -/
private def flatEquiv : Fin 512 × Fin 512 ≃ Fin 262144 where
  toFun p := flat p.1 p.2
  invFun k := (⟨k.val / 512, by have := k.isLt; omega⟩, ⟨k.val % 512, by omega⟩)
  left_inv p := by
    obtain ⟨i, j⟩ := p
    have hi := i.isLt
    have hj := j.isLt
    refine Prod.ext (Fin.ext ?_) (Fin.ext ?_)
    · show (i.val * 512 + j.val) / 512 = i.val
      omega
    · show (i.val * 512 + j.val) % 512 = j.val
      omega
  right_inv k := by
    refine Fin.ext ?_
    show k.val / 512 * 512 + k.val % 512 = k.val
    omega

/-- So a sum over the flat image axis is the double sum over rows and columns. -/
private theorem sum_flat {M : Type*} [AddCommMonoid M] (g : Fin 262144 → M) :
    ∑ k, g k = ∑ i : Fin 512, ∑ j : Fin 512, g (flat i j) := by
  rw [← Equiv.sum_comp flatEquiv g, Fintype.sum_prod_type]
  rfl

/-- The reduction over every axis: the result's one index collects every source index, so the value is the initial 0 plus
    the sum over all of them, re-indexed by batch, row and column. -/
theorem hostReduceAdd_all (x : FVec Ideal ⟨4, ![16, 1, 512, 512]⟩ .f32) (init : FVec Ideal ⟨0, ![]⟩ .f32) (hinit : ∀ i, init i = 0)
    (h' : (⟨4, ![16, 1, 512, 512]⟩ : Shape).ReducesTo [0, 1, 2, 3] ⟨0, ![]⟩) (hu : 0 < (⟨0, ![]⟩ : Shape).numel) :
    Host.reduceAdd x init h' hu = fun _ => sumAll (fun b => plane4 x b) := by
  funext j
  show Ideal.hostReduceAdd h' x (init (Shape.Idx.first hu)) j = _
  rw [Ideal.hostReduceAdd_total h' (fun b => b.elim0) x _ j, hinit, sum_idx4]
  rfl

/-- The reduction over the flat image axis at batch b: the initial 0 plus the sum over the flat positions k of the entry at
    (b, k); each k is i · 512 + j for one row i and column j. -/
theorem hostReduceAdd_rows (y : FVec Ideal ⟨2, ![16, 262144]⟩ .f32) (init : FVec Ideal ⟨0, ![]⟩ .f32) (hinit : ∀ i, init i = 0)
    (h' : (⟨2, ![16, 262144]⟩ : Shape).ReducesTo [1] ⟨1, ![16]⟩) (hu : 0 < (⟨0, ![]⟩ : Shape).numel) (b : Fin 16) :
    Host.reduceAdd y init h' hu (ix1 b) = sumImg (fun i j => y (ix2 b (flat i j))) := by
  have h : (⟨2, ![16, 262144]⟩ : Shape).Reduces [1] ⟨1, ![16]⟩ := by decide
  show Ideal.hostReduceAdd h' y (init (Shape.Idx.first hu)) (ix1 b) = _
  rw [Ideal.hostReduceAdd_single h' h y _ (ix1 b), hinit]
  have hl : ∀ k : Fin 262144, h.lift (ix1 b) k = ix2 b k := by
    intro k
    funext c
    match c with
    | ⟨0, _⟩ => exact Fin.ext rfl
    | ⟨1, _⟩ => exact Fin.ext rfl
  show 0 + ∑ k : Fin 262144, y (h.lift (ix1 b) k) = 0 + ∑ i : Fin 512, ∑ j : Fin 512, y (ix2 b (flat i j))
  rw [sum_flat]
  simp only [hl]

/-- Reshaping [16, 1, 512, 512] to [16, 262144] keeps row-major positions: (b, 0, i, j) sits at b · 262144 + i · 512 + j,
    which is where (b, i · 512 + j) sits in the flattened array. -/
theorem shapeCast_flat {α : Type} (x : (⟨4, ![16, 1, 512, 512]⟩ : Shape).Idx → α)
    (hc : (⟨4, ![16, 1, 512, 512]⟩ : Shape).ShapeCasts ⟨2, ![16, 262144]⟩) (b : Fin 16) (i j : Fin 512) :
    shapeCast ⟨2, ![16, 262144]⟩ x hc (ix2 b (flat i j)) = x (ix4 b 0 i j) := by
  refine shapeCast_apply x hc (ix2 b (flat i j)) (ix4 b 0 i j) ?_
  rw [Shape.rowMajor_val_four, Shape.rowMajor_val_two]
  show ((b.val * 1 + 0) * 512 + i.val) * 512 + j.val = b.val * 262144 + (i.val * 512 + j.val)
  omega

/-- The reduction of a 16-vector over its one axis: the result's one index collects every entry, so the value is the
    initial 0 plus the sum over the vector's indices, each of which is one coordinate b. -/
theorem hostReduceAdd_16 (v : FVec Ideal ⟨1, ![16]⟩ .f32) (init : FVec Ideal ⟨0, ![]⟩ .f32) (hinit : ∀ i, init i = 0)
    (h' : (⟨1, ![16]⟩ : Shape).ReducesTo [0] ⟨0, ![]⟩) (hu : 0 < (⟨0, ![]⟩ : Shape).numel) :
    Host.reduceAdd v init h' hu = fun _ => sum16 (fun b => v (ix1 b)) := by
  funext j
  show Ideal.hostReduceAdd h' v (init (Shape.Idx.first hu)) j = _
  rw [Ideal.hostReduceAdd_total h' (fun b => b.elim0) v _ j, hinit,
    ← Equiv.sum_comp (idxEquiv1 (n := 16)).symm v]
  rfl

end Loss

end
-- ==== Proof.KTail.lean ====
import proofs.«431201_j73778948211150_3_alg».proof.Proof.Gen.KernelIdeal.Launch
import proofs.«431201_j73778948211150_3_alg».proof.Proof.LossConsts
import proofs.«431201_j73778948211150_3_alg».proof.Proof.LossSums
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

/-!
  The host arithmetic after the region, read at the extended reals. From the region's [16, 1, 8] result the program takes
  columns 0 … 4 (the five per-image statistics), sums the cross-entropy column and divides by the element count, forms the
  Dice and Tversky quotients image by image and averages them, divides the summed Hausdorff column by the element count and
  by the weights' total, and combines the four numbers: the combination `Loss.KT`.
-/

noncomputable section

namespace Cert.KernelIdeal.Tail

open Idealize.ShloMosaic Idealize.ShloMosaic.TcCoe Idealize.SL.Sem Idealize.ShloMosaic.StableHlo Idealize.ShloMosaic.ValueIdx
open Cert.KernelIdeal Cert.KernelIdeal.Gen

/-- The host's power of two arrays, read at an index, is the ideal power of the two entries there: the host operation
    acts entry by entry, and at the extended reals its entrywise power is `Ideal.pow`. -/
private theorem hostPowf_apply {s : Shape} {φ : FTy} (a b : FVec Ideal s φ) (i : s.Idx) :
    Host.powf a b i = Ideal.pow (a i) (b i) := rfl

/-- Column `o` of a [16, 1, 8] array `G`: flattened to [16, 8], cut to the [16, 1] column at offset `o` and flattened
    to [16], it holds at image `b` the entry (b, 0, o). Each flattening keeps the row-major position — b·1 + 0 = b, and
    (b·1 + 0)·8 + o = b·8 + o — and the cut shifts the column coordinate by `o`. -/
private theorem col_apply (G : FVec Ideal S16x1x8 .f32) (o : ℕ) (hs : S16x8.Slices ![0, o] S16x1) (k : Fin 8) (hk : k.val = o)
    (b : Fin 16) :
    shapeCast S16 (extractStridedSlice S16x1 ![0, o] (fun i => shapeCast S16x8 G shapeCasts_S16x1x8_S16x8 i) hs)
        shapeCasts_S16x1_S16 (ix1 b) = G (ix3 b 0 k) := by
  refine (shapeCast_apply _ _ (ix1 b) (ix2 b (0 : Fin 1)) ?_).trans ?_
  · rw [Shape.rowMajor_val_two, Shape.rowMajor_val_one]
    show b.val * 1 + 0 = b.val
    omega
  refine (extractStridedSlice_apply _ _ _ (ix2 b (0 : Fin 1)) (ix2 b k) ?_).trans ?_
  · intro a
    match a with
    | ⟨0, _⟩ => exact (Nat.zero_add _).symm
    | ⟨1, _⟩ => show k.val = o + 0; omega
  exact shapeCast_apply G _ (ix2 b k) (ix3 b (0 : Fin 1) k) (by
    rw [Shape.rowMajor_val_three, Shape.rowMajor_val_two]
    show (b.val * 1 + 0) * 8 + k.val = b.val * 8 + k.val
    omega)

set_option maxRecDepth 8192 in
set_option maxHeartbeats 2000000 in
/-- From ANY buffer contents `V` whose region result is `G`, the host lines after the region leave the program's result at
    the combination of `G`'s first five columns.

    The result buffer after the 83 lines is their composed term over `G`. In it each of the five columns reads `G` at
    (b, 0, k); each of the four sums over the 16 images starts from the constant of the zero word, which is 0, so it is
    `Loss.sum16`; every other line acts entry by entry, a broadcast scalar constant being that constant at every index. Read
    at the one index of the rank-0 result, the term is then literally `Loss.KT` at the constants `Loss.CC`, whose fields are
    the same bit patterns as the program's literals. -/
theorem tail_val (V : Valuation τ sig (Elt Ideal)) (G : FVec Ideal S16x1x8 .f32) (hG : V (Proc.devRef .tc main_v0) = G) :
    StableHlo.after (hostOps1 (F := Ideal)) V (Proc.devRef .tc main_v58)
      = fun _ => Loss.KT Loss.CC (fun b => G (ix3 b 0 0)) (fun b => G (ix3 b 0 1)) (fun b => G (ix3 b 0 2))
          (fun b => G (ix3 b 0 3)) (fun b => G (ix3 b 0 4)) := by
  -- the composed term of the 83 lines at the result buffer
  simp only [hostOps1]
  after_results_simp
  rw [hG]
  -- the initial value of every sum is the zero word, which is 0
  have hz : ∀ i, constant (F := Ideal) S_ .f32 0x00000000#32 i = 0 := fun _ => Ideal.ofBits_zero_f32
  -- a sum over the 16 images from that initial value
  have R := fun v => Loss.hostReduceAdd_16 v (constant S_ .f32 0x00000000#32) hz reducesTo_S16_S_d0 h_S_
  -- a scalar broadcast over the 16 images reads the scalar
  have B := fun (c : S_.Idx → Ideal .f32) (j : S16.Idx) => broadcastInDim_scalar_apply (T := S16) bcast_S_S16 c j
  -- the five columns, image by image
  have c0 : ∀ b : Fin 16, shapeCast main_v3.ty.shape (extractStridedSlice S16x1 ![0, 0]
      (fun i => shapeCast main_v1.ty.shape G shapeCasts_S16x1x8_S16x8 i) slices_S16x8_S16x1_0_0) shapeCasts_S16x1_S16 (ix1 b)
        = G (ix3 b 0 0) := col_apply G 0 slices_S16x8_S16x1_0_0 0 rfl
  have c1 : ∀ b : Fin 16, shapeCast main_v5.ty.shape (extractStridedSlice S16x1 ![0, 1]
      (fun i => shapeCast main_v1.ty.shape G shapeCasts_S16x1x8_S16x8 i) slices_S16x8_S16x1_0_1) shapeCasts_S16x1_S16 (ix1 b)
        = G (ix3 b 0 1) := col_apply G 1 slices_S16x8_S16x1_0_1 1 rfl
  have c2 : ∀ b : Fin 16, shapeCast main_v7.ty.shape (extractStridedSlice S16x1 ![0, 2]
      (fun i => shapeCast main_v1.ty.shape G shapeCasts_S16x1x8_S16x8 i) slices_S16x8_S16x1_0_2) shapeCasts_S16x1_S16 (ix1 b)
        = G (ix3 b 0 2) := col_apply G 2 slices_S16x8_S16x1_0_2 2 rfl
  have c3 : ∀ b : Fin 16, shapeCast main_v9.ty.shape (extractStridedSlice S16x1 ![0, 3]
      (fun i => shapeCast main_v1.ty.shape G shapeCasts_S16x1x8_S16x8 i) slices_S16x8_S16x1_0_3) shapeCasts_S16x1_S16 (ix1 b)
        = G (ix3 b 0 3) := col_apply G 3 slices_S16x8_S16x1_0_3 3 rfl
  have c4 : ∀ b : Fin 16, shapeCast main_v11.ty.shape (extractStridedSlice S16x1 ![0, 4]
      (fun i => shapeCast main_v1.ty.shape G shapeCasts_S16x1x8_S16x8 i) slices_S16x8_S16x1_0_4) shapeCasts_S16x1_S16 (ix1 b)
        = G (ix3 b 0 4) := col_apply G 4 slices_S16x8_S16x1_0_4 4 rfl
  simp only [R]
  funext x
  -- entry by entry: the left side becomes a term over G's entries and the literals' values
  simp only [addf_apply, mulf_apply, subf_apply, hostDivf_apply, hostPowf_apply, B, constant_apply, c0, c1, c2, c3, c4]
  -- the right side, unfolded, is the same term
  simp only [Loss.KT, Loss.combo, Loss.dice, Loss.ftv, Loss.CC]

end Cert.KernelIdeal.Tail

end
-- ==== Proof.KFinal.lean ====
import proofs.«431201_j73778948211150_3_alg».proof.Proof.KFrameIdeal
import proofs.«431201_j73778948211150_3_alg».proof.Proof.KBlock
import proofs.«431201_j73778948211150_3_alg».proof.Proof.KTail
import proofs.«431201_j73778948211150_3_alg».proof.Proof.LossWindow
import Idealize.ShloMosaic.Lib.Pipeline.Value
import Idealize.ShloMosaic.Lib.ValueIdx

/-!
  The idealized kernel program's result. Grid point t stages image t of both arguments and writes back row t of the
  [16, 1, 8] result, so the result array after the region is, at (b, 0, k), statistic k of image b; the host lines after
  the region combine its first five columns (`Loss.KT`).
-/

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The integer plane of image `b` as extended reals. -/
def tplane4 (ti : IVec S16x1x512x512 32) (b : Fin 16) : Loss.Pl := fun i j => (((ti (ix4 b 0 i j)).toInt : ℝ) : EReal)

/-- The region's result array as one function of the two argument arrays. -/
def Gfin (a0 : FVec Ideal S16x1x512x512 .f32) (a1 : IVec S16x1x512x512 32) : FVec Ideal S16x1x8 .f32 :=
  fun i => Loss.statVec Loss.CC (Loss.plane4 a0 (i 0)) (tplane4 a1 (i 0)) (i 2)

private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- The printed index maps, decided over the grid: point `t` stages block `(t, 0, 0, 0)` of each argument and writes back
    block `(t, 0, 0)` of the result. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- A grid point is below 16. -/
theorem pt_lt (t : Fin cfg0.N) : t.val < 16 := lt_of_lt_of_eq t.isLt N_0

/-- If the two loaded blocks are image `b` of the two arrays, slot `k` of the stored vector is the array function at
    `(b, 0, k)`: both are statistic `k` of the same two planes. -/
theorem stat_point (x0 : Vec Ideal S1x1x512x512 .f32) (x1 : Vec Ideal S1x1x512x512 .i32)
    (a0 : FVec Ideal S16x1x512x512 .f32) (a1 : IVec S16x1x512x512 32) (b : Fin 16) (k : Fin 8)
    (h0 : ∀ (h w : Fin 512), x0 (ix4 0 0 h w) = a0 (ix4 b 0 h w))
    (h1 : ∀ (h w : Fin 512), x1 (ix4 0 0 h w) = a1 (ix4 b 0 h w)) :
    PAY (F := Ideal) x0 x1 (ix3 0 0 k) = Gfin a0 a1 (ix3 b 0 k) := by
  rw [PAY_apply]
  have e0 : planeOfBlock x0 = Loss.plane4 a0 b := funext fun h => funext fun w => h0 h w
  have e1 : tplaneOfBlock x1 = tplane4 a1 b := funext fun h => funext fun w => by
    show (((x1 (ix4 0 0 h w)).toInt : ℝ) : EReal) = (((a1 (ix4 b 0 h w)).toInt : ℝ) : EReal)
    rw [h1 h w]
  rw [e0, e1]
  rfl

/-- Window 0's block at point `t` is image `t` of the first argument. -/
theorem iblk0_apply (c : Dev nD) (t : Fin cfg0.N) (h w : Fin 512) :
    (iblk m c 0 t : Vec Ideal S1x1x512x512 .f32) (ix4 0 0 h w) = (V m c main_arg0 : FVec Ideal S16x1x512x512 .f32) (ix4 ⟨t.val, pt_lt t⟩ 0 h w) := by
  obtain ⟨e0, e1, e2, e3, -⟩ := idx_facts t
  show V m c main_arg0 (((cfg0.win 0).blk t).view.emb (ix4 0 0 h w)) = V m c main_arg0 (ix4 ⟨t.val, pt_lt t⟩ 0 h w)
  congr 1
  funext a; apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 512 + 1 * h.val = h.val; omega
  | ⟨3, _⟩ => show win0_0.index t (3 : Fin 4) * 512 + 1 * w.val = w.val; omega

/-- Window 1's block at point `t` is image `t` of the second argument. -/
theorem iblk1_apply (c : Dev nD) (t : Fin cfg0.N) (h w : Fin 512) :
    (iblk m c 1 t : Vec Ideal S1x1x512x512 .i32) (ix4 0 0 h w) = (V m c main_arg1 : IVec S16x1x512x512 32) (ix4 ⟨t.val, pt_lt t⟩ 0 h w) := by
  obtain ⟨-, -, -, -, e0, e1, e2, e3, -⟩ := idx_facts t
  show V m c main_arg1 (((cfg0.win 1).blk t).view.emb (ix4 0 0 h w)) = V m c main_arg1 (ix4 ⟨t.val, pt_lt t⟩ 0 h w)
  congr 1
  funext a; apply Fin.ext
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 512 + 1 * h.val = h.val; omega
  | ⟨3, _⟩ => show win0_1.index t (3 : Fin 4) * 512 + 1 * w.val = w.val; omega

/-- What point `t` writes back is block `t` of that function of the arrays as the region finds them. -/
theorem flushed2_eq (c : Dev nD) (t : Fin cfg0.N) :
    (dats m 0 c).flushed 2 t = ((cfg0.win 2).blk t).view.read (Elt Ideal) (Gfin (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x1x512x512) hz4]
  obtain ⟨-, -, -, -, -, -, -, -, e0, e1, e2⟩ := idx_facts t
  funext j
  have hj0 : (j 0).val < 1 := (j 0).isLt
  have hj1 : (j 1).val < 1 := (j 1).isLt
  have hk : (j 2).val < 8 := (j 2).isLt
  have ex : (win0 2).xinj (grid0.coords t) j = ix3 0 0 ⟨(j 2).val, hk⟩ := by
    funext a; apply Fin.ext
    match a with
    | ⟨0, _⟩ => show (j 0).val = 0; omega
    | ⟨1, _⟩ => show (j 1).val = 0; omega
    | ⟨2, _⟩ => rfl
  have ee : ((cfg0.win 2).blk t).view.emb j = ix3 ⟨t.val, pt_lt t⟩ 0 ⟨(j 2).val, hk⟩ := by
    funext a; apply Fin.ext
    match a with
    | ⟨0, _⟩ => show win0_2.index t (0 : Fin 3) * 1 + 1 * (j 0).val = t.val; omega
    | ⟨1, _⟩ => show win0_2.index t (1 : Fin 3) * 1 + 1 * (j 1).val = 0; omega
    | ⟨2, _⟩ => show win0_2.index t (2 : Fin 3) * 8 + 1 * (j 2).val = (j 2).val; omega
  show PAY (iblk m c 0 t) (iblk m c 1 t) ((win0 2).xinj (grid0.coords t) j)
    = Gfin (V m c main_arg0) (V m c main_arg1) (((cfg0.win 2).blk t).view.emb j)
  rw [ex, ee]
  exact stat_point (iblk m c 0 t) (iblk m c 1 t) (V m c main_arg0) (V m c main_arg1) ⟨t.val, pt_lt t⟩ ⟨(j 2).val, hk⟩
    (iblk0_apply m c t) (iblk1_apply m c t)

/-- An index of the result array is in point `t`'s block iff each coordinate is in the block's range on its axis. -/
theorem mem_blk2 (t : Fin cfg0.N) (i : S16x1x8.Idx) :
    i ∈ ((cfg0.win 2).blk t).view.set ↔ ∀ a : Fin 3, win0_2.index t a * S1x1x8.size a ≤ (i a).val ∧ (i a).val < win0_2.index t a * S1x1x8.size a + S1x1x8.size a := by
  show i ∈ ((View.whole main_v0).slice (win0_2.rect t)).set ↔ _
  rw [View.set_slice_whole, Rect.mem_set_unit]
  exact Iff.rfl

/-- Every row of the result is some point's block. -/
theorem cover2 (i : S16x1x8.Idx) : ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 8 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, e0, e1, e2⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 8 ≤ (i 2).val ∧ (i 2).val < win0_2.index t (2 : Fin 3) * 8 + 8; omega

/-- The result array after the region. -/
theorem final2 (c : Dev nD) :
    (dats m 0 c).arrAt 2 cfg0.N = Gfin (m ((c : Thread nD τ).loc main_arg0)) (m ((c : Thread nD τ).loc main_arg1)) := by
  have h := (dats m 0 c).arrAt_eq_of_cover 2 (Gfin (V m c main_arg0) (V m c main_arg1)) (fun t _ => flushed2_eq m c t) cover2
  rw [V_main_arg0, V_main_arg1] at h
  exact h

/-- The array function's first five columns are the five statistics of the image. -/
theorem Gfin_col0 (a0 : FVec Ideal S16x1x512x512 .f32) (a1 : IVec S16x1x512x512 32) (b : Fin 16) :
    Gfin a0 a1 (ix3 b 0 0) = Loss.kS0 (Loss.plane4 a0 b) (tplane4 a1 b) := by
  show Loss.statVec Loss.CC (Loss.plane4 a0 b) (tplane4 a1 b) (0 : Fin 8) = _
  unfold Loss.statVec
  exact if_pos rfl
theorem Gfin_col1 (a0 : FVec Ideal S16x1x512x512 .f32) (a1 : IVec S16x1x512x512 32) (b : Fin 16) :
    Gfin a0 a1 (ix3 b 0 1) = Loss.kS1 (Loss.plane4 a0 b) := by
  show Loss.statVec Loss.CC (Loss.plane4 a0 b) (tplane4 a1 b) (1 : Fin 8) = _
  unfold Loss.statVec
  rw [if_neg (by decide)]
  exact if_pos rfl
theorem Gfin_col2 (a0 : FVec Ideal S16x1x512x512 .f32) (a1 : IVec S16x1x512x512 32) (b : Fin 16) :
    Gfin a0 a1 (ix3 b 0 2) = Loss.kS2 (tplane4 a1 b) := by
  show Loss.statVec Loss.CC (Loss.plane4 a0 b) (tplane4 a1 b) (2 : Fin 8) = _
  unfold Loss.statVec
  rw [if_neg (by decide), if_neg (by decide)]
  exact if_pos rfl
theorem Gfin_col3 (a0 : FVec Ideal S16x1x512x512 .f32) (a1 : IVec S16x1x512x512 32) (b : Fin 16) :
    Gfin a0 a1 (ix3 b 0 3) = Loss.kS3 (Loss.plane4 a0 b) (tplane4 a1 b) := by
  show Loss.statVec Loss.CC (Loss.plane4 a0 b) (tplane4 a1 b) (3 : Fin 8) = _
  unfold Loss.statVec
  rw [if_neg (by decide), if_neg (by decide), if_neg (by decide)]
  exact if_pos rfl
theorem Gfin_col4 (a0 : FVec Ideal S16x1x512x512 .f32) (a1 : IVec S16x1x512x512 32) (b : Fin 16) :
    Gfin a0 a1 (ix3 b 0 4) = Loss.kS4 Loss.CC (Loss.plane4 a0 b) (tplane4 a1 b) := by
  show Loss.statVec Loss.CC (Loss.plane4 a0 b) (tplane4 a1 b) (4 : Fin 8) = _
  unfold Loss.statVec
  rw [if_neg (by decide), if_neg (by decide), if_neg (by decide), if_neg (by decide)]
  exact if_pos rfl

/-- The idealized kernel program runs, its result the combination of the 16 images' statistics, its arguments unchanged. -/
theorem krun : θ_run defs (onTc (τ := τ) (main (F := Ideal))) ⟨m, fun _ => 0, ρ⟩ fun r => ∀ c : Dev nD,
      r.2.mem ((c.tc : Thread nD τ).loc main_v58)
        = (fun _ => Loss.KT Loss.CC
            (fun b => Loss.kS0 (Loss.plane4 (m ((c.tc : Thread nD τ).loc main_arg0)) b) (tplane4 (m ((c.tc : Thread nD τ).loc main_arg1)) b))
            (fun b => Loss.kS1 (Loss.plane4 (m ((c.tc : Thread nD τ).loc main_arg0)) b))
            (fun b => Loss.kS2 (tplane4 (m ((c.tc : Thread nD τ).loc main_arg1)) b))
            (fun b => Loss.kS3 (Loss.plane4 (m ((c.tc : Thread nD τ).loc main_arg0)) b) (tplane4 (m ((c.tc : Thread nD τ).loc main_arg1)) b))
            (fun b => Loss.kS4 Loss.CC (Loss.plane4 (m ((c.tc : Thread nD τ).loc main_arg0)) b) (tplane4 (m ((c.tc : Thread nD τ).loc main_arg1)) b)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main (F := Ideal) m ρ)
  · have hv := (h c).2 main_v58 (Pipeline.mem_restRefs_of main_v58 (by decide) (by decide))
    refine hv.trans ?_
    unfold Pipeline.afterTail₀
    have hG : Pipeline.withArrays (cfgs 0).spec c (V0 m c) (fun w => (dats m 0 c).arrAt w (cfgs 0).N) (Proc.devRef .tc main_v0)
        = Gfin (m ((c : Thread nD τ).loc main_arg0)) (m ((c : Thread nD τ).loc main_arg1)) :=
      (Pipeline.withArrays_arr spec0 launch0.win.arr_inj c _ _ 2).trans (final2 m c)
    show StableHlo.after hostOps1 _ (Proc.devRef .tc main_v58) = _
    rw [Cert.KernelIdeal.Tail.tail_val _ _ hG]
    simp only [Gfin_col0, Gfin_col1, Gfin_col2, Gfin_col3, Gfin_col4]
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Gen

end
-- ==== Proof.RefValue.lean ====
import proofs.«431201_j73778948211150_3_alg».proof.Proof.Gen.ReferenceIdeal.Run
import proofs.«431201_j73778948211150_3_alg».proof.Proof.LossConsts
import proofs.«431201_j73778948211150_3_alg».proof.Proof.LossSums
import proofs.«431201_j73778948211150_3_alg».proof.Proof.LossWindow
import Idealize.ShloMosaic.Lib.ValueIdx
import Idealize.ShloMosaic.PureOps.Ideal.Laws

/-!
  The reference program read at the extended reals: its result is `Loss.RT` of the logits' planes and of the integer
  planes read as reals. Every whole-array sum is the sum over images, rows and columns; a sum over the flattened image
  axis is the sum over rows and columns; each window reduction is the window extremum over the part inside the image.
-/

noncomputable section

namespace Cert.ReferenceIdeal.RefValue

open Idealize.ShloMosaic Idealize.ShloMosaic.TcCoe Idealize.SL.Sem Idealize.ShloMosaic.StableHlo Idealize.ShloMosaic.ValueIdx
open Cert.ReferenceIdeal Cert.ReferenceIdeal.Gen

/-- The integer plane of image `b` as extended reals. -/
def tplane4 (ti : IVec (⟨4, ![16, 1, 512, 512]⟩ : Shape) 32) (b : Fin 16) : Loss.Pl := fun i j => (((ti (ix4 b 0 i j)).toInt : ℝ) : EReal)

/-! ## The three literals that are evaluated: the zero word and the two infinities -/

/-- The zero word denotes 0. -/
private theorem ofBits_zero : Ideal.ofBits .f32 0x00000000#32 = 0 := by simp [Ideal.ofBits, Ideal.ieee]
/-- The word of −∞ denotes the bottom element. -/
private theorem ofBits_ninf : Ideal.ofBits .f32 0xFF800000#32 = ⊥ := by simp [Ideal.ofBits, Ideal.ieee]
/-- The word of +∞ denotes the top element. -/
private theorem ofBits_pinf : Ideal.ofBits .f32 0x7F800000#32 = ⊤ := by simp [Ideal.ofBits, Ideal.ieee]

/-- The rank-zero initial value of every sum is 0 … -/
private theorem zeroS_apply (i : S_.Idx) : (constant S_ .f32 0x00000000#32 : FVec Ideal S_ .f32) i = 0 := ofBits_zero
/-- … that of every window maximum is −∞ … -/
private theorem ninfS_apply (i : S_.Idx) :
    (broadcastInDim S_ ![] bcast_S_S_ (constant S_ .f32 0xFF800000#32) : FVec Ideal S_ .f32) i = ⊥ := ofBits_ninf
/-- … and that of every window minimum is +∞. -/
private theorem pinfS_apply (i : S_.Idx) :
    (broadcastInDim S_ ![] bcast_S_S_ (constant S_ .f32 0x7F800000#32) : FVec Ideal S_ .f32) i = ⊤ := ofBits_pinf

/-! ## Planes of the named arrays -/

/-- A plane's entry is the array's entry at (b, 0, i, j). -/
private theorem plane4_apply (x : FVec Ideal S16x1x512x512 .f32) (b : Fin 16) (i j : Fin 512) :
    Loss.plane4 x b i j = x (ix4 b 0 i j) := rfl

/-- The converted integer array: image b is the integer plane read as reals. -/
private theorem plane_v0 (V0 : Valuation τ sig (Elt Ideal)) (Ti : IVec S16x1x512x512 32)
    (hT : V0 (Proc.devRef .tc main_arg1) = Ti) (b : Fin 16) :
    Loss.plane4 (Cert.ReferenceIdeal.Value.res_main_v0 V0) b = tplane4 Ti b := by
  unfold Cert.ReferenceIdeal.Value.res_main_v0
  rw [hT]
  rfl

/-- The sigmoid array 1 / (1 + exp (−x)): image b is the sigmoid of the logits' plane. -/
private theorem plane_v17 (V0 : Valuation τ sig (Elt Ideal)) (X : FVec Ideal S16x1x512x512 .f32)
    (hX : V0 (Proc.devRef .tc main_arg0) = X) (b : Fin 16) :
    Loss.plane4 (Cert.ReferenceIdeal.Value.res_main_v17 V0) b = Loss.sigR Loss.CC (Loss.plane4 X b) := by
  unfold Cert.ReferenceIdeal.Value.res_main_v17
  rw [hX]
  rfl

/-- The soft boundary of an array y: window maximum minus window minimum over 3 × 3, clipped below at 0. On image b it is
    the boundary of y's plane: each window reduction is the extremum over the part of the window inside the image. -/
private theorem plane_bdry (y : FVec Ideal S16x1x512x512 .f32) (b : Fin 16) :
    Loss.plane4 (maximumf (subf
        (Host.reduceWindow FloatOps.maximumf ![1, 1, 3, 3] ![1, 1, 1, 1] ![0, 0, 1, 1] ![0, 0, 1, 1] y
          (broadcastInDim S_ ![] bcast_S_S_ (constant S_ .f32 0xFF800000#32))
          reduceWindows_S16x1x512x512_S16x1x512x512_w1s1p0_0_w1s1p0_0_w3s1p1_1_w3s1p1_1 h_S_)
        (Host.reduceWindow FloatOps.minimumf ![1, 1, 3, 3] ![1, 1, 1, 1] ![0, 0, 1, 1] ![0, 0, 1, 1] y
          (broadcastInDim S_ ![] bcast_S_S_ (constant S_ .f32 0x7F800000#32))
          reduceWindows_S16x1x512x512_S16x1x512x512_w1s1p0_0_w1s1p0_0_w3s1p1_1_w3s1p1_1 h_S_))
        (broadcastInDim S16x1x512x512 ![] bcast_S_S16x1x512x512 (constant S_ .f32 0x00000000#32))) b
      = Loss.bdryR (Loss.plane4 y b) := by
  funext i j
  rw [plane4_apply, maximumf_apply, subf_apply,
    Loss.reduceWindow_max_apply 1 3 rfl y _ ninfS_apply _ h_S_ b i j,
    Loss.reduceWindow_min_apply 1 3 rfl y _ pinfS_apply _ h_S_ b i j]
  show max _ (Ideal.ofBits .f32 0x00000000#32) = _
  rw [ofBits_zero]
  rfl

/-! ## The sums -/

/-- The absolute difference of two arrays on image b. -/
private theorem plane4_absf_subf (A G : FVec Ideal S16x1x512x512 .f32) (b : Fin 16) (i j : Fin 512) :
    Loss.plane4 (Host.absf (subf A G)) b i j = Loss.absE (A (ix4 b 0 i j) - Loss.plane4 G b i j) := rfl

/-- One directed Hausdorff mean: the mean over everything of |window maximum of P − G|, the window of half-width d
    (side k = 2d + 1), is the mean of the planes' |wmax d P − G|. -/
private theorem hd_term (d k : ℕ) (hk : k = 2 * d + 1) (P G : FVec Ideal S16x1x512x512 .f32)
    (hw : S16x1x512x512.ReduceWindows (![1, 1, k, k] : Fin 4 → Nat) ![1, 1, 1, 1] ![0, 0, d, d] ![0, 0, d, d] S16x1x512x512) :
    Host.divf (Host.reduceAdd (Host.absf (subf
        (Host.reduceWindow FloatOps.maximumf ![1, 1, k, k] ![1, 1, 1, 1] ![0, 0, d, d] ![0, 0, d, d] P
          (broadcastInDim S_ ![] bcast_S_S_ (constant S_ .f32 0xFF800000#32)) hw h_S_) G))
        (constant S_ .f32 0x00000000#32) reducesTo_S16x1x512x512_S_d0_1_2_3 h_S_) (constant S_ .f32 0x4A800000#32)
      = fun _ => Ideal.div (Loss.sumAll fun b i j => Loss.absE (Loss.wmax d (Loss.plane4 P b) i j - Loss.plane4 G b i j))
          Loss.CC.nAll := by
  rw [Loss.hostReduceAdd_all _ _ zeroS_apply]
  have key : ∀ b : Fin 16, Loss.plane4 (Host.absf (subf
        (Host.reduceWindow FloatOps.maximumf ![1, 1, k, k] ![1, 1, 1, 1] ![0, 0, d, d] ![0, 0, d, d] P
          (broadcastInDim S_ ![] bcast_S_S_ (constant S_ .f32 0xFF800000#32)) hw h_S_) G)) b
      = fun i j => Loss.absE (Loss.wmax d (Loss.plane4 P b) i j - Loss.plane4 G b i j) := by
    intro b
    funext i j
    rw [plane4_absf_subf, Loss.reduceWindow_max_apply d k hk P _ ninfS_apply hw h_S_ b i j]
  simp only [key]
  rfl

/-- The mean cross-entropy: the whole-array sum of the entries max x 0 − x·t + log1p (exp (−|x|)) over the element count. -/
private theorem bce_term (Xv T0 : FVec Ideal S16x1x512x512 .f32) :
    Host.divf (Host.reduceAdd (addf (subf (maximumf Xv
          (broadcastInDim S16x1x512x512 ![] bcast_S_S16x1x512x512 (constant S_ .f32 0x00000000#32))) (mulf Xv T0))
          (Host.log1p (Host.exp (Host.negf (Host.absf Xv)))))
        (constant S_ .f32 0x00000000#32) reducesTo_S16x1x512x512_S_d0_1_2_3 h_S_) (constant S_ .f32 0x4A800000#32)
      = fun _ => Ideal.div (Loss.sumAll fun b i j => Loss.bceR (Loss.plane4 Xv b i j) (Loss.plane4 T0 b i j)) Loss.CC.nAll := by
  rw [Loss.hostReduceAdd_all _ _ zeroS_apply]
  have key : ∀ b : Fin 16, Loss.plane4 (addf (subf (maximumf Xv
          (broadcastInDim S16x1x512x512 ![] bcast_S_S16x1x512x512 (constant S_ .f32 0x00000000#32))) (mulf Xv T0))
          (Host.log1p (Host.exp (Host.negf (Host.absf Xv))))) b
      = fun i j => Loss.bceR (Loss.plane4 Xv b i j) (Loss.plane4 T0 b i j) := by
    intro b
    funext i j
    show (max _ (Ideal.ofBits .f32 0x00000000#32) - _) + _ = _
    rw [ofBits_zero]
    rfl
  simp only [key]
  rfl

/-- A sum over the flattened image axis of a reshaped array is the sum over its plane. -/
private theorem rows_one (P : FVec Ideal S16x1x512x512 .f32) (b : Fin 16) :
    Host.reduceAdd (shapeCast S16x262144 P shapeCasts_S16x1x512x512_S16x262144) (constant S_ .f32 0x00000000#32)
        reducesTo_S16x262144_S16_d1 h_S_ (ix1 b)
      = Loss.sumImg (Loss.plane4 P b) := by
  rw [Loss.hostReduceAdd_rows _ _ zeroS_apply]
  simp only [Loss.shapeCast_flat]
  rfl

/-- The product of two reshaped arrays, summed over the flattened image axis: Σ p·t over the plane. -/
private theorem rows_mul (P T0 : FVec Ideal S16x1x512x512 .f32) (b : Fin 16) :
    Host.reduceAdd (mulf (shapeCast S16x262144 P shapeCasts_S16x1x512x512_S16x262144)
          (shapeCast S16x262144 T0 shapeCasts_S16x1x512x512_S16x262144)) (constant S_ .f32 0x00000000#32)
        reducesTo_S16x262144_S16_d1 h_S_ (ix1 b)
      = Loss.sumImg fun i j => Loss.plane4 P b i j * Loss.plane4 T0 b i j := by
  rw [Loss.hostReduceAdd_rows _ _ zeroS_apply]
  simp only [mulf_apply, Loss.shapeCast_flat]
  rfl

/-- Likewise Σ p·(1 − t) … -/
private theorem rows_mul_compl (P T0 : FVec Ideal S16x1x512x512 .f32) (b : Fin 16) :
    Host.reduceAdd (mulf (shapeCast S16x262144 P shapeCasts_S16x1x512x512_S16x262144)
          (subf (broadcastInDim S16x262144 ![] bcast_S_S16x262144 (constant S_ .f32 0x3F800000#32))
            (shapeCast S16x262144 T0 shapeCasts_S16x1x512x512_S16x262144))) (constant S_ .f32 0x00000000#32)
        reducesTo_S16x262144_S16_d1 h_S_ (ix1 b)
      = Loss.sumImg fun i j => Loss.plane4 P b i j * (Loss.CC.one - Loss.plane4 T0 b i j) := by
  rw [Loss.hostReduceAdd_rows _ _ zeroS_apply]
  simp only [mulf_apply, subf_apply, Loss.shapeCast_flat]
  rfl

/-- … and Σ (1 − p)·t. -/
private theorem rows_compl_mul (P T0 : FVec Ideal S16x1x512x512 .f32) (b : Fin 16) :
    Host.reduceAdd (mulf (subf (broadcastInDim S16x262144 ![] bcast_S_S16x262144 (constant S_ .f32 0x3F800000#32))
            (shapeCast S16x262144 P shapeCasts_S16x1x512x512_S16x262144))
          (shapeCast S16x262144 T0 shapeCasts_S16x1x512x512_S16x262144)) (constant S_ .f32 0x00000000#32)
        reducesTo_S16x262144_S16_d1 h_S_ (ix1 b)
      = Loss.sumImg fun i j => (Loss.CC.one - Loss.plane4 P b i j) * Loss.plane4 T0 b i j := by
  rw [Loss.hostReduceAdd_rows _ _ zeroS_apply]
  simp only [mulf_apply, subf_apply, Loss.shapeCast_flat]
  rfl

/-- The mean Dice loss from three per-image vectors with entries s₁, s₂, s₃: the entry of image b is
    1 − (2·s₃ + smooth) / (s₁ + s₂ + smooth + ε). -/
private theorem dice_term (R1 R2 R3 : FVec Ideal S16 .f32) (s1 s2 s3 : Fin 16 → EReal)
    (h1 : ∀ b, R1 (ix1 b) = s1 b) (h2 : ∀ b, R2 (ix1 b) = s2 b) (h3 : ∀ b, R3 (ix1 b) = s3 b) :
    Host.divf (Host.reduceAdd (subf (broadcastInDim S16 ![] bcast_S_S16 (constant S_ .f32 0x3F800000#32))
          (Host.divf (addf (mulf (broadcastInDim S16 ![] bcast_S_S16 (constant S_ .f32 0x40000000#32)) R3)
              (broadcastInDim S16 ![] bcast_S_S16 (constant S_ .f32 0x358637BD#32)))
            (addf (addf (addf R1 R2) (broadcastInDim S16 ![] bcast_S_S16 (constant S_ .f32 0x358637BD#32)))
              (broadcastInDim S16 ![] bcast_S_S16 (constant S_ .f32 0x33D6BF95#32)))))
        (constant S_ .f32 0x00000000#32) reducesTo_S16_S_d0 h_S_) (constant S_ .f32 0x41800000#32)
      = fun _ => Ideal.div (Loss.sum16 fun b => Loss.dice Loss.CC (s1 b) (s2 b) (s3 b)) Loss.CC.c16 := by
  have hs : (fun b => Loss.dice Loss.CC (s1 b) (s2 b) (s3 b))
      = fun b => Loss.dice Loss.CC (R1 (ix1 b)) (R2 (ix1 b)) (R3 (ix1 b)) := by
    funext b
    rw [h1, h2, h3]
  rw [Loss.hostReduceAdd_16 _ _ zeroS_apply, hs]
  rfl

/-- The mean focal Tversky loss from three per-image vectors with entries tp = s₁, fp = s₂, fn = s₃: the entry of image b
    is (1 − (tp + smooth) / (tp + 0.7·fp + 0.3·fn + smooth + ε)) ^ 0.75. -/
private theorem ftv_term (Rtp Rfp Rfn : FVec Ideal S16 .f32) (s1 s2 s3 : Fin 16 → EReal)
    (ht : ∀ b, Rtp (ix1 b) = s1 b) (hp : ∀ b, Rfp (ix1 b) = s2 b) (hn : ∀ b, Rfn (ix1 b) = s3 b) :
    Host.divf (Host.reduceAdd (Host.powf (subf (broadcastInDim S16 ![] bcast_S_S16 (constant S_ .f32 0x3F800000#32))
          (Host.divf (addf Rtp (broadcastInDim S16 ![] bcast_S_S16 (constant S_ .f32 0x358637BD#32)))
            (addf (addf (addf (addf Rtp (mulf (broadcastInDim S16 ![] bcast_S_S16 (constant S_ .f32 0x3F333333#32)) Rfp))
                  (mulf (broadcastInDim S16 ![] bcast_S_S16 (constant S_ .f32 0x3E99999A#32)) Rfn))
                (broadcastInDim S16 ![] bcast_S_S16 (constant S_ .f32 0x358637BD#32)))
              (broadcastInDim S16 ![] bcast_S_S16 (constant S_ .f32 0x33D6BF95#32)))))
          (broadcastInDim S16 ![] bcast_S_S16 (constant S_ .f32 0x3F400000#32)))
        (constant S_ .f32 0x00000000#32) reducesTo_S16_S_d0 h_S_) (constant S_ .f32 0x41800000#32)
      = fun _ => Ideal.div (Loss.sum16 fun b => Loss.ftv Loss.CC (s1 b) (s2 b) (s3 b)) Loss.CC.c16 := by
  have hs : (fun b => Loss.ftv Loss.CC (s1 b) (s2 b) (s3 b))
      = fun b => Loss.ftv Loss.CC (Rtp (ix1 b)) (Rfp (ix1 b)) (Rfn (ix1 b)) := by
    funext b
    rw [ht, hp, hn]
  rw [Loss.hostReduceAdd_16 _ _ zeroS_apply, hs]
  rfl

/-! ## The two soft boundaries and the Hausdorff total -/

open Cert.ReferenceIdeal.Value in
/-- The predicted soft boundary: on image b, the boundary of the sigmoid of the logits' plane. -/
private theorem plane_v75 (V0 : Valuation τ sig (Elt Ideal)) (X : FVec Ideal S16x1x512x512 .f32)
    (hX : V0 (Proc.devRef .tc main_arg0) = X) (b : Fin 16) :
    Loss.plane4 (res_main_v75 V0) b = Loss.bdryR (Loss.sigR Loss.CC (Loss.plane4 X b)) := by
  unfold res_main_v75
  rw [plane_bdry, plane_v17 V0 X hX]

open Cert.ReferenceIdeal.Value in
/-- The target soft boundary: on image b, the boundary of the integer plane. -/
private theorem plane_v82 (V0 : Valuation τ sig (Elt Ideal)) (Ti : IVec S16x1x512x512 32)
    (hT : V0 (Proc.devRef .tc main_arg1) = Ti) (b : Fin 16) :
    Loss.plane4 (res_main_v82 V0) b = Loss.bdryR (tplane4 Ti b) := by
  unfold res_main_v82
  rw [plane_bdry, plane_v0 V0 Ti hT]

open Cert.ReferenceIdeal.Value in
/-- The running total after five distances: the recursion of the Hausdorff total unfolds to exactly the nested sum the
    program has, the d-th weight and the window of side 2d + 1 at the d-th step. -/
private theorem hd5 (V0 : Valuation τ sig (Elt Ideal)) :
    res_main_v157 V0
      = fun _ => Loss.hdR Loss.CC (fun b => Loss.plane4 (res_main_v75 V0) b) (fun b => Loss.plane4 (res_main_v82 V0) b) 5 := by
  unfold res_main_v157
  rw [hd_term 1 3 rfl (res_main_v75 V0) (res_main_v82 V0), hd_term 1 3 rfl (res_main_v82 V0) (res_main_v75 V0),
    hd_term 2 5 rfl (res_main_v75 V0) (res_main_v82 V0), hd_term 2 5 rfl (res_main_v82 V0) (res_main_v75 V0),
    hd_term 3 7 rfl (res_main_v75 V0) (res_main_v82 V0), hd_term 3 7 rfl (res_main_v82 V0) (res_main_v75 V0),
    hd_term 4 9 rfl (res_main_v75 V0) (res_main_v82 V0), hd_term 4 9 rfl (res_main_v82 V0) (res_main_v75 V0),
    hd_term 5 11 rfl (res_main_v75 V0) (res_main_v82 V0), hd_term 5 11 rfl (res_main_v82 V0) (res_main_v75 V0)]
  funext i
  show ((((Ideal.ofBits .f32 0x00000000#32 + _) + _) + _) + _) + _ = _
  rw [ofBits_zero]
  rfl

open Cert.ReferenceIdeal.Value in
/-- The total after ten distances: five more steps on the total after five. -/
private theorem hd10 (V0 : Valuation τ sig (Elt Ideal)) :
    res_main_v232 V0
      = fun _ => Loss.hdR Loss.CC (fun b => Loss.plane4 (res_main_v75 V0) b) (fun b => Loss.plane4 (res_main_v82 V0) b) 10 := by
  unfold res_main_v232
  rw [hd5 V0,
    hd_term 6 13 rfl (res_main_v75 V0) (res_main_v82 V0), hd_term 6 13 rfl (res_main_v82 V0) (res_main_v75 V0),
    hd_term 7 15 rfl (res_main_v75 V0) (res_main_v82 V0), hd_term 7 15 rfl (res_main_v82 V0) (res_main_v75 V0),
    hd_term 8 17 rfl (res_main_v75 V0) (res_main_v82 V0), hd_term 8 17 rfl (res_main_v82 V0) (res_main_v75 V0),
    hd_term 9 19 rfl (res_main_v75 V0) (res_main_v82 V0), hd_term 9 19 rfl (res_main_v82 V0) (res_main_v75 V0),
    hd_term 10 21 rfl (res_main_v75 V0) (res_main_v82 V0), hd_term 10 21 rfl (res_main_v82 V0) (res_main_v75 V0)]
  rfl

/-! ## The per-image sums of the reshaped arrays -/

open Cert.ReferenceIdeal.Value in
/-- Σ p over image b, p the sigmoid. -/
private theorem sum_v18 (V0 : Valuation τ sig (Elt Ideal)) (X : FVec Ideal S16x1x512x512 .f32)
    (hX : V0 (Proc.devRef .tc main_arg0) = X) (b : Fin 16) :
    Host.reduceAdd (F := Ideal) (res_main_v18 V0 : FVec Ideal S16x262144 .f32) (constant S_ .f32 0x00000000#32)
        reducesTo_S16x262144_S16_d1 h_S_ (ix1 b)
      = Loss.sumImg (Loss.sigR Loss.CC (Loss.plane4 X b)) := by
  have e := rows_one (res_main_v17 V0) b
  rw [plane_v17 V0 X hX] at e
  exact e

open Cert.ReferenceIdeal.Value in
/-- Σ t over image b. -/
private theorem sum_v19 (V0 : Valuation τ sig (Elt Ideal)) (Ti : IVec S16x1x512x512 32)
    (hT : V0 (Proc.devRef .tc main_arg1) = Ti) (b : Fin 16) :
    Host.reduceAdd (F := Ideal) (res_main_v19 V0 : FVec Ideal S16x262144 .f32) (constant S_ .f32 0x00000000#32)
        reducesTo_S16x262144_S16_d1 h_S_ (ix1 b)
      = Loss.sumImg (tplane4 Ti b) := by
  have e := rows_one (res_main_v0 V0) b
  rw [plane_v0 V0 Ti hT] at e
  exact e

open Cert.ReferenceIdeal.Value in
/-- Σ p·t over image b, from the first pair of reshapes. -/
private theorem sum_v18v19 (V0 : Valuation τ sig (Elt Ideal)) (X : FVec Ideal S16x1x512x512 .f32) (Ti : IVec S16x1x512x512 32)
    (hX : V0 (Proc.devRef .tc main_arg0) = X) (hT : V0 (Proc.devRef .tc main_arg1) = Ti) (b : Fin 16) :
    Host.reduceAdd (mulf (res_main_v18 V0 : FVec Ideal S16x262144 .f32) (res_main_v19 V0)) (constant S_ .f32 0x00000000#32)
        reducesTo_S16x262144_S16_d1 h_S_ (ix1 b)
      = Loss.sumImg fun i j => Loss.sigR Loss.CC (Loss.plane4 X b) i j * tplane4 Ti b i j := by
  have e := rows_mul (res_main_v17 V0) (res_main_v0 V0) b
  simp only [plane_v17 V0 X hX, plane_v0 V0 Ti hT] at e
  exact e

open Cert.ReferenceIdeal.Value in
/-- Σ p·t over image b, from the second pair of reshapes. -/
private theorem sum_v41 (V0 : Valuation τ sig (Elt Ideal)) (X : FVec Ideal S16x1x512x512 .f32) (Ti : IVec S16x1x512x512 32)
    (hX : V0 (Proc.devRef .tc main_arg0) = X) (hT : V0 (Proc.devRef .tc main_arg1) = Ti) (b : Fin 16) :
    (res_main_v41 V0 : FVec Ideal S16 .f32) (ix1 b)
      = Loss.sumImg fun i j => Loss.sigR Loss.CC (Loss.plane4 X b) i j * tplane4 Ti b i j := by
  have e := rows_mul (res_main_v17 V0) (res_main_v0 V0) b
  simp only [plane_v17 V0 X hX, plane_v0 V0 Ti hT] at e
  exact e

open Cert.ReferenceIdeal.Value in
/-- Σ p·(1 − t) over image b. -/
private theorem sum_fp (V0 : Valuation τ sig (Elt Ideal)) (X : FVec Ideal S16x1x512x512 .f32) (Ti : IVec S16x1x512x512 32)
    (hX : V0 (Proc.devRef .tc main_arg0) = X) (hT : V0 (Proc.devRef .tc main_arg1) = Ti) (b : Fin 16) :
    Host.reduceAdd (mulf (res_main_v38 V0 : FVec Ideal S16x262144 .f32)
          (subf (broadcastInDim S16x262144 ![] bcast_S_S16x262144 (constant S_ .f32 0x3F800000#32)) (res_main_v39 V0)))
        (constant S_ .f32 0x00000000#32) reducesTo_S16x262144_S16_d1 h_S_ (ix1 b)
      = Loss.sumImg fun i j => Loss.sigR Loss.CC (Loss.plane4 X b) i j * (Loss.CC.one - tplane4 Ti b i j) := by
  have e := rows_mul_compl (res_main_v17 V0) (res_main_v0 V0) b
  simp only [plane_v17 V0 X hX, plane_v0 V0 Ti hT] at e
  exact e

open Cert.ReferenceIdeal.Value in
/-- Σ (1 − p)·t over image b. -/
private theorem sum_fn (V0 : Valuation τ sig (Elt Ideal)) (X : FVec Ideal S16x1x512x512 .f32) (Ti : IVec S16x1x512x512 32)
    (hX : V0 (Proc.devRef .tc main_arg0) = X) (hT : V0 (Proc.devRef .tc main_arg1) = Ti) (b : Fin 16) :
    Host.reduceAdd (mulf (subf (broadcastInDim S16x262144 ![] bcast_S_S16x262144 (constant S_ .f32 0x3F800000#32))
            (res_main_v38 V0 : FVec Ideal S16x262144 .f32)) (res_main_v39 V0))
        (constant S_ .f32 0x00000000#32) reducesTo_S16x262144_S16_d1 h_S_ (ix1 b)
      = Loss.sumImg fun i j => (Loss.CC.one - Loss.sigR Loss.CC (Loss.plane4 X b) i j) * tplane4 Ti b i j := by
  have e := rows_compl_mul (res_main_v17 V0) (res_main_v0 V0) b
  simp only [plane_v17 V0 X hX, plane_v0 V0 Ti hT] at e
  exact e

/-! ## The result -/

/-- From launch contents `V0` with logits `X` and targets `Ti`, the reference's result buffer ends at `Loss.RT`. -/
theorem ref_val (V0 : Valuation τ sig (Elt Ideal)) (X : FVec Ideal S16x1x512x512 .f32) (Ti : IVec S16x1x512x512 32)
    (hX : V0 (Proc.devRef .tc main_arg0) = X) (hT : V0 (Proc.devRef .tc main_arg1) = Ti) :
    Cert.ReferenceIdeal.Value.val6 V0 (Proc.devRef .tc main_v240)
      = fun _ => Loss.RT Loss.CC (fun b => Loss.plane4 X b) (fun b => tplane4 Ti b) := by
  rw [Cert.ReferenceIdeal.Value.val6_main_v240 V0, hX, bce_term, hd10 V0,
    dice_term (s1 := fun b => Loss.sumImg (Loss.sigR Loss.CC (Loss.plane4 X b))) (s2 := fun b => Loss.sumImg (tplane4 Ti b))
      (s3 := fun b => Loss.sumImg fun i j => Loss.sigR Loss.CC (Loss.plane4 X b) i j * tplane4 Ti b i j),
    ftv_term (s1 := fun b => Loss.sumImg fun i j => Loss.sigR Loss.CC (Loss.plane4 X b) i j * tplane4 Ti b i j)
      (s2 := fun b => Loss.sumImg fun i j => Loss.sigR Loss.CC (Loss.plane4 X b) i j * (Loss.CC.one - tplane4 Ti b i j))
      (s3 := fun b => Loss.sumImg fun i j => (Loss.CC.one - Loss.sigR Loss.CC (Loss.plane4 X b) i j) * tplane4 Ti b i j)]
  · simp only [plane_v0 V0 Ti hT, plane_v75 V0 X hX, plane_v82 V0 Ti hT]
    funext i
    unfold Loss.RT Loss.combo
    set_option maxRecDepth 8192 in rfl
  case ht => exact sum_v41 V0 X Ti hX hT
  case hp => exact sum_fp V0 X Ti hX hT
  case hn => exact sum_fn V0 X Ti hX hT
  case h1 => exact sum_v18 V0 X hX
  case h2 => exact sum_v19 V0 Ti hT
  case h3 => exact sum_v18v19 V0 X Ti hX hT

end Cert.ReferenceIdeal.RefValue

end
-- ==== Proof.LossPool.lean ====
import proofs.«431201_j73778948211150_3_alg».proof.Proof.LossSpec

/-!
  Window maxima and minima on a 512 × 512 plane: the kernel's filled 3 × 3 pools are window extrema of half-width 1
  whenever the fill lies beyond every entry, and windows compose (a box is convex, so the positions within d + 1 of a
  point are those within 1 of a position within d).
-/

noncomputable section

namespace Loss

/-! ## Membership in a window -/

/-- A position lies in the window exactly when both coordinates are within d of the centre's. -/
private theorem mem_win {d : ℕ} {h w : Fin 512} {p : Fin 512 × Fin 512} :
    p ∈ win d h w ↔
      (h.val ≤ p.1.val + d ∧ p.1.val ≤ h.val + d) ∧ (w.val ≤ p.2.val + d ∧ p.2.val ≤ w.val + d) := by
  simp [win]

/-- An entry at a position of the window is at most the window maximum (a supremum bounds its members). -/
private theorem le_wmax_of {d : ℕ} {x : Pl} {h w h' w' : Fin 512}
    (h1 : h.val ≤ h'.val + d) (h2 : h'.val ≤ h.val + d) (h3 : w.val ≤ w'.val + d) (h4 : w'.val ≤ w.val + d) :
    x h' w' ≤ wmax d x h w :=
  Finset.le_sup (f := fun p : Fin 512 × Fin 512 => x p.1 p.2) (b := (h', w')) (mem_win.2 ⟨⟨h1, h2⟩, ⟨h3, h4⟩⟩)

/-- An entry at a position of the window is at least the window minimum. -/
private theorem wmin_le_of {d : ℕ} {x : Pl} {h w h' w' : Fin 512}
    (h1 : h.val ≤ h'.val + d) (h2 : h'.val ≤ h.val + d) (h3 : w.val ≤ w'.val + d) (h4 : w'.val ≤ w.val + d) :
    wmin d x h w ≤ x h' w' :=
  Finset.inf_le (f := fun p : Fin 512 × Fin 512 => x p.1 p.2) (b := (h', w')) (mem_win.2 ⟨⟨h1, h2⟩, ⟨h3, h4⟩⟩)

/-! ## The row and column passes, by their universal properties -/

/-- The row pass dominates every entry at most one row away: that entry is the centre, the one above or the one
    below, and each of the three is an argument of the maximum. -/
private theorem le_rowMax (fill : EReal) (x : Pl) {h h' : Fin 512} (w : Fin 512)
    (h1 : h.val ≤ h'.val + 1) (h2 : h'.val ≤ h.val + 1) : x h' w ≤ rowMax fill x h w := by
  unfold rowMax
  rcases Nat.lt_trichotomy h'.val h.val with hlt | heq | hgt
  · have hpos : 0 < h.val := by omega
    have he : h' = ⟨h.val - 1, by omega⟩ := Fin.ext (by show h'.val = h.val - 1; omega)
    have hup : upF fill x h w = x h' w := by unfold upF; rw [dif_pos hpos, he]
    rw [← hup]; exact le_trans (le_max_left _ _) (le_max_right _ _)
  · have he : h' = h := Fin.ext heq
    rw [he]; exact le_max_left _ _
  · have hlt : h.val + 1 < 512 := by have := h'.isLt; omega
    have he : h' = ⟨h.val + 1, hlt⟩ := Fin.ext (by show h'.val = h.val + 1; omega)
    have hdn : downF fill x h w = x h' w := by unfold downF; rw [dif_pos hlt, he]
    rw [← hdn]; exact le_trans (le_max_right _ _) (le_max_right _ _)

/-- The row pass is below any bound of the fill and of the entries at most one row away. -/
private theorem rowMax_le (fill : EReal) (x : Pl) (h w : Fin 512) (B : EReal) (hfill : fill ≤ B)
    (hB : ∀ h' : Fin 512, h.val ≤ h'.val + 1 → h'.val ≤ h.val + 1 → x h' w ≤ B) : rowMax fill x h w ≤ B := by
  unfold rowMax upF downF
  refine max_le (hB h (by omega) (by omega)) (max_le ?_ ?_)
  · split_ifs with hh
    · exact hB _ (by show h.val ≤ h.val - 1 + 1; omega) (by show h.val - 1 ≤ h.val + 1; omega)
    · exact hfill
  · split_ifs with hh
    · exact hB _ (by show h.val ≤ h.val + 1 + 1; omega) (by show h.val + 1 ≤ h.val + 1; omega)
    · exact hfill

/-- The column pass dominates every entry at most one column away. -/
private theorem le_colMax (fill : EReal) (r : Pl) (h : Fin 512) {w w' : Fin 512}
    (h1 : w.val ≤ w'.val + 1) (h2 : w'.val ≤ w.val + 1) : r h w' ≤ colMax fill r h w := by
  unfold colMax
  rcases Nat.lt_trichotomy w'.val w.val with hlt | heq | hgt
  · have hpos : 0 < w.val := by omega
    have he : w' = ⟨w.val - 1, by omega⟩ := Fin.ext (by show w'.val = w.val - 1; omega)
    have hl : leftF fill r h w = r h w' := by unfold leftF; rw [dif_pos hpos, he]
    rw [← hl]; exact le_trans (le_max_left _ _) (le_max_right _ _)
  · have he : w' = w := Fin.ext heq
    rw [he]; exact le_max_left _ _
  · have hlt : w.val + 1 < 512 := by have := w'.isLt; omega
    have he : w' = ⟨w.val + 1, hlt⟩ := Fin.ext (by show w'.val = w.val + 1; omega)
    have hr : rightF fill r h w = r h w' := by unfold rightF; rw [dif_pos hlt, he]
    rw [← hr]; exact le_trans (le_max_right _ _) (le_max_right _ _)

/-- The column pass is below any bound of the fill and of the entries at most one column away. -/
private theorem colMax_le (fill : EReal) (r : Pl) (h w : Fin 512) (B : EReal) (hfill : fill ≤ B)
    (hB : ∀ w' : Fin 512, w.val ≤ w'.val + 1 → w'.val ≤ w.val + 1 → r h w' ≤ B) : colMax fill r h w ≤ B := by
  unfold colMax leftF rightF
  refine max_le (hB w (by omega) (by omega)) (max_le ?_ ?_)
  · split_ifs with hh
    · exact hB _ (by show w.val ≤ w.val - 1 + 1; omega) (by show w.val - 1 ≤ w.val + 1; omega)
    · exact hfill
  · split_ifs with hh
    · exact hB _ (by show w.val ≤ w.val + 1 + 1; omega) (by show w.val + 1 ≤ w.val + 1; omega)
    · exact hfill

/-- The row pass of minima is below every entry at most one row away. -/
private theorem rowMin_le (fill : EReal) (x : Pl) {h h' : Fin 512} (w : Fin 512)
    (h1 : h.val ≤ h'.val + 1) (h2 : h'.val ≤ h.val + 1) : rowMin fill x h w ≤ x h' w := by
  unfold rowMin
  rcases Nat.lt_trichotomy h'.val h.val with hlt | heq | hgt
  · have hpos : 0 < h.val := by omega
    have he : h' = ⟨h.val - 1, by omega⟩ := Fin.ext (by show h'.val = h.val - 1; omega)
    have hup : upF fill x h w = x h' w := by unfold upF; rw [dif_pos hpos, he]
    rw [← hup]; exact le_trans (min_le_right _ _) (min_le_left _ _)
  · have he : h' = h := Fin.ext heq
    rw [he]; exact min_le_left _ _
  · have hlt : h.val + 1 < 512 := by have := h'.isLt; omega
    have he : h' = ⟨h.val + 1, hlt⟩ := Fin.ext (by show h'.val = h.val + 1; omega)
    have hdn : downF fill x h w = x h' w := by unfold downF; rw [dif_pos hlt, he]
    rw [← hdn]; exact le_trans (min_le_right _ _) (min_le_right _ _)

/-- The row pass of minima is above any lower bound of the fill and of the entries at most one row away. -/
private theorem le_rowMin (fill : EReal) (x : Pl) (h w : Fin 512) (B : EReal) (hfill : B ≤ fill)
    (hB : ∀ h' : Fin 512, h.val ≤ h'.val + 1 → h'.val ≤ h.val + 1 → B ≤ x h' w) : B ≤ rowMin fill x h w := by
  unfold rowMin upF downF
  refine le_min (hB h (by omega) (by omega)) (le_min ?_ ?_)
  · split_ifs with hh
    · exact hB _ (by show h.val ≤ h.val - 1 + 1; omega) (by show h.val - 1 ≤ h.val + 1; omega)
    · exact hfill
  · split_ifs with hh
    · exact hB _ (by show h.val ≤ h.val + 1 + 1; omega) (by show h.val + 1 ≤ h.val + 1; omega)
    · exact hfill

/-- The column pass of minima is below every entry at most one column away. -/
private theorem colMin_le (fill : EReal) (r : Pl) (h : Fin 512) {w w' : Fin 512}
    (h1 : w.val ≤ w'.val + 1) (h2 : w'.val ≤ w.val + 1) : colMin fill r h w ≤ r h w' := by
  unfold colMin
  rcases Nat.lt_trichotomy w'.val w.val with hlt | heq | hgt
  · have hpos : 0 < w.val := by omega
    have he : w' = ⟨w.val - 1, by omega⟩ := Fin.ext (by show w'.val = w.val - 1; omega)
    have hl : leftF fill r h w = r h w' := by unfold leftF; rw [dif_pos hpos, he]
    rw [← hl]; exact le_trans (min_le_right _ _) (min_le_left _ _)
  · have he : w' = w := Fin.ext heq
    rw [he]; exact min_le_left _ _
  · have hlt : w.val + 1 < 512 := by have := w'.isLt; omega
    have he : w' = ⟨w.val + 1, hlt⟩ := Fin.ext (by show w'.val = w.val + 1; omega)
    have hr : rightF fill r h w = r h w' := by unfold rightF; rw [dif_pos hlt, he]
    rw [← hr]; exact le_trans (min_le_right _ _) (min_le_right _ _)

/-- The column pass of minima is above any lower bound of the fill and of the entries at most one column away. -/
private theorem le_colMin (fill : EReal) (r : Pl) (h w : Fin 512) (B : EReal) (hfill : B ≤ fill)
    (hB : ∀ w' : Fin 512, w.val ≤ w'.val + 1 → w'.val ≤ w.val + 1 → B ≤ r h w') : B ≤ colMin fill r h w := by
  unfold colMin leftF rightF
  refine le_min (hB w (by omega) (by omega)) (le_min ?_ ?_)
  · split_ifs with hh
    · exact hB _ (by show w.val ≤ w.val - 1 + 1; omega) (by show w.val - 1 ≤ w.val + 1; omega)
    · exact hfill
  · split_ifs with hh
    · exact hB _ (by show w.val ≤ w.val + 1 + 1; omega) (by show w.val + 1 ≤ w.val + 1; omega)
    · exact hfill

/-! ## The statements -/

theorem le_wmax (d : ℕ) (x : Pl) (h w : Fin 512) : x h w ≤ wmax d x h w :=
  le_wmax_of (by omega) (by omega) (by omega) (by omega)

theorem wmin_le (d : ℕ) (x : Pl) (h w : Fin 512) : wmin d x h w ≤ x h w :=
  wmin_le_of (by omega) (by omega) (by omega) (by omega)

/-- A fill below every entry never wins a maximum: the filled 3 × 3 pool is the window maximum of half-width 1. -/
theorem pool3max_eq_wmax (fill : EReal) (x : Pl) (hf : ∀ h w, fill ≤ x h w) : pool3max fill x = wmax 1 x := by
  funext h w
  have hfill : fill ≤ wmax 1 x h w := le_trans (hf h w) (le_wmax 1 x h w)
  apply le_antisymm
  · -- every argument of the two passes is the fill or an entry of the window
    unfold pool3max
    refine colMax_le fill _ h w _ hfill fun w' hw1 hw2 => ?_
    exact rowMax_le fill x h w' _ hfill fun h' hh1 hh2 => le_wmax_of hh1 hh2 hw1 hw2
  · -- every entry of the window is reached by one row step then one column step
    refine Finset.sup_le fun p hp => ?_
    obtain ⟨⟨hh1, hh2⟩, ⟨hw1, hw2⟩⟩ := mem_win.1 hp
    unfold pool3max
    exact le_trans (le_rowMax fill x p.2 hh1 hh2) (le_colMax fill (rowMax fill x) h hw1 hw2)

/-- A fill above every entry never wins a minimum. -/
theorem pool3min_eq_wmin (fill : EReal) (x : Pl) (hf : ∀ h w, x h w ≤ fill) : pool3min fill x = wmin 1 x := by
  funext h w
  have hfill : wmin 1 x h w ≤ fill := le_trans (wmin_le 1 x h w) (hf h w)
  apply le_antisymm
  · refine Finset.le_inf fun p hp => ?_
    obtain ⟨⟨hh1, hh2⟩, ⟨hw1, hw2⟩⟩ := mem_win.1 hp
    unfold pool3min
    exact le_trans (colMin_le fill (rowMin fill x) h hw1 hw2) (rowMin_le fill x p.2 hh1 hh2)
  · unfold pool3min
    refine le_colMin fill _ h w _ hfill fun w' hw1 hw2 => ?_
    exact le_rowMin fill x h w' _ hfill fun h' hh1 hh2 => wmin_le_of hh1 hh2 hw1 hw2

/-- On a line of 512 points, a point within d + 1 of a centre is within d of some point within 1 of the centre:
    step from the centre one unit towards it (or stay, when it is the centre). -/
private theorem exists_mid (d : ℕ) (c p : Fin 512) (h1 : c.val ≤ p.val + (d + 1)) (h2 : p.val ≤ c.val + (d + 1)) :
    ∃ q : Fin 512, (c.val ≤ q.val + 1 ∧ q.val ≤ c.val + 1) ∧ (q.val ≤ p.val + d ∧ p.val ≤ q.val + d) := by
  rcases Nat.lt_trichotomy p.val c.val with hlt | heq | hgt
  · refine ⟨⟨c.val - 1, by have := c.isLt; omega⟩, ?_⟩
    show (c.val ≤ c.val - 1 + 1 ∧ c.val - 1 ≤ c.val + 1) ∧ (c.val - 1 ≤ p.val + d ∧ p.val ≤ c.val - 1 + d)
    omega
  · exact ⟨c, by omega⟩
  · refine ⟨⟨c.val + 1, by have := p.isLt; omega⟩, ?_⟩
    show (c.val ≤ c.val + 1 + 1 ∧ c.val + 1 ≤ c.val + 1) ∧ (c.val + 1 ≤ p.val + d ∧ p.val ≤ c.val + 1 + d)
    omega

/-- Windows compose. -/
theorem wmax_one_wmax (d : ℕ) (x : Pl) : wmax 1 (wmax d x) = wmax (d + 1) x := by
  funext h w
  apply le_antisymm
  · -- within d of a position within 1 of the centre is within d + 1 of the centre
    refine Finset.sup_le fun q hq => Finset.sup_le fun p hp => ?_
    obtain ⟨⟨a1, a2⟩, ⟨a3, a4⟩⟩ := mem_win.1 hq
    obtain ⟨⟨b1, b2⟩, ⟨b3, b4⟩⟩ := mem_win.1 hp
    exact le_wmax_of (by omega) (by omega) (by omega) (by omega)
  · -- conversely, clamp each coordinate into the inner window
    refine Finset.sup_le fun p hp => ?_
    obtain ⟨⟨a1, a2⟩, ⟨a3, a4⟩⟩ := mem_win.1 hp
    obtain ⟨q1, ⟨c1, c2⟩, ⟨c3, c4⟩⟩ := exists_mid d h p.1 a1 a2
    obtain ⟨q2, ⟨e1, e2⟩, ⟨e3, e4⟩⟩ := exists_mid d w p.2 a3 a4
    have hin : x p.1 p.2 ≤ wmax d x q1 q2 := le_wmax_of c3 c4 e3 e4
    exact le_trans hin (le_wmax_of (x := wmax d x) c1 c2 e1 e2)

theorem wmax_zero (x : Pl) : wmax 0 x = x := by
  funext h w
  apply le_antisymm
  · refine Finset.sup_le fun p hp => ?_
    obtain ⟨⟨a1, a2⟩, ⟨a3, a4⟩⟩ := mem_win.1 hp
    have e1 : p.1 = h := Fin.ext (by omega)
    have e2 : p.2 = w := Fin.ext (by omega)
    exact le_of_eq (by rw [e1, e2])
  · exact le_wmax 0 x h w

/-- d filled pools are the window maximum of half-width d, the fill being below every entry. -/
theorem iterK_eq_wmax (C : Consts) (x : Pl) (hf : ∀ h w, C.negFill ≤ x h w) (d : ℕ) : iterK C d x = wmax d x := by
  induction d with
  | zero => exact (wmax_zero x).symm
  | succ d ih =>
    show pool3max C.negFill (iterK C d x) = wmax (d + 1) x
    rw [ih, pool3max_eq_wmax C.negFill (wmax d x) (fun h w => le_trans (hf h w) (le_wmax d x h w)), wmax_one_wmax]

/-- A window extremum of real entries is real (the window holds its centre), and keeps a two-sided bound. -/
theorem wmax_real (d : ℕ) (x : Pl) (lo hi : ℝ) (hx : ∀ h w, ∃ r : ℝ, x h w = (r : EReal) ∧ lo ≤ r ∧ r ≤ hi) (h w : Fin 512) :
    ∃ r : ℝ, wmax d x h w = (r : EReal) ∧ lo ≤ r ∧ r ≤ hi := by
  obtain ⟨r0, hr0, hlo, _⟩ := hx h w
  -- the maximum is at least the centre's entry, a real ≥ lo, and at most hi as every entry is
  have h1 : ((lo : ℝ) : EReal) ≤ wmax d x h w :=
    le_trans (EReal.coe_le_coe_iff.2 hlo) (by rw [← hr0]; exact le_wmax d x h w)
  have h2 : wmax d x h w ≤ ((hi : ℝ) : EReal) := by
    refine Finset.sup_le fun p _ => ?_
    obtain ⟨r, hr, _, hrhi⟩ := hx p.1 p.2
    show x p.1 p.2 ≤ _
    rw [hr]; exact EReal.coe_le_coe_iff.2 hrhi
  have hbot : wmax d x h w ≠ ⊥ := fun e => by
    rw [e] at h1; exact absurd (le_bot_iff.1 h1) (EReal.coe_ne_bot lo)
  have htop : wmax d x h w ≠ ⊤ := fun e => by
    rw [e] at h2; exact absurd (top_le_iff.1 h2) (EReal.coe_ne_top hi)
  have hc : ((wmax d x h w).toReal : EReal) = wmax d x h w := EReal.coe_toReal htop hbot
  refine ⟨(wmax d x h w).toReal, hc.symm, ?_, ?_⟩
  · rw [← hc] at h1; exact EReal.coe_le_coe_iff.1 h1
  · rw [← hc] at h2; exact EReal.coe_le_coe_iff.1 h2

theorem wmin_real (d : ℕ) (x : Pl) (lo hi : ℝ) (hx : ∀ h w, ∃ r : ℝ, x h w = (r : EReal) ∧ lo ≤ r ∧ r ≤ hi) (h w : Fin 512) :
    ∃ r : ℝ, wmin d x h w = (r : EReal) ∧ lo ≤ r ∧ r ≤ hi := by
  obtain ⟨r0, hr0, _, hhi⟩ := hx h w
  -- the minimum is at most the centre's entry, a real ≤ hi, and at least lo as every entry is
  have h2 : wmin d x h w ≤ ((hi : ℝ) : EReal) :=
    le_trans (by rw [← hr0]; exact wmin_le d x h w) (EReal.coe_le_coe_iff.2 hhi)
  have h1 : ((lo : ℝ) : EReal) ≤ wmin d x h w := by
    refine Finset.le_inf fun p _ => ?_
    obtain ⟨r, hr, hrlo, _⟩ := hx p.1 p.2
    show _ ≤ x p.1 p.2
    rw [hr]; exact EReal.coe_le_coe_iff.2 hrlo
  have hbot : wmin d x h w ≠ ⊥ := fun e => by
    rw [e] at h1; exact absurd (le_bot_iff.1 h1) (EReal.coe_ne_bot lo)
  have htop : wmin d x h w ≠ ⊤ := fun e => by
    rw [e] at h2; exact absurd (top_le_iff.1 h2) (EReal.coe_ne_top hi)
  have hc : ((wmin d x h w).toReal : EReal) = wmin d x h w := EReal.coe_toReal htop hbot
  refine ⟨(wmin d x h w).toReal, hc.symm, ?_, ?_⟩
  · rw [← hc] at h1; exact EReal.coe_le_coe_iff.1 h1
  · rw [← hc] at h2; exact EReal.coe_le_coe_iff.1 h2

end Loss

end
-- ==== Proof.LossHd.lean ====
import proofs.«431201_j73778948211150_3_alg».proof.Proof.LossPool

/-!
  The Hausdorff surrogate. The kernel weights every entry's |dilation − boundary| and sums once per image; the reference
  takes the mean of each distance's two planes over all images and weights the means. On real entries these are one
  number: a finite sum of reals distributes over the weights and over the common divisor.
-/

noncomputable section

namespace Loss

open Idealize.ShloMosaic

/-! ## Reals inside the extended reals -/

/-- The inclusion of the reals is monotone, so it carries a maximum to the maximum. -/
private theorem coe_max_real (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The inclusion carries a finite sum to the sum of the inclusions: it carries 0 to 0 and a + b to a + b. -/
private theorem coe_fsum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The absolute difference of two reals is a real. -/
private theorem absE_coe_sub (r s : ℝ) :
    absE ((r : EReal) - (s : EReal)) = ((max (r - s) (-(r - s)) : ℝ) : EReal) := by
  rw [absE, coe_max_real, EReal.coe_neg, EReal.coe_sub]

/-! ## Window extrema are attained -/

/-- A window holds its centre. -/
private theorem centre_mem_win (d : ℕ) (h w : Fin 512) : (h, w) ∈ win d h w := by
  simp only [win, Finset.mem_filter, Finset.mem_univ, true_and]
  omega

/-- A finite non-empty maximum in a linear order is one of its entries. -/
private theorem wmax_attained (d : ℕ) (x : Pl) (h w : Fin 512) : ∃ p : Fin 512 × Fin 512, wmax d x h w = x p.1 p.2 := by
  obtain ⟨p, _, hp⟩ := Finset.exists_mem_eq_sup (win d h w) ⟨(h, w), centre_mem_win d h w⟩ (fun p => x p.1 p.2)
  exact ⟨p, hp⟩

private theorem wmin_attained (d : ℕ) (x : Pl) (h w : Fin 512) : ∃ p : Fin 512 × Fin 512, wmin d x h w = x p.1 p.2 := by
  obtain ⟨p, _, hp⟩ := Finset.exists_mem_eq_inf (win d h w) ⟨(h, w), centre_mem_win d h w⟩ (fun p => x p.1 p.2)
  exact ⟨p, hp⟩

/-- With fills beyond every entry the kernel's soft boundary is the reference's. -/
theorem bdryK_eq_bdryR (C : Consts) (hC : C.Good) (x : Pl)
    (hx : ∀ h w, ∃ r : ℝ, x h w = (r : EReal) ∧ -(2:ℝ)^31 ≤ r ∧ r ≤ (2:ℝ)^31) : bdryK C x = bdryR x := by
  have h1 : pool3max C.negFill x = wmax 1 x := by
    refine pool3max_eq_wmax _ _ fun h w => ?_
    obtain ⟨r, hr, hlo, _⟩ := hx h w
    rw [hr]
    exact le_trans hC.negFill_le (EReal.coe_le_coe_iff.mpr hlo)
  have h2 : pool3min C.posFill x = wmin 1 x := by
    refine pool3min_eq_wmin _ _ fun h w => ?_
    obtain ⟨r, hr, _, hhi⟩ := hx h w
    rw [hr]
    exact le_trans (EReal.coe_le_coe_iff.mpr hhi) hC.le_posFill
  funext h w
  simp only [bdryK, bdryR, h1, h2]

/-- A soft boundary of real entries is real and not negative. -/
theorem bdryR_real (x : Pl) (hx : ∀ h w, ∃ r : ℝ, x h w = (r : EReal)) (h w : Fin 512) :
    ∃ r : ℝ, bdryR x h w = (r : EReal) ∧ 0 ≤ r := by
  obtain ⟨p, hp⟩ := wmax_attained 1 x h w
  obtain ⟨q, hq⟩ := wmin_attained 1 x h w
  obtain ⟨a, ha⟩ := hx p.1 p.2
  obtain ⟨b, hb⟩ := hx q.1 q.2
  refine ⟨max (a - b) 0, ?_, le_max_right _ _⟩
  rw [bdryR, hp, hq, ha, hb, coe_max_real, EReal.coe_sub, EReal.coe_zero]

/-! ## Sums of real planes -/

/-- The kernel's sum of a plane of reals is the real double sum. -/
private theorem sumPl_coe (F : Fin 512 → Fin 512 → ℝ) :
    sumPl (fun h w => (F h w : EReal)) = ((∑ w : Fin 512, ∑ h : Fin 512, F h w : ℝ) : EReal) := by
  unfold sumPl
  rw [coe_fsum]
  refine Finset.sum_congr rfl fun w _ => ?_
  rw [coe_fsum]

/-- The host's sum over everything, of reals, is the real triple sum. -/
private theorem sumAll_coe (F : Fin 16 → Fin 512 → Fin 512 → ℝ) :
    sumAll (fun b h w => (F b h w : EReal)) = ((∑ b : Fin 16, ∑ h : Fin 512, ∑ w : Fin 512, F b h w : ℝ) : EReal) := by
  unfold sumAll
  rw [zero_add, coe_fsum]
  refine Finset.sum_congr rfl fun b _ => ?_
  rw [coe_fsum]
  refine Finset.sum_congr rfl fun h _ => ?_
  rw [coe_fsum]

/-- The host's sum over the images, of reals, is the real sum. -/
private theorem sum16_coe (F : Fin 16 → ℝ) : sum16 (fun b => (F b : EReal)) = ((∑ b : Fin 16, F b : ℝ) : EReal) := by
  unfold sum16
  rw [zero_add, coe_fsum]

/-- A real divided by a nonzero real. -/
private theorem div_coe_coe (x n : ℝ) (hn : n ≠ 0) : Ideal.div (x : EReal) (n : EReal) = ((x * (1 / n) : ℝ) : EReal) := by
  rw [Ideal.div_coe hn, EReal.coe_mul]

/-! ## The two running totals in closed form -/

/-- The kernel's running plane after d steps is the weighted sum of the first d absolute differences. -/
private theorem accK_coe (C : Consts) (a b : Pl) (wr : ℕ → ℝ) (hw : ∀ d, C.wt d = (wr d : EReal))
    (α : ℕ → Fin 512 → Fin 512 → ℝ)
    (hα : ∀ d h w, absE (iterK C (d + 1) a h w - b h w) = (α d h w : EReal)) (d : ℕ) (h w : Fin 512) :
    accK C a b d h w = ((∑ e ∈ Finset.range d, wr e * α e h w : ℝ) : EReal) := by
  induction d with
  | zero => simp [accK]
  | succ d ih =>
    show accK C a b d h w + C.wt d * absE (iterK C (d + 1) a h w - b h w) = _
    rw [ih, hw, hα, Finset.sum_range_succ, EReal.coe_add, EReal.coe_mul]

/-- The reference's running total after d distances is the weighted sum of the first d pairs of means. -/
private theorem hdR_coe (C : Consts) (PB GB : Fin 16 → Pl) (n : ℝ) (hn : n ≠ 0) (hN : C.nAll = (n : EReal))
    (wr : ℕ → ℝ) (hw : ∀ d, C.wt d = (wr d : EReal))
    (α β : ℕ → Fin 16 → Fin 512 → Fin 512 → ℝ)
    (hα : ∀ d b h w, absE (wmax (d + 1) (PB b) h w - GB b h w) = (α d b h w : EReal))
    (hβ : ∀ d b h w, absE (wmax (d + 1) (GB b) h w - PB b h w) = (β d b h w : EReal)) (d : ℕ) :
    hdR C PB GB d = ((∑ e ∈ Finset.range d, wr e *
      ((∑ b : Fin 16, ∑ h : Fin 512, ∑ w : Fin 512, α e b h w) * (1 / n)
        + (∑ b : Fin 16, ∑ h : Fin 512, ∑ w : Fin 512, β e b h w) * (1 / n)) : ℝ) : EReal) := by
  induction d with
  | zero => simp [hdR]
  | succ d ih =>
    show hdR C PB GB d + C.wt d *
      (Ideal.div (sumAll fun b h w => absE (wmax (d + 1) (PB b) h w - GB b h w)) C.nAll
        + Ideal.div (sumAll fun b h w => absE (wmax (d + 1) (GB b) h w - PB b h w)) C.nAll) = _
    simp only [hα, hβ]
    rw [ih, hw, hN, sumAll_coe, sumAll_coe, div_coe_coe _ _ hn, div_coe_coe _ _ hn, Finset.sum_range_succ]
    simp only [EReal.coe_add, EReal.coe_mul]

/-! ## The identity among reals -/

/-- A finite fourfold sum may be taken in any order. -/
private theorem sum4_swap (s : Finset ℕ) (g : ℕ → Fin 16 → Fin 512 → Fin 512 → ℝ) :
    ∑ b : Fin 16, ∑ w : Fin 512, ∑ h : Fin 512, ∑ e ∈ s, g e b h w
      = ∑ e ∈ s, ∑ b : Fin 16, ∑ h : Fin 512, ∑ w : Fin 512, g e b h w := by
  calc ∑ b : Fin 16, ∑ w : Fin 512, ∑ h : Fin 512, ∑ e ∈ s, g e b h w
      = ∑ b : Fin 16, ∑ h : Fin 512, ∑ w : Fin 512, ∑ e ∈ s, g e b h w :=
        Finset.sum_congr rfl fun b _ => Finset.sum_comm
    _ = ∑ b : Fin 16, ∑ h : Fin 512, ∑ e ∈ s, ∑ w : Fin 512, g e b h w :=
        Finset.sum_congr rfl fun b _ => Finset.sum_congr rfl fun h _ => Finset.sum_comm
    _ = ∑ b : Fin 16, ∑ e ∈ s, ∑ h : Fin 512, ∑ w : Fin 512, g e b h w :=
        Finset.sum_congr rfl fun b _ => Finset.sum_comm
    _ = ∑ e ∈ s, ∑ b : Fin 16, ∑ h : Fin 512, ∑ w : Fin 512, g e b h w := Finset.sum_comm

/-- Weights and the common divisor distribute over the finite sums. -/
private theorem real_identity (s : Finset ℕ) (c : ℕ → ℝ) (m : ℝ) (α β : ℕ → Fin 16 → Fin 512 → Fin 512 → ℝ) :
    (∑ b : Fin 16, ((∑ w : Fin 512, ∑ h : Fin 512, ∑ e ∈ s, c e * α e b h w)
        + (∑ w : Fin 512, ∑ h : Fin 512, ∑ e ∈ s, c e * β e b h w))) * m
      = ∑ e ∈ s, c e * ((∑ b : Fin 16, ∑ h : Fin 512, ∑ w : Fin 512, α e b h w) * m
        + (∑ b : Fin 16, ∑ h : Fin 512, ∑ w : Fin 512, β e b h w) * m) := by
  rw [Finset.sum_add_distrib, sum4_swap s (fun e b h w => c e * α e b h w),
    sum4_swap s (fun e b h w => c e * β e b h w), ← Finset.sum_add_distrib, Finset.sum_mul]
  refine Finset.sum_congr rfl fun e _ => ?_
  simp only [← Finset.mul_sum]
  ring

/-- The kernel's Hausdorff number is the reference's, for real non-negative boundaries. -/
theorem hd_eq (C : Consts) (hC : C.Good) (pb gb : Fin 16 → Pl)
    (hpb : ∀ b h w, ∃ r : ℝ, pb b h w = (r : EReal) ∧ 0 ≤ r)
    (hgb : ∀ b h w, ∃ r : ℝ, gb b h w = (r : EReal) ∧ 0 ≤ r) :
    Ideal.div (sum16 fun b => sumPl (accK C (pb b) (gb b) 10) + sumPl (accK C (gb b) (pb b) 10)) C.nAll
      = hdR C pb gb 10 := by
  obtain ⟨n, hn, hN⟩ := hC.nAll_real
  choose wr hw using hC.wt_real
  -- the fill is below every entry, so the iterated pools are window maxima
  have hfill : ∀ (x : Fin 16 → Pl), (∀ b h w, ∃ r : ℝ, x b h w = (r : EReal) ∧ 0 ≤ r) →
      ∀ b d, iterK C d (x b) = wmax d (x b) := fun x hx b d => by
    refine iterK_eq_wmax C (x b) (fun h w => ?_) d
    obtain ⟨r, hr, h0⟩ := hx b h w
    rw [hr]
    exact le_trans hC.negFill_le (EReal.coe_le_coe_iff.mpr (le_trans (by norm_num) h0))
  -- every absolute difference is a real
  have hreal : ∀ (x y : Fin 16 → Pl), (∀ b h w, ∃ r : ℝ, x b h w = (r : EReal) ∧ 0 ≤ r) →
      (∀ b h w, ∃ r : ℝ, y b h w = (r : EReal) ∧ 0 ≤ r) →
      ∀ d b h w, ∃ r : ℝ, absE (wmax (d + 1) (x b) h w - y b h w) = (r : EReal) := fun x y hx hy d b h w => by
    obtain ⟨p, hp⟩ := wmax_attained (d + 1) (x b) h w
    obtain ⟨r, hr, _⟩ := hx b p.1 p.2
    obtain ⟨s, hs, _⟩ := hy b h w
    exact ⟨_, by rw [hp, hr, hs, absE_coe_sub]⟩
  choose α hα using hreal pb gb hpb hgb
  choose β hβ using hreal gb pb hgb hpb
  have h1 : ∀ b, sumPl (accK C (pb b) (gb b) 10)
      = ((∑ w : Fin 512, ∑ h : Fin 512, ∑ e ∈ Finset.range 10, wr e * α e b h w : ℝ) : EReal) := fun b => by
    rw [← sumPl_coe]
    congr 1
    funext h w
    exact accK_coe C (pb b) (gb b) wr hw (fun d => α d b)
      (fun d h w => by rw [hfill pb hpb b (d + 1)]; exact hα d b h w) 10 h w
  have h2 : ∀ b, sumPl (accK C (gb b) (pb b) 10)
      = ((∑ w : Fin 512, ∑ h : Fin 512, ∑ e ∈ Finset.range 10, wr e * β e b h w : ℝ) : EReal) := fun b => by
    rw [← sumPl_coe]
    congr 1
    funext h w
    exact accK_coe C (gb b) (pb b) wr hw (fun d => β d b)
      (fun d h w => by rw [hfill gb hgb b (d + 1)]; exact hβ d b h w) 10 h w
  simp only [h1, h2, ← EReal.coe_add]
  rw [sum16_coe, hN, div_coe_coe _ _ hn, hdR_coe C pb gb n hn hN wr hw α β hα hβ 10, EReal.coe_eq_coe_iff]
  exact real_identity (Finset.range 10) wr (1 / n) α β

end Loss

end
-- ==== Proof.LossAlgebra.lean ====
import proofs.«431201_j73778948211150_3_alg».proof.Proof.LossHd
import Mathlib.Data.EReal.Operations
import Mathlib.Data.EReal.Inv
import Mathlib.Algebra.BigOperators.Group.Finset.Basic
import Mathlib.Algebra.BigOperators.Ring.Finset
import Mathlib.Analysis.SpecialFunctions.Exp

/-!
  The two readings of the loss agree. The cross-entropy and Dice terms only regroup finite sums; the Tversky term needs
  Σ p·(1 − t) = Σ p − Σ p·t and its mirror, true of reals; the Hausdorff term is the module below this one.
-/

noncomputable section

namespace Loss

open Idealize.ShloMosaic

/-! ## Finite sums of reals inside the extended reals -/

/-- The inclusion of the reals carries a finite sum to the sum of the inclusions: it carries 0 to 0 and a + b to a + b. -/
private theorem coe_sum' {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The host sum of a plane of reals is the real double sum. -/
private theorem sumImg_coe (f : Fin 512 → Fin 512 → ℝ) :
    sumImg (fun h w => (f h w : EReal)) = ((∑ h : Fin 512, ∑ w : Fin 512, f h w : ℝ) : EReal) := by
  unfold sumImg
  rw [zero_add, coe_sum']
  refine Finset.sum_congr rfl fun h _ => ?_
  rw [coe_sum']

/-! ## The two orders of summation -/

/-- Columns then rows, or rows then columns: a finite double sum in a commutative monoid. -/
private theorem sumPl_eq_sumImg (f : Pl) : sumPl f = sumImg f := by
  unfold sumPl sumImg
  rw [zero_add]
  exact Finset.sum_comm

/-- Sixteen image sums make the sum over everything. -/
private theorem sum16_sumImg (f : Fin 16 → Pl) : sum16 (fun b => sumImg (f b)) = sumAll f := by
  unfold sum16 sumImg sumAll
  simp only [zero_add]

/-! ## Elementwise pieces -/

/-- 0 − a is −a. -/
private theorem bceK_eq_bceR (x t : EReal) : bceK x t = bceR x t := by
  unfold bceK bceR
  rw [zero_sub]

/-- The sigmoid is by definition 1 / (1 + e⁻ˣ), and the shared constant is 1. -/
private theorem sigP_eq_sigR (C : Consts) (hC : C.Good) (x : Pl) : sigP x = sigR C x := by
  funext h w
  show Ideal.logistic (x h w) = Ideal.div C.one (C.one + Ideal.exp (-(x h w)))
  rw [hC.one_eq]
  rfl

/-- The sigmoid of a real is a real between 0 and 1. -/
private theorem sigR_real (C : Consts) (hC : C.Good) (x : Pl) (hx : ∀ h w, ∃ r : ℝ, x h w = (r : EReal))
    (h w : Fin 512) : ∃ r : ℝ, sigR C x h w = (r : EReal) ∧ 0 ≤ r ∧ r ≤ 1 := by
  obtain ⟨r, hr⟩ := hx h w
  rw [← sigP_eq_sigR C hC]
  have hpos : (0 : ℝ) < 1 + Real.exp (-r) := by positivity
  refine ⟨(1 + Real.exp (-r))⁻¹, ?_, ?_, ?_⟩
  · show Ideal.logistic (x h w) = _
    rw [hr, Ideal.logistic_coe]
  · exact (inv_pos.2 hpos).le
  · exact inv_le_one_of_one_le₀ (by linarith [Real.exp_pos (-r)])

/-! ## False positives and false negatives, on real planes -/

/-- Σ p − Σ p·t = Σ p·(1 − t) for real planes. -/
private theorem sumImg_fp (p t : Pl) (hp : ∀ h w, ∃ r : ℝ, p h w = (r : EReal))
    (ht : ∀ h w, ∃ r : ℝ, t h w = (r : EReal)) :
    sumImg p - sumImg (fun h w => p h w * t h w) = sumImg (fun h w => p h w * (1 - t h w)) := by
  choose P hP using hp
  choose Tt hT using ht
  have e1 : p = fun h w => (P h w : EReal) := funext fun h => funext fun w => hP h w
  have e2 : t = fun h w => (Tt h w : EReal) := funext fun h => funext fun w => hT h w
  subst e1 e2
  have m1 : ∀ h w, (P h w : EReal) * (Tt h w : EReal) = ((P h w * Tt h w : ℝ) : EReal) := fun h w => by
    rw [EReal.coe_mul]
  have m2 : ∀ h w, (P h w : EReal) * (1 - (Tt h w : EReal)) = ((P h w * (1 - Tt h w) : ℝ) : EReal) := fun h w => by
    rw [EReal.coe_mul, EReal.coe_sub, EReal.coe_one]
  simp only [m1, m2]
  rw [sumImg_coe, sumImg_coe, sumImg_coe, ← EReal.coe_sub]
  congr 1
  simp only [mul_sub, mul_one, Finset.sum_sub_distrib]

/-- Σ t − Σ p·t = Σ (1 − p)·t for real planes. -/
private theorem sumImg_fn (p t : Pl) (hp : ∀ h w, ∃ r : ℝ, p h w = (r : EReal))
    (ht : ∀ h w, ∃ r : ℝ, t h w = (r : EReal)) :
    sumImg t - sumImg (fun h w => p h w * t h w) = sumImg (fun h w => (1 - p h w) * t h w) := by
  choose P hP using hp
  choose Tt hT using ht
  have e1 : p = fun h w => (P h w : EReal) := funext fun h => funext fun w => hP h w
  have e2 : t = fun h w => (Tt h w : EReal) := funext fun h => funext fun w => hT h w
  subst e1 e2
  have m1 : ∀ h w, (P h w : EReal) * (Tt h w : EReal) = ((P h w * Tt h w : ℝ) : EReal) := fun h w => by
    rw [EReal.coe_mul]
  have m2 : ∀ h w, (1 - (P h w : EReal)) * (Tt h w : EReal) = (((1 - P h w) * Tt h w : ℝ) : EReal) := fun h w => by
    rw [EReal.coe_mul, EReal.coe_sub, EReal.coe_one]
  simp only [m1, m2]
  rw [sumImg_coe, sumImg_coe, sumImg_coe, ← EReal.coe_sub]
  congr 1
  simp only [sub_mul, one_mul, Finset.sum_sub_distrib]

/-- The two readings agree: on finite logits and an integer plane within the 32-bit range. -/
theorem KT_eq_RT (C : Consts) (hC : C.Good) (X T : Fin 16 → Pl)
    (hX : ∀ b h w, ∃ r : ℝ, X b h w = (r : EReal))
    (hT : ∀ b h w, ∃ r : ℝ, T b h w = (r : EReal) ∧ -(2:ℝ)^31 ≤ r ∧ r ≤ (2:ℝ)^31) :
    KT C (fun b => kS0 (X b) (T b)) (fun b => kS1 (X b)) (fun b => kS2 (T b)) (fun b => kS3 (X b) (T b))
      (fun b => kS4 C (X b) (T b)) = RT C X T := by
  -- the entries of every plane are reals
  have hTr : ∀ b h w, ∃ r : ℝ, T b h w = (r : EReal) := fun b h w =>
    let ⟨r, hr, _⟩ := hT b h w; ⟨r, hr⟩
  have hSr : ∀ b h w, ∃ r : ℝ, sigR C (X b) h w = (r : EReal) := fun b h w =>
    let ⟨r, hr, _⟩ := sigR_real C hC (X b) (hX b) h w; ⟨r, hr⟩
  have hSb : ∀ b h w, ∃ r : ℝ, sigR C (X b) h w = (r : EReal) ∧ -(2:ℝ)^31 ≤ r ∧ r ≤ (2:ℝ)^31 := fun b h w => by
    obtain ⟨r, hr, h0, h1⟩ := sigR_real C hC (X b) (hX b) h w
    refine ⟨r, hr, ?_, ?_⟩
    · have : (0:ℝ) ≤ (2:ℝ)^31 := by positivity
      linarith
    · have : (1:ℝ) ≤ (2:ℝ)^31 := one_le_pow₀ (by norm_num)
      linarith
  -- the five statistics of one image, in the reference's spelling
  have h0 : ∀ b, kS0 (X b) (T b) = sumImg fun h w => bceR (X b h w) (T b h w) := fun b => by
    unfold kS0
    rw [sumPl_eq_sumImg]
    simp only [bceK_eq_bceR]
  have h1 : ∀ b, kS1 (X b) = sumImg (sigR C (X b)) := fun b => by
    unfold kS1
    rw [sumPl_eq_sumImg, sigP_eq_sigR C hC]
  have h2 : ∀ b, kS2 (T b) = sumImg (T b) := fun b => by
    unfold kS2
    rw [sumPl_eq_sumImg]
  have h3 : ∀ b, kS3 (X b) (T b) = sumImg fun h w => sigR C (X b) h w * T b h w := fun b => by
    unfold kS3
    rw [sumPl_eq_sumImg, sigP_eq_sigR C hC]
  have h4 : ∀ b, kS4 C (X b) (T b)
      = sumPl (accK C (bdryR (sigR C (X b))) (bdryR (T b)) 10)
        + sumPl (accK C (bdryR (T b)) (bdryR (sigR C (X b))) 10) := fun b => by
    unfold kS4
    rw [sigP_eq_sigR C hC, bdryK_eq_bdryR C hC (sigR C (X b)) (hSb b), bdryK_eq_bdryR C hC (T b) (hT b)]
  -- false positives and negatives
  have hfp : ∀ b, sumImg (sigR C (X b)) - sumImg (fun h w => sigR C (X b) h w * T b h w)
      = sumImg fun h w => sigR C (X b) h w * (C.one - T b h w) := fun b => by
    rw [hC.one_eq]
    exact sumImg_fp _ _ (hSr b) (hTr b)
  have hfn : ∀ b, sumImg (T b) - sumImg (fun h w => sigR C (X b) h w * T b h w)
      = sumImg fun h w => (C.one - sigR C (X b) h w) * T b h w := fun b => by
    rw [hC.one_eq]
    exact sumImg_fn _ _ (hSr b) (hTr b)
  -- the Hausdorff number
  have hh : Ideal.div (sum16 fun b => kS4 C (X b) (T b)) C.nAll
      = hdR C (fun b => bdryR (sigR C (X b))) (fun b => bdryR (T b)) 10 := by
    simp only [h4]
    exact hd_eq C hC (fun b => bdryR (sigR C (X b))) (fun b => bdryR (T b))
      (fun b h w => bdryR_real _ (hSr b) h w) (fun b h w => bdryR_real _ (hTr b) h w)
  unfold KT RT
  rw [hh]
  simp only [h0, h1, h2, h3, hfp, hfn, sum16_sumImg]

end Loss

end
-- ==== Proof.PreFinite.lean ====
import proofs.«431201_j73778948211150_3_alg».proof.Pre_finite_inputs
import proofs.«431201_j73778948211150_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-!
  What the precondition gives. It says |x| < +∞ at every entry of the logits array (an all-reduction of the compare with
  the literal +∞), so at the extended reals every entry of the logits is a real number. The integer array needs no
  precondition: a 32-bit integer read as a real lies in [−2^31, 2^31].
-/

noncomputable section

namespace Cert.Pre_finite_inputs

open Idealize.ShloMosaic

/-- The scalar shape has one index. -/
private instance : Subsingleton S_.Idx := ⟨fun a b => funext fun d => d.elim0⟩

/-- The bit pattern 0x7F800000 is +∞ at the extended reals. -/
private theorem ofBits_inf : Ideal.ofBits .f32 0x7F800000#32 = (⊤ : EReal) := by
  simp [Ideal.ofBits, Ideal.ieee]

/-- |a| < +∞ at the extended reals only when a is a real: max a (−a) is +∞ at both infinities. -/
private theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- Under the precondition every logit is a real. -/
theorem finite_of_pre (x : FVec Ideal S16x1x512x512 .f32) (ti : IVec S16x1x512x512 32)
    (h : fn (F := Ideal) x ti = fun _ => 1#1) : ∀ i, ∃ r : ℝ, x i = (r : EReal) := by
  intro i
  have h0 := congrFun h ValueIdx.ix0
  dsimp only [fn] at h0
  have hi := Host.reduce_andi_all _ _ _ _ _ h0 i
  have hi' : Ideal.cmp .olt (max (x i) (-(x i))) (Ideal.ofBits .f32 0x7F800000#32) = 1#1 := hi
  rw [ofBits_inf] at hi'
  exact real_of_abs_lt_top _ hi'

/-- A 32-bit integer, read signed, as a real. -/
theorem toInt_bounds (v : BitVec 32) : -(2:ℝ)^31 ≤ ((v.toInt : ℤ) : ℝ) ∧ ((v.toInt : ℤ) : ℝ) ≤ (2:ℝ)^31 := by
  have h1 : -(2:ℤ)^31 ≤ v.toInt := by
    have := BitVec.le_toInt v
    simpa using this
  have h2 : v.toInt < (2:ℤ)^31 := by
    have := BitVec.toInt_lt (x := v)
    simpa using this
  constructor
  · exact_mod_cast h1
  · exact_mod_cast h2.le

end Cert.Pre_finite_inputs

end
-- ==== Proof.lean ====
import proofs.«431201_j73778948211150_3_alg».proof.Defs
import proofs.«431201_j73778948211150_3_alg».proof.Proof.Gen.Kernel
import proofs.«431201_j73778948211150_3_alg».proof.Proof.Gen.KernelIdeal
import proofs.«431201_j73778948211150_3_alg».proof.Proof.Gen.ReferenceIdeal
import proofs.«431201_j73778948211150_3_alg».proof.Proof.Gen.Pre_finite_inputs
import proofs.«431201_j73778948211150_3_alg».proof.Proof.KFrameBits
import proofs.«431201_j73778948211150_3_alg».proof.Proof.KFinal
import proofs.«431201_j73778948211150_3_alg».proof.Proof.RefValue
import proofs.«431201_j73778948211150_3_alg».proof.Proof.LossAlgebra
import proofs.«431201_j73778948211150_3_alg».proof.Proof.PreFinite
import Idealize.ShloMosaic.Adequacy
import Idealize.ShloMosaic.Init

/-!
  The combined segmentation loss: the Pallas kernel program against its jnp reference, over the extended reals.

  Both programs compute ((1·bce + 1·dice) + 1·tversky) + 0.1·hausdorff with the same literals. The kernel makes one pass
  over the 16 images, reducing each to five numbers — the summed cross-entropy entries, Σp, Σt, Σp·t and a weighted sum of
  absolute differences between dilated soft boundaries — and finishes on the host; the reference sums whole arrays, takes
  false positives and negatives as Σ p·(1 − t) and Σ (1 − p)·t, and dilates with one window reduction per distance.
  They agree because (i) a finite sum may be regrouped, (ii) on real entries sums distribute over the subtraction, the
  Hausdorff weights and the common divisor, and (iii) d successive 3 × 3 maxima whose out-of-image neighbours read as
  −10^30 are the (2d+1)-square window maximum over the part of the window inside the image, every entry being far above
  the fill (a sigmoid is positive, a 32-bit integer is at least −2^31, a boundary is not negative). The precondition
  (finite logits) supplies the reals.

  The three frames: each kernel program is one pipelined region whose body loads two whole blocks and stores one whole
  vector, then host lines writing buffers of their own; the reference is host lines only, its run read back as generated.
  The idealization rewrote nothing, so `preserves` has nothing to state.
-/

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end at one number: the kernel's combination of the
    per-image statistics is the reference's reading of the loss (`Loss.KT_eq_RT`), the logits real by the precondition
    and the integers within the 32-bit range. -/
theorem algebraic : Cert.algebraic_KernelIdeal_ReferenceIdeal := by
  intro m ρ m' ρ' hpre hagree
  refine ⟨fun c => (fun _ => Loss.RT Loss.CC
      (fun b => Loss.plane4 (m ((c.tc : Thread Cert.KernelIdeal.nD Cert.KernelIdeal.τ).loc Cert.KernelIdeal.main_arg0)) b)
      (fun b => Cert.KernelIdeal.Gen.tplane4 (m ((c.tc : Thread Cert.KernelIdeal.nD Cert.KernelIdeal.τ).loc Cert.KernelIdeal.main_arg1)) b)), ?_, ?_⟩
  · refine (θ_run Cert.KernelIdeal.defs _ _).mono (fun _ h c => ⟨(h c).1.trans ?_, (h c).2⟩) (Cert.KernelIdeal.Gen.krun m ρ)
    funext _
    refine Loss.KT_eq_RT Loss.CC Loss.CC_good _ _ ?_ ?_
    · intro b i j
      exact Cert.Pre_finite_inputs.finite_of_pre _ _ (hpre c) _
    · intro b i j
      exact ⟨_, rfl, Cert.Pre_finite_inputs.toInt_bounds _⟩
  · refine (θ_run Cert.ReferenceIdeal.defs _ _).mono (fun _ h c => ⟨(h c).1.trans ?_, (h c).2⟩)
      (Cert.ReferenceIdeal.Value.run (F := Ideal) m' ρ')
    refine ((Cert.ReferenceIdeal.Value.val6_main_v240 _).symm.trans
      (Cert.ReferenceIdeal.RefValue.ref_val _
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (hagree c).1 (hagree c).2)).trans ?_
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
